-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v23)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v23) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v57) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1048576x32 : Shape := ⟨2, ![1048576, 32]⟩
abbrev S_ : Shape := ⟨0, ![]⟩

class Facts : Prop where
  bcast_S_S1048576x32 : S_.BroadcastsInDim S1048576x32 (![] : Fin 0 → Fin S1048576x32.rank)
  reducesTo_S1048576x32_S_d0_1 : S1048576x32.ReducesTo [0, 1] S_
  h_S_ : 0 < S_.numel

variable [Facts]

def fn {F : FTy → Type} [FloatOps F] (main_arg0 : FVec F S1048576x32 .f32) (main_arg1 : FVec F S1048576x32 .f32) : IVec S_ 1 :=
  let main_v0 : FVec F S1048576x32 .f32 := Host.absf main_arg0
  let main_cst : FVec F S_ .f32 := constant S_ .f32 0x7F800000#32
  let main_v1 : FVec F S1048576x32 .f32 := broadcastInDim S1048576x32 ![] bcast_S_S1048576x32 main_cst
  let main_v2 : IVec S1048576x32 1 := cmpf .olt main_v0 main_v1
  let main_c : IVec S_ 1 := constantI S_ 1 1#1
  let main_v3 : IVec S_ 1 := (fun x v => Host.reduce IntOp.andi x v reducesTo_S1048576x32_S_d0_1 h_S_) main_v2 main_c
  let main_v4 : FVec F S1048576x32 .f32 := Host.absf main_arg1
  let main_cst_0 : FVec F S_ .f32 := constant S_ .f32 0x7F800000#32
  let main_v5 : FVec F S1048576x32 .f32 := broadcastInDim S1048576x32 ![] bcast_S_S1048576x32 main_cst_0
  let main_v6 : IVec S1048576x32 1 := cmpf .olt main_v4 main_v5
  let main_c_1 : IVec S_ 1 := constantI S_ 1 1#1
  let main_v7 : IVec S_ 1 := (fun x v => Host.reduce IntOp.andi x v reducesTo_S1048576x32_S_d0_1 h_S_) main_v6 main_c_1
  let main_v8 : IVec S_ 1 := andi main_v3 main_v7
  main_v8
-- ==== Kernel.lean ====
abbrev S1048576x32 : Shape := ⟨2, ![1048576, 32]⟩
abbrev S10 : Shape := ⟨1, ![10]⟩
abbrev S1x10 : Shape := ⟨2, ![1, 10]⟩
abbrev S16384x32 : Shape := ⟨2, ![16384, 32]⟩
abbrev S16384 : Shape := ⟨1, ![16384]⟩
abbrev S16384x1 : Shape := ⟨2, ![16384, 1]⟩
abbrev S16384x10 : Shape := ⟨2, ![16384, 10]⟩
abbrev S_ : Shape := ⟨0, ![]⟩
abbrev S1x1 : Shape := ⟨2, ![1, 1]⟩
abbrev S1 : Shape := ⟨1, ![1]⟩

abbrev nBuf : Space → Nat
  | .hbm => 42
  | .vmem => 13
  | .smem => 0
  | _ => 0

abbrev bufTy : (tb : Table) → Fin (tcTables nBuf tb) → BufTy
  | .hbm, ⟨0, _⟩ => ⟨S1048576x32, .f32⟩
  | .hbm, ⟨1, _⟩ => ⟨S1048576x32, .f32⟩
  | .hbm, ⟨2, _⟩ => ⟨S10, .f32⟩
  | .hbm, ⟨3, _⟩ => ⟨S1x10, .f32⟩
  | .hbm, ⟨4, _⟩ => ⟨S10, .f32⟩
  | .hbm, ⟨5, _⟩ => ⟨S_, .f32⟩
  | .hbm, ⟨6, _⟩ => ⟨S10, .f32⟩
  | .hbm, ⟨7, _⟩ => ⟨S10, .f32⟩
  | .hbm, ⟨8, _⟩ => ⟨S_, .f32⟩
  | .hbm, ⟨9, _⟩ => ⟨S10, .f32⟩
  | .hbm, ⟨10, _⟩ => ⟨S10, .i1⟩
  | .hbm, ⟨11, _⟩ => ⟨S_, .f32⟩
  | .hbm, ⟨12, _⟩ => ⟨S_, .f32⟩
  | .hbm, ⟨13, _⟩ => ⟨S10, .f32⟩
  | .hbm, ⟨14, _⟩ => ⟨S10, .f32⟩
  | .hbm, ⟨15, _⟩ => ⟨S_, .f32⟩
  | .hbm, ⟨16, _⟩ => ⟨S10, .f32⟩
  | .hbm, ⟨17, _⟩ => ⟨S10, .i1⟩
  | .hbm, ⟨18, _⟩ => ⟨S_, .f32⟩
  | .hbm, ⟨19, _⟩ => ⟨S10, .f32⟩
  | .hbm, ⟨20, _⟩ => ⟨S10, .f32⟩
  | .hbm, ⟨21, _⟩ => ⟨S10, .f32⟩
  | .hbm, ⟨22, _⟩ => ⟨S_, .f32⟩
  | .hbm, ⟨23, _⟩ => ⟨S_, .f32⟩
  | .hbm, ⟨24, _⟩ => ⟨S10, .f32⟩
  | .hbm, ⟨25, _⟩ => ⟨S10, .f32⟩
  | .hbm, ⟨26, _⟩ => ⟨S10, .f32⟩
  | .hbm, ⟨27, _⟩ => ⟨S10, .f32⟩
  | .hbm, ⟨28, _⟩ => ⟨S_, .f32⟩
  | .hbm, ⟨29, _⟩ => ⟨S_, .f32⟩
  | .hbm, ⟨30, _⟩ => ⟨S10, .f32⟩
  | .hbm, ⟨31, _⟩ => ⟨S10, .f32⟩
  | .hbm, ⟨32, _⟩ => ⟨S_, .f32⟩
  | .hbm, ⟨33, _⟩ => ⟨S10, .f32⟩
  | .hbm, ⟨34, _⟩ => ⟨S10, .i1⟩
  | .hbm, ⟨35, _⟩ => ⟨S_, .f32⟩
  | .hbm, ⟨36, _⟩ => ⟨S_, .f32⟩
  | .hbm, ⟨37, _⟩ => ⟨S10, .f32⟩
  | .hbm, ⟨38, _⟩ => ⟨S10, .f32⟩
  | .hbm, ⟨39, _⟩ => ⟨S1x10, .f32⟩
  | .hbm, ⟨40, _⟩ => ⟨S1x1, .f32⟩
  | .hbm, ⟨41, _⟩ => ⟨S_, .f32⟩
  | .local _ .vmem, ⟨0, _⟩ => ⟨S16384x32, .f32⟩
  | .local _ .vmem, ⟨1, _⟩ => ⟨S16384x32, .f32⟩
  | .local _ .vmem, ⟨2, _⟩ => ⟨S16384x32, .f32⟩
  | .local _ .vmem, ⟨3, _⟩ => ⟨S16384x32, .f32⟩
  | .local _ .vmem, ⟨4, _⟩ => ⟨S1x10, .f32⟩
  | .local _ .vmem, ⟨5, _⟩ => ⟨S1x10, .f32⟩
  | .local _ .vmem, ⟨6, _⟩ => ⟨S16384x32, .f32⟩
  | .local _ .vmem, ⟨7, _⟩ => ⟨S16384x32, .f32⟩
  | .local _ .vmem, ⟨8, _⟩ => ⟨S16384x32, .f32⟩
  | .local _ .vmem, ⟨9, _⟩ => ⟨S16384x32, .f32⟩
  | .local _ .vmem, ⟨10, _⟩ => ⟨S1x10, .f32⟩
  | .local _ .vmem, ⟨11, _⟩ => ⟨S1x1, .f32⟩
  | .local _ .vmem, ⟨12, _⟩ => ⟨S1x1, .f32⟩
  | _, _ => ⟨S1048576x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_v3 : Ref sig .tc := ⟨.hbm, 7, rfl⟩
abbrev main_cst_1 : Ref sig .tc := ⟨.hbm, 8, rfl⟩
abbrev main_v4 : Ref sig .tc := ⟨.hbm, 9, rfl⟩
abbrev main_v5 : Ref sig .tc := ⟨.hbm, 10, rfl⟩
abbrev main_cst_2 : Ref sig .tc := ⟨.hbm, 11, rfl⟩
abbrev main_call0_v0 : Ref sig .tc := ⟨.hbm, 12, rfl⟩
abbrev main_call0_v1 : Ref sig .tc := ⟨.hbm, 13, rfl⟩
abbrev main_v6 : Ref sig .tc := ⟨.hbm, 14, rfl⟩
abbrev main_cst_3 : Ref sig .tc := ⟨.hbm, 15, rfl⟩
abbrev main_v7 : Ref sig .tc := ⟨.hbm, 16, rfl⟩
abbrev main_v8 : Ref sig .tc := ⟨.hbm, 17, rfl⟩
abbrev main_cst_4 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_5 : Ref sig .tc := ⟨.hbm, 22, rfl⟩
abbrev main_call1_v0 : Ref sig .tc := ⟨.hbm, 23, rfl⟩
abbrev main_call1_v1 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_cst_6 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_cst_7 : Ref sig .tc := ⟨.hbm, 32, rfl⟩
abbrev main_v18 : Ref sig .tc := ⟨.hbm, 33, rfl⟩
abbrev main_v19 : Ref sig .tc := ⟨.hbm, 34, rfl⟩
abbrev main_cst_8 : Ref sig .tc := ⟨.hbm, 35, rfl⟩
abbrev main_call2_v0 : Ref sig .tc := ⟨.hbm, 36, rfl⟩
abbrev main_call2_v1 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg3_0 : Ref sig .tc := ⟨.vmem, 11, rfl⟩
abbrev cc1_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem3_0 : DmaSem sig := 10

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S16384x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16384x32 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x10 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev grid1 : Pipeline.Grid := ⟨1, ![64], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S16384x32 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S16384x32 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x10 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x1 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

class Facts₀ : Prop where
  inb_S1x10_S1x10_0_0 : ∀ a, (![0, 0] : Fin 2 → Nat) a + S1x10.size a ≤ S1x10.size a
  h_S1x10 : 0 < S1x10.numel
  shapeCasts_S1x10_S1x10 : S1x10.ShapeCasts S1x10
  inb_S16384x32_S16384x32_0_0 : ∀ a, (![0, 0] : Fin 2 → Nat) a + S16384x32.size a ≤ S16384x32.size a
  h_S16384x32 : 0 < S16384x32.numel
  reduces_S16384x32_S16384 : S16384x32.Reduces [1] S16384
  shapeCasts_S16384_S16384x1 : S16384.ShapeCasts S16384x1
  iota_S16384x10_d1_w32 : S16384x10.Iotas .tc 32 [1]
  broadcasts_S16384x1_S16384x10 : S16384x1.Broadcasts S16384x10
  natLt_1_32 : 1 < 32
  reduces_S16384x10_S10 : S16384x10.Reduces [0] S10
  shapeCasts_S10_S1x10 : S10.ShapeCasts S1x10
  shapeCasts_S1x10_S10 : S1x10.ShapeCasts S10
  bcast_S_S10 : S_.BroadcastsInDim S10 (![] : Fin 0 → Fin S10.rank)
  reducesTo_S10_S_d0 : S10.ReducesTo [0] S_
  h_S_ : 0 < S_.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x10_S16384x10 : S1x10.Broadcasts S16384x10
  reduces_S16384x10_S16384 : S16384x10.Reduces [1] S16384
  reduces_S16384x1_S1 : S16384x1.Reduces [0] S1
  shapeCasts_S1_S1x1 : S1.ShapeCasts S1x1
  shapeCasts_S1x1_S_ : S1x1.ShapeCasts S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16384x32.size a ≤ S1048576x32.size a
  hwx0_0 : ∀ i : grid0.Coords, EltTy.bits .f32 = 32 ∨ (Rect.block (s := S1048576x32) S16384x32.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S16384x32.size a ≤ S1048576x32.size a
  hwx0_1 : ∀ i : grid0.Coords, EltTy.bits .f32 = 32 ∨ (Rect.block (s := S1048576x32) S16384x32.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x10.size a ≤ S1x10.size a
  hwx0_2 : ∀ i : grid0.Coords, EltTy.bits .f32 = 32 ∨ (Rect.block (s := S1x10) S1x10.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S16384x32.size a ≤ S1048576x32.size a
  hwx1_0 : ∀ i : grid1.Coords, EltTy.bits .f32 = 32 ∨ (Rect.block (s := S1048576x32) S16384x32.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S16384x32.size a ≤ S1048576x32.size a
  hwx1_1 : ∀ i : grid1.Coords, EltTy.bits .f32 = 32 ∨ (Rect.block (s := S1048576x32) S16384x32.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x10.size a ≤ S1x10.size a
  hwx1_2 : ∀ i : grid1.Coords, EltTy.bits .f32 = 32 ∨ (Rect.block (s := S1x10) S1x10.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x1.size a ≤ S1x1.size a
  hwx1_3 : ∀ i : grid1.Coords, EltTy.bits .f32 = 32 ∨ (Rect.block (s := S1x1) S1x1.size (cc1_transform_3 i) (hinb1_3 i)).WholeWords (EltTy.packing .f32)

variable [Facts₀]

abbrev win0_0 : Pipeline.Window sig grid0 :=
  Pipeline.Window.ofSpec (Memref.whole main_arg0) S16384x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S16384x32.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x10.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg0) S16384x32.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg1) S16384x32.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v21) S1x10.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v22) S1x1.size cc1_transform_3 reads1_3 true true 1 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S1048576x32 : Shape := ⟨2, ![1048576, 32]⟩
abbrev S10 : Shape := ⟨1, ![10]⟩
abbrev S_ : Shape := ⟨0, ![]⟩
abbrev S1048576 : Shape := ⟨1, ![1048576]⟩
abbrev S1048576x1 : Shape := ⟨2, ![1048576, 1]⟩

abbrev nBuf : Space → Nat
  | .hbm => 96
  | .vmem => 0
  | .smem => 0
  | _ => 0

abbrev bufTy : (tb : Table) → Fin (tcTables nBuf tb) → BufTy
  | .hbm, ⟨0, _⟩ => ⟨S1048576x32, .f32⟩
  | .hbm, ⟨1, _⟩ => ⟨S1048576x32, .f32⟩
  | .hbm, ⟨2, _⟩ => ⟨S10, .f32⟩
  | .hbm, ⟨3, _⟩ => ⟨S1048576x32, .f32⟩
  | .hbm, ⟨4, _⟩ => ⟨S1048576x32, .f32⟩
  | .hbm, ⟨5, _⟩ => ⟨S_, .f32⟩
  | .hbm, ⟨6, _⟩ => ⟨S1048576, .f32⟩
  | .hbm, ⟨7, _⟩ => ⟨S_, .f32⟩
  | .hbm, ⟨8, _⟩ => ⟨S1048576, .f32⟩
  | .hbm, ⟨9, _⟩ => ⟨S1048576, .f32⟩
  | .hbm, ⟨10, _⟩ => ⟨S_, .f32⟩
  | .hbm, ⟨11, _⟩ => ⟨S1048576, .f32⟩
  | .hbm, ⟨12, _⟩ => ⟨S1048576, .f32⟩
  | .hbm, ⟨13, _⟩ => ⟨S1048576, .f32⟩
  | .hbm, ⟨14, _⟩ => ⟨S1048576, .i32⟩
  | .hbm, ⟨15, _⟩ => ⟨S_, .i32⟩
  | .hbm, ⟨16, _⟩ => ⟨S_, .i32⟩
  | .hbm, ⟨17, _⟩ => ⟨S_, .i32⟩
  | .hbm, ⟨18, _⟩ => ⟨S1048576, .i32⟩
  | .hbm, ⟨19, _⟩ => ⟨S1048576, .i32⟩
  | .hbm, ⟨20, _⟩ => ⟨S_, .i32⟩
  | .hbm, ⟨21, _⟩ => ⟨S1048576, .i32⟩
  | .hbm, ⟨22, _⟩ => ⟨S1048576, .i32⟩
  | .hbm, ⟨23, _⟩ => ⟨S_, .f32⟩
  | .hbm, ⟨24, _⟩ => ⟨S10, .f32⟩
  | .hbm, ⟨25, _⟩ => ⟨S_, .i32⟩
  | .hbm, ⟨26, _⟩ => ⟨S1048576, .i32⟩
  | .hbm, ⟨27, _⟩ => ⟨S1048576, .i1⟩
  | .hbm, ⟨28, _⟩ => ⟨S_, .i32⟩
  | .hbm, ⟨29, _⟩ => ⟨S1048576, .i32⟩
  | .hbm, ⟨30, _⟩ => ⟨S1048576, .i32⟩
  | .hbm, ⟨31, _⟩ => ⟨S1048576, .i32⟩
  | .hbm, ⟨32, _⟩ => ⟨S1048576x1, .i32⟩
  | .hbm, ⟨33, _⟩ => ⟨S_, .f32⟩
  | .hbm, ⟨34, _⟩ => ⟨S1048576, .f32⟩
  | .hbm, ⟨35, _⟩ => ⟨S10, .f32⟩
  | .hbm, ⟨36, _⟩ => ⟨S_, .f32⟩
  | .hbm, ⟨37, _⟩ => ⟨S10, .f32⟩
  | .hbm, ⟨38, _⟩ => ⟨S10, .f32⟩
  | .hbm, ⟨39, _⟩ => ⟨S_, .f32⟩
  | .hbm, ⟨40, _⟩ => ⟨S10, .f32⟩
  | .hbm, ⟨41, _⟩ => ⟨S10, .i1⟩
  | .hbm, ⟨42, _⟩ => ⟨S_, .f32⟩
  | .hbm, ⟨43, _⟩ => ⟨S_, .f32⟩
  | .hbm, ⟨44, _⟩ => ⟨S10, .f32⟩
  | .hbm, ⟨45, _⟩ => ⟨S10, .f32⟩
  | .hbm, ⟨46, _⟩ => ⟨S_, .f32⟩
  | .hbm, ⟨47, _⟩ => ⟨S10, .f32⟩
  | .hbm, ⟨48, _⟩ => ⟨S10, .i1⟩
  | .hbm, ⟨49, _⟩ => ⟨S_, .f32⟩
  | .hbm, ⟨50, _⟩ => ⟨S10, .f32⟩
  | .hbm, ⟨51, _⟩ => ⟨S10, .f32⟩
  | .hbm, ⟨52, _⟩ => ⟨S10, .f32⟩
  | .hbm, ⟨53, _⟩ => ⟨S_, .f32⟩
  | .hbm, ⟨54, _⟩ => ⟨S_, .f32⟩
  | .hbm, ⟨55, _⟩ => ⟨S10, .f32⟩
  | .hbm, ⟨56, _⟩ => ⟨S10, .f32⟩
  | .hbm, ⟨57, _⟩ => ⟨S_, .i32⟩
  | .hbm, ⟨58, _⟩ => ⟨S1048576, .i32⟩
  | .hbm, ⟨59, _⟩ => ⟨S1048576, .i1⟩
  | .hbm, ⟨60, _⟩ => ⟨S_, .i32⟩
  | .hbm, ⟨61, _⟩ => ⟨S1048576, .i32⟩
  | .hbm, ⟨62, _⟩ => ⟨S1048576, .i32⟩
  | .hbm, ⟨63, _⟩ => ⟨S1048576, .i32⟩
  | .hbm, ⟨64, _⟩ => ⟨S1048576x1, .i32⟩
  | .hbm, ⟨65, _⟩ => ⟨S1048576, .f32⟩
  | .hbm, ⟨66, _⟩ => ⟨S1048576, .f32⟩
  | .hbm, ⟨67, _⟩ => ⟨S_, .f32⟩
  | .hbm, ⟨68, _⟩ => ⟨S_, .f32⟩
  | .hbm, ⟨69, _⟩ => ⟨S1048576, .f32⟩
  | .hbm, ⟨70, _⟩ => ⟨S1048576, .f32⟩
  | .hbm, ⟨71, _⟩ => ⟨S_, .f32⟩
  | .hbm, ⟨72, _⟩ => ⟨S1048576, .f32⟩
  | .hbm, ⟨73, _⟩ => ⟨S1048576, .i1⟩
  | .hbm, ⟨74, _⟩ => ⟨S_, .f32⟩
  | .hbm, ⟨75, _⟩ => ⟨S_, .f32⟩
  | .hbm, ⟨76, _⟩ => ⟨S1048576, .f32⟩
  | .hbm, ⟨77, _⟩ => ⟨S1048576, .f32⟩
  | .hbm, ⟨78, _⟩ => ⟨S1048576x32, .f32⟩
  | .hbm, ⟨79, _⟩ => ⟨S1048576x32, .f32⟩
  | .hbm, ⟨80, _⟩ => ⟨S_, .f32⟩
  | .hbm, ⟨81, _⟩ => ⟨S1048576x32, .f32⟩
  | .hbm, ⟨82, _⟩ => ⟨S1048576x32, .f32⟩
  | .hbm, ⟨83, _⟩ => ⟨S1048576x32, .f32⟩
  | .hbm, ⟨84, _⟩ => ⟨S1048576x32, .f32⟩
  | .hbm, ⟨85, _⟩ => ⟨S1048576x32, .f32⟩
  | .hbm, ⟨86, _⟩ => ⟨S1048576x32, .f32⟩
  | .hbm, ⟨87, _⟩ => ⟨S1048576x32, .f32⟩
  | .hbm, ⟨88, _⟩ => ⟨S_, .f32⟩
  | .hbm, ⟨89, _⟩ => ⟨S1048576, .f32⟩
  | .hbm, ⟨90, _⟩ => ⟨S_, .f32⟩
  | .hbm, ⟨91, _⟩ => ⟨S1048576, .f32⟩
  | .hbm, ⟨92, _⟩ => ⟨S1048576, .f32⟩
  | .hbm, ⟨93, _⟩ => ⟨S1048576, .f32⟩
  | .hbm, ⟨94, _⟩ => ⟨S_, .f32⟩
  | .hbm, ⟨95, _⟩ => ⟨S_, .f32⟩
  | _, _ => ⟨S1048576x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_cst_1 : Ref sig .tc := ⟨.hbm, 7, rfl⟩
abbrev main_v3 : Ref sig .tc := ⟨.hbm, 8, rfl⟩
abbrev main_v4 : Ref sig .tc := ⟨.hbm, 9, rfl⟩
abbrev main_cst_2 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_c : Ref sig .tc := ⟨.hbm, 15, rfl⟩
abbrev main_c_3 : Ref sig .tc := ⟨.hbm, 16, rfl⟩
abbrev main_call0_v0 : Ref sig .tc := ⟨.hbm, 17, rfl⟩
abbrev main_call0_v1 : Ref sig .tc := ⟨.hbm, 18, rfl⟩
abbrev main_call0_v2 : Ref sig .tc := ⟨.hbm, 19, rfl⟩
abbrev main_call0_v3 : Ref sig .tc := ⟨.hbm, 20, rfl⟩
abbrev main_call0_v4 : Ref sig .tc := ⟨.hbm, 21, rfl⟩
abbrev main_v9 : Ref sig .tc := ⟨.hbm, 22, rfl⟩
abbrev main_cst_4 : Ref sig .tc := ⟨.hbm, 23, rfl⟩
abbrev main_v10 : Ref sig .tc := ⟨.hbm, 24, rfl⟩
abbrev main_c_5 : Ref sig .tc := ⟨.hbm, 25, rfl⟩
abbrev main_v11 : Ref sig .tc := ⟨.hbm, 26, rfl⟩
abbrev main_v12 : Ref sig .tc := ⟨.hbm, 27, rfl⟩
abbrev main_c_6 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_cst_7 : Ref sig .tc := ⟨.hbm, 33, rfl⟩
abbrev main_v17 : Ref sig .tc := ⟨.hbm, 34, rfl⟩
abbrev main_v18 : Ref sig .tc := ⟨.hbm, 35, rfl⟩
abbrev main_cst_8 : Ref sig .tc := ⟨.hbm, 36, rfl⟩
abbrev main_v19 : Ref sig .tc := ⟨.hbm, 37, rfl⟩
abbrev main_v20 : Ref sig .tc := ⟨.hbm, 38, rfl⟩
abbrev main_cst_9 : Ref sig .tc := ⟨.hbm, 39, rfl⟩
abbrev main_v21 : Ref sig .tc := ⟨.hbm, 40, rfl⟩
abbrev main_v22 : Ref sig .tc := ⟨.hbm, 41, rfl⟩
abbrev main_cst_10 : Ref sig .tc := ⟨.hbm, 42, rfl⟩
abbrev main_call1_v0 : Ref sig .tc := ⟨.hbm, 43, rfl⟩
abbrev main_call1_v1 : Ref sig .tc := ⟨.hbm, 44, rfl⟩
abbrev main_v23 : Ref sig .tc := ⟨.hbm, 45, rfl⟩
abbrev main_cst_11 : Ref sig .tc := ⟨.hbm, 46, rfl⟩
abbrev main_v24 : Ref sig .tc := ⟨.hbm, 47, rfl⟩
abbrev main_v25 : Ref sig .tc := ⟨.hbm, 48, rfl⟩
abbrev main_cst_12 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_cst_13 : Ref sig .tc := ⟨.hbm, 53, rfl⟩
abbrev main_call2_v0 : Ref sig .tc := ⟨.hbm, 54, rfl⟩
abbrev main_call2_v1 : Ref sig .tc := ⟨.hbm, 55, rfl⟩
abbrev main_v29 : Ref sig .tc := ⟨.hbm, 56, rfl⟩
abbrev main_c_14 : Ref sig .tc := ⟨.hbm, 57, rfl⟩
abbrev main_v30 : Ref sig .tc := ⟨.hbm, 58, rfl⟩
abbrev main_v31 : Ref sig .tc := ⟨.hbm, 59, rfl⟩
abbrev main_c_15 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_cst_16 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩
abbrev main_cst_17 : Ref sig .tc := ⟨.hbm, 71, rfl⟩
abbrev main_v41 : Ref sig .tc := ⟨.hbm, 72, rfl⟩
abbrev main_v42 : Ref sig .tc := ⟨.hbm, 73, rfl⟩
abbrev main_cst_18 : Ref sig .tc := ⟨.hbm, 74, rfl⟩
abbrev main_call3_v0 : Ref sig .tc := ⟨.hbm, 75, rfl⟩
abbrev main_call3_v1 : Ref sig .tc := ⟨.hbm, 76, rfl⟩
abbrev main_v43 : Ref sig .tc := ⟨.hbm, 77, rfl⟩
abbrev main_v44 : Ref sig .tc := ⟨.hbm, 78, rfl⟩
abbrev main_v45 : Ref sig .tc := ⟨.hbm, 79, rfl⟩
abbrev main_cst_19 : Ref sig .tc := ⟨.hbm, 80, rfl⟩
abbrev main_v46 : Ref sig .tc := ⟨.hbm, 81, rfl⟩
abbrev main_v47 : Ref sig .tc := ⟨.hbm, 82, rfl⟩
abbrev main_v48 : Ref sig .tc := ⟨.hbm, 83, rfl⟩
abbrev main_v49 : Ref sig .tc := ⟨.hbm, 84, rfl⟩
abbrev main_v50 : Ref sig .tc := ⟨.hbm, 85, rfl⟩
abbrev main_v51 : Ref sig .tc := ⟨.hbm, 86, rfl⟩
abbrev main_v52 : Ref sig .tc := ⟨.hbm, 87, rfl⟩
abbrev main_cst_20 : Ref sig .tc := ⟨.hbm, 88, rfl⟩
abbrev main_v53 : Ref sig .tc := ⟨.hbm, 89, rfl⟩
abbrev main_cst_21 : Ref sig .tc := ⟨.hbm, 90, rfl⟩
abbrev main_v54 : Ref sig .tc := ⟨.hbm, 91, rfl⟩
abbrev main_v55 : Ref sig .tc := ⟨.hbm, 92, rfl⟩
abbrev main_v56 : Ref sig .tc := ⟨.hbm, 93, rfl⟩
abbrev main_cst_22 : Ref sig .tc := ⟨.hbm, 94, rfl⟩
abbrev main_v57 : Ref sig .tc := ⟨.hbm, 95, rfl⟩

abbrev nD : Nat := 1
abbrev τ : Topo := Topo.v7x

variable {F : FTy → Type} [FloatOps F]

class Facts₀ : Prop where
  reducesTo_S1048576x32_S1048576_d1 : S1048576x32.ReducesTo [1] S1048576
  h_S_ : 0 < S_.numel
  bcast_S_S1048576 : S_.BroadcastsInDim S1048576 (![] : Fin 0 → Fin S1048576.rank)
  bcast_S_S10 : S_.BroadcastsInDim S10 (![] : Fin 0 → Fin S10.rank)
  bcast_S1048576_S1048576x1_0 : S1048576.BroadcastsInDim S1048576x1 (![0] : Fin 1 → Fin S1048576x1.rank)
  reducesTo_S1048576_S_d0 : S1048576.ReducesTo [0] S_
  bcast_S_S1048576x32 : S_.BroadcastsInDim S1048576x32 (![] : Fin 0 → Fin S1048576x32.rank)
  scatter_S10_S1048576x1_S1048576_n_0_0_1_wf : ScatterDims.WF S10 S1048576x1 S1048576 [] [0] [0] 1
  gather_S10_S1048576x1_S1048576_n_0_n_n_0_1_1_wf : GatherDims.WF S10 S1048576x1 S1048576 [] [0] [] [0] [] 1 ![1]

variable [Facts₀]

def scatter_S10_S1048576x1_S1048576_n_0_0_1 : ScatterDims S10 S1048576x1 S1048576 where
  updateWindowDims := []
  insertedWindowDims := [0]
  scatterDimsToOperandDims := [0]
  indexVectorDim := 1
  wf := scatter_S10_S1048576x1_S1048576_n_0_0_1_wf
def gather_S10_S1048576x1_S1048576_n_0_n_n_0_1_1 : GatherDims S10 S1048576x1 S1048576 where
  offsetDims := []
  collapsedSliceDims := [0]
  operandBatchingDims := []
  startIndicesBatchingDims := []
  startIndexMap := [0]
  indexVectorDim := 1
  sliceSizes := ![1]
  wf := gather_S10_S1048576x1_S1048576_n_0_n_n_0_1_1_wf

class Facts : Prop extends Facts₀ where

variable [Facts]
-- ==== Proof.K.Runs0.lean ====
/-
  The histogram region, point by point: what its body is run on, which of its two control cases a grid point is in
  (the first point resets the carried row of counts, every later point adds to it), and the body's run in each case
  with the pieces its stores leave.
-/
import proofs.«107730_j46686294508030_1_alg».proof.Proof.Gen.Kernel.Launch
import proofs.«107730_j46686294508030_1_alg».proof.Proof.Gen.Kernel.Skeleton
import proofs.«107730_j46686294508030_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section Region0

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's staging buffer holds its block at every point, for any proof data whose array is the entry
    contents and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

end Region0

/-- The body's one branch: taken at the grid's first point. -/
abbrev cond0 (i : grid0.Coords) : Prop := (Scalar.cmpi .ne (Scalar.extui (Scalar.cmpi .eq (BitVec.ofNat 32 (i 0).val) 0#32)) 0#32) = 1#1
theorem hcond0 : ∀ t : Fin cfg0.N, cond0 (grid0.coords t) ↔ t.val % 64 = 0 :=
  (by decide +kernel : ∀ t : Fin grid0.N, cond0 (grid0.coords t) ↔ t.val % 64 = 0)

/-- No window is idle at any point. -/
theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel

/-- The output window's one staging buffer and the carried scratch, as views. -/
abbrev VO0_2 : View sig .tc .vmem S1x10 .f32 := (Memref.whole cc0_stg2_0 : Memref sig .tc .vmem S1x10 .f32).view
abbrev ms0_0 (t : Fin cfg0.N) : Memref sig .tc .vmem S16384x32 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S16384x32 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x10 .f32 := win0_2.stage (cfg0.slots t 2)
abbrev hs0_2 (t : Fin cfg0.N) : (ms0_2 t).IsWhole := hstage0_2 ((cfg0.slots t 2).cast nbuf0_2)
abbrev scM0 : Memref sig .tc .vmem S1x10 .f32 := Memref.whole cc0_scratch0
abbrev VS0 : View sig .tc .vmem S1x10 .f32 := scM0.view

/-- The other region's staging buffers and scratch, each whole at some contents: what this region never touches. -/
def Rest0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_scratch0), ((c : Thread nD τ).loc cc1_scratch0) ↦{fullShare} f))

/-- The class invariant with the carried scratch as an owned memref at some contents. -/
theorem PhiA0_eq (c : Dev nD) :
    (Pipeline.ΦA spec0 c : sProp 𝕄)
      = iprop(iprop((∃ d, owns (c : Thread nD τ) scM0 fullShare d) ∗ Rest0 c) ∗ (∃ r, prngReg c r)) := by
  unfold Pipeline.ΦA Rest0; rw [scopedRest0_eq]; simp only [scM0, owns_whole]; try rfl

set_option maxHeartbeats 1000000 in
/-- The first point (the branch taken): the carried scratch at anything is reset and then added to; the pieces the
    stores leave in the output's buffer and in the scratch are what the run finds. -/
noncomputable def kernelRun0_A (c : Dev nD) (i : grid0.Coords) (arg1 : Memref sig .tc .vmem S16384x32 .f32) (harg1 : arg1.IsWhole) (arg2 : Memref sig .tc .vmem S16384x32 .f32) (harg2 : arg2.IsWhole) (arg3 : Memref sig .tc .vmem S1x10 .f32) (harg3 : arg3.IsWhole) (arg4 : Memref sig .tc .vmem S1x10 .f32) (harg4 : arg4.IsWhole) (hc0 : cond0 i)
    (x0 : Vec F S16384x32 .f32) (x1 : Vec F S16384x32 .f32) :
    Σ' (L2 : List (View.Piece (Elt F) S1x10 .f32)), { LS0 : List (View.Piece (Elt F) S1x10 .f32) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d) ∗ (∃ d, owns (c : Thread nD τ) arg4 fullShare d)
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2) ∗ (∃ f, arg4.view.loc (c : Thread nD τ) ↦[arg4.view.set]{fullShare} arg4.view.writes (Elt F) f LS0)) -∗ K ⟨⟩))
          ⊢ wp frame (wpE (defs₀ (F := F)) Variants.none c none) E (cc0__hist_kernel i arg1 harg1 arg2 harg2 arg3 harg3 arg4 harg4) K } := by
  refine ⟨?_, ?_, fun E K => ?run⟩
  case run =>
    simp only [cc0__hist_kernel_eq_skeleton]; unfold cc0__hist_kernel_skel
    unfold owns
    iintro ⟨⟨%f0, %hf0, H0⟩, ⟨%f1, %hf1, H1⟩, ⟨%d2, %f2, -, H2⟩, ⟨%ds0, %fs0, -, HS0⟩, Hk⟩
    obtain rfl := harg1.eq_unread hf0; obtain rfl := harg2.eq_unread hf1
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    iexists _; iexact HS0

set_option maxHeartbeats 1000000 in
/-- Every later point (the branch not taken): the carried scratch at the contents `xs0` the point before left is
    added to. -/
noncomputable def kernelRun0_B (c : Dev nD) (i : grid0.Coords) (arg1 : Memref sig .tc .vmem S16384x32 .f32) (harg1 : arg1.IsWhole) (arg2 : Memref sig .tc .vmem S16384x32 .f32) (harg2 : arg2.IsWhole) (arg3 : Memref sig .tc .vmem S1x10 .f32) (harg3 : arg3.IsWhole) (arg4 : Memref sig .tc .vmem S1x10 .f32) (harg4 : arg4.IsWhole) (hc0 : ¬cond0 i)
    (x0 : Vec F S16384x32 .f32) (x1 : Vec F S16384x32 .f32) (xs0 : Vec F S1x10 .f32) :
    Σ' (L2 : List (View.Piece (Elt F) S1x10 .f32)), { LS0 : List (View.Piece (Elt F) S1x10 .f32) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d) ∗ owns (c : Thread nD τ) arg4 fullShare xs0
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2) ∗ (∃ f, arg4.view.loc (c : Thread nD τ) ↦[arg4.view.set]{fullShare} arg4.view.writes (Elt F) f LS0)) -∗ K ⟨⟩))
          ⊢ wp frame (wpE (defs₀ (F := F)) Variants.none c none) E (cc0__hist_kernel i arg1 harg1 arg2 harg2 arg3 harg3 arg4 harg4) K } := by
  refine ⟨?_, ?_, fun E K => ?run⟩
  case run =>
    simp only [cc0__hist_kernel_eq_skeleton]; unfold cc0__hist_kernel_skel
    unfold owns
    iintro ⟨⟨%f0, %hf0, H0⟩, ⟨%f1, %hf1, H1⟩, ⟨%d2, %f2, -, H2⟩, ⟨%fs0, %hfs0, HS0⟩, Hk⟩
    obtain rfl := harg1.eq_unread hf0; obtain rfl := harg2.eq_unread hf1; obtain rfl := harg4.eq_unread hfs0
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    iexists _; iexact HS0

end Cert.Kernel.Hand

end
-- ==== Proof.K.Body0.lean ====
/-
  The histogram region's proof data and body obligation.  After point `n` the output window's buffer and the carried
  scratch both hold the row of counts accumulated over tiles `0 … n`: the first point's run starts from the reset row,
  every later point's from what the point before left in the scratch.  The region's invariant names the scratch's
  contents from the first point on, beside the other region's buffers and the generator register, which it never
  touches.
-/
import proofs.«107730_j46686294508030_1_alg».proof.Proof.K.Runs0

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section Region0

variable (V : (c : Dev nD) → (b : Ref sig .tc) → Buf (Elt F) ((c : Thread nD τ).loc b))

/-! ## What each case leaves -/

theorem cover0_A_2 (c : Dev nD) (i : grid0.Coords) (arg1 : Memref sig .tc .vmem S16384x32 .f32) (harg1 : arg1.IsWhole) (arg2 : Memref sig .tc .vmem S16384x32 .f32) (harg2 : arg2.IsWhole) (arg3 : Memref sig .tc .vmem S1x10 .f32) (harg3 : arg3.IsWhole) (arg4 : Memref sig .tc .vmem S1x10 .f32) (harg4 : arg4.IsWhole) (hc0 : cond0 i)
    (x0 x1 : Vec F S16384x32 .f32) (y : S1x10.Idx) :
    ∃ pc ∈ (kernelRun0_A c i arg1 harg1 arg2 harg2 arg3 harg3 arg4 harg4 hc0 x0 x1).1, y ∈ pc.1.set :=
  View.cover_of_tiledL (kernelRun0_A c i arg1 harg1 arg2 harg2 arg3 harg3 arg4 harg4 hc0 x0 x1).1 S1x10.size (by sl_kernel_rfl) y

/-- What the first point leaves in the output window's buffer. -/
def out0_A_2 (c : Dev nD) (i : grid0.Coords) (arg1 : Memref sig .tc .vmem S16384x32 .f32) (harg1 : arg1.IsWhole) (arg2 : Memref sig .tc .vmem S16384x32 .f32) (harg2 : arg2.IsWhole) (arg3 : Memref sig .tc .vmem S1x10 .f32) (harg3 : arg3.IsWhole) (arg4 : Memref sig .tc .vmem S1x10 .f32) (harg4 : arg4.IsWhole) (hc0 : cond0 i)
    (x0 x1 : Vec F S16384x32 .f32) : Vec F S1x10 .f32 :=
  VO0_2.read (Elt F) (VO0_2.writes (Elt F) VO0_2.junk (kernelRun0_A c i arg1 harg1 arg2 harg2 arg3 harg3 arg4 harg4 hc0 x0 x1).1)

theorem scover0_A (c : Dev nD) (i : grid0.Coords) (arg1 : Memref sig .tc .vmem S16384x32 .f32) (harg1 : arg1.IsWhole) (arg2 : Memref sig .tc .vmem S16384x32 .f32) (harg2 : arg2.IsWhole) (arg3 : Memref sig .tc .vmem S1x10 .f32) (harg3 : arg3.IsWhole) (arg4 : Memref sig .tc .vmem S1x10 .f32) (harg4 : arg4.IsWhole) (hc0 : cond0 i)
    (x0 x1 : Vec F S16384x32 .f32) (y : S1x10.Idx) :
    ∃ pc ∈ (kernelRun0_A c i arg1 harg1 arg2 harg2 arg3 harg3 arg4 harg4 hc0 x0 x1).2.1, y ∈ pc.1.set :=
  View.cover_of_tiledL (kernelRun0_A c i arg1 harg1 arg2 harg2 arg3 harg3 arg4 harg4 hc0 x0 x1).2.1 S1x10.size (by sl_kernel_rfl) y

/-- What the first point leaves in the carried scratch. -/
def sout0_A (c : Dev nD) (i : grid0.Coords) (arg1 : Memref sig .tc .vmem S16384x32 .f32) (harg1 : arg1.IsWhole) (arg2 : Memref sig .tc .vmem S16384x32 .f32) (harg2 : arg2.IsWhole) (arg3 : Memref sig .tc .vmem S1x10 .f32) (harg3 : arg3.IsWhole) (arg4 : Memref sig .tc .vmem S1x10 .f32) (harg4 : arg4.IsWhole) (hc0 : cond0 i)
    (x0 x1 : Vec F S16384x32 .f32) : Vec F S1x10 .f32 :=
  VS0.read (Elt F) (VS0.writes (Elt F) VS0.junk (kernelRun0_A c i arg1 harg1 arg2 harg2 arg3 harg3 arg4 harg4 hc0 x0 x1).2.1)

theorem cover0_B_2 (c : Dev nD) (i : grid0.Coords) (arg1 : Memref sig .tc .vmem S16384x32 .f32) (harg1 : arg1.IsWhole) (arg2 : Memref sig .tc .vmem S16384x32 .f32) (harg2 : arg2.IsWhole) (arg3 : Memref sig .tc .vmem S1x10 .f32) (harg3 : arg3.IsWhole) (arg4 : Memref sig .tc .vmem S1x10 .f32) (harg4 : arg4.IsWhole) (hc0 : ¬cond0 i)
    (x0 x1 : Vec F S16384x32 .f32) (xs0 : Vec F S1x10 .f32) (y : S1x10.Idx) :
    ∃ pc ∈ (kernelRun0_B c i arg1 harg1 arg2 harg2 arg3 harg3 arg4 harg4 hc0 x0 x1 xs0).1, y ∈ pc.1.set :=
  View.cover_of_tiledL (kernelRun0_B c i arg1 harg1 arg2 harg2 arg3 harg3 arg4 harg4 hc0 x0 x1 xs0).1 S1x10.size (by sl_kernel_rfl) y

/-- What a later point leaves in the output window's buffer. -/
def out0_B_2 (c : Dev nD) (i : grid0.Coords) (arg1 : Memref sig .tc .vmem S16384x32 .f32) (harg1 : arg1.IsWhole) (arg2 : Memref sig .tc .vmem S16384x32 .f32) (harg2 : arg2.IsWhole) (arg3 : Memref sig .tc .vmem S1x10 .f32) (harg3 : arg3.IsWhole) (arg4 : Memref sig .tc .vmem S1x10 .f32) (harg4 : arg4.IsWhole) (hc0 : ¬cond0 i)
    (x0 x1 : Vec F S16384x32 .f32) (xs0 : Vec F S1x10 .f32) : Vec F S1x10 .f32 :=
  VO0_2.read (Elt F) (VO0_2.writes (Elt F) VO0_2.junk (kernelRun0_B c i arg1 harg1 arg2 harg2 arg3 harg3 arg4 harg4 hc0 x0 x1 xs0).1)

theorem scover0_B (c : Dev nD) (i : grid0.Coords) (arg1 : Memref sig .tc .vmem S16384x32 .f32) (harg1 : arg1.IsWhole) (arg2 : Memref sig .tc .vmem S16384x32 .f32) (harg2 : arg2.IsWhole) (arg3 : Memref sig .tc .vmem S1x10 .f32) (harg3 : arg3.IsWhole) (arg4 : Memref sig .tc .vmem S1x10 .f32) (harg4 : arg4.IsWhole) (hc0 : ¬cond0 i)
    (x0 x1 : Vec F S16384x32 .f32) (xs0 : Vec F S1x10 .f32) (y : S1x10.Idx) :
    ∃ pc ∈ (kernelRun0_B c i arg1 harg1 arg2 harg2 arg3 harg3 arg4 harg4 hc0 x0 x1 xs0).2.1, y ∈ pc.1.set :=
  View.cover_of_tiledL (kernelRun0_B c i arg1 harg1 arg2 harg2 arg3 harg3 arg4 harg4 hc0 x0 x1 xs0).2.1 S1x10.size (by sl_kernel_rfl) y

/-- What a later point leaves in the carried scratch. -/
def sout0_B (c : Dev nD) (i : grid0.Coords) (arg1 : Memref sig .tc .vmem S16384x32 .f32) (harg1 : arg1.IsWhole) (arg2 : Memref sig .tc .vmem S16384x32 .f32) (harg2 : arg2.IsWhole) (arg3 : Memref sig .tc .vmem S1x10 .f32) (harg3 : arg3.IsWhole) (arg4 : Memref sig .tc .vmem S1x10 .f32) (harg4 : arg4.IsWhole) (hc0 : ¬cond0 i)
    (x0 x1 : Vec F S16384x32 .f32) (xs0 : Vec F S1x10 .f32) : Vec F S1x10 .f32 :=
  VS0.read (Elt F) (VS0.writes (Elt F) VS0.junk (kernelRun0_B c i arg1 harg1 arg2 harg2 arg3 harg3 arg4 harg4 hc0 x0 x1 xs0).2.1)

/-! ## The accumulation, point by point -/

theorem notCond0_succ (n : ℕ) (hn : n + 1 < cfg0.N) : ¬cond0 (grid0.coords ⟨n + 1, hn⟩) := fun h => by
  have h' := (hcond0 ⟨n + 1, hn⟩).mp h
  have hN : n + 1 < 64 := lt_of_lt_of_eq hn (show cfg0.N = 64 from N_0)
  (try dsimp only at h'); omega

/-- The output window's buffer and the carried scratch after the body at position `n`. -/
def outsAt0 (c : Dev nD) : (n : ℕ) → n < cfg0.N → Vec F S1x10 .f32 × Vec F S1x10 .f32
  | 0, hn => (out0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0 (Memref.isWhole_whole _) ((hcond0 ⟨0, hn⟩).mpr (Nat.zero_mod _)) (iblk0 V c 0 ⟨0, hn⟩) (iblk0 V c 1 ⟨0, hn⟩),
      sout0_A c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0 (Memref.isWhole_whole _) ((hcond0 ⟨0, hn⟩).mpr (Nat.zero_mod _)) (iblk0 V c 0 ⟨0, hn⟩) (iblk0 V c 1 ⟨0, hn⟩))
  | n + 1, hn => (out0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0 (Memref.isWhole_whole _) (notCond0_succ n hn) (iblk0 V c 0 ⟨n + 1, hn⟩) (iblk0 V c 1 ⟨n + 1, hn⟩) (outsAt0 c n (Nat.lt_of_succ_lt hn)).2,
      sout0_B c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0 (Memref.isWhole_whole _) (notCond0_succ n hn) (iblk0 V c 0 ⟨n + 1, hn⟩) (iblk0 V c 1 ⟨n + 1, hn⟩) (outsAt0 c n (Nat.lt_of_succ_lt hn)).2)

theorem outsAt0_A (c : Dev nD) (t : Fin cfg0.N) (h0 : t.val % 64 = 0) :
    outsAt0 V c t.val t.isLt = (out0_A_2 c (grid0.coords t) (ms0_0 t) (hs0_0 t) (ms0_1 t) (hs0_1 t) (ms0_2 t) (hs0_2 t) scM0 (Memref.isWhole_whole _) ((hcond0 t).mpr h0) (iblk0 V c 0 t) (iblk0 V c 1 t),
      sout0_A c (grid0.coords t) (ms0_0 t) (hs0_0 t) (ms0_1 t) (hs0_1 t) (ms0_2 t) (hs0_2 t) scM0 (Memref.isWhole_whole _) ((hcond0 t).mpr h0) (iblk0 V c 0 t) (iblk0 V c 1 t)) := by
  obtain ⟨n, hn⟩ := t
  cases n with
  | zero => exact rfl
  | succ n => exact (by exfalso; have hN : n + 1 < 64 := lt_of_lt_of_eq hn (show cfg0.N = 64 from N_0); (try dsimp only at h0); omega)

theorem outsAt0_B (c : Dev nD) (t : Fin cfg0.N) (h0 : ¬t.val % 64 = 0) :
    outsAt0 V c t.val t.isLt = (out0_B_2 c (grid0.coords t) (ms0_0 t) (hs0_0 t) (ms0_1 t) (hs0_1 t) (ms0_2 t) (hs0_2 t) scM0 (Memref.isWhole_whole _) (fun h => h0 ((hcond0 t).mp h)) (iblk0 V c 0 t) (iblk0 V c 1 t) (outsAt0 V c (t.val - 1) (Nat.lt_of_le_of_lt (Nat.sub_le _ _) t.isLt)).2,
      sout0_B c (grid0.coords t) (ms0_0 t) (hs0_0 t) (ms0_1 t) (hs0_1 t) (ms0_2 t) (hs0_2 t) scM0 (Memref.isWhole_whole _) (fun h => h0 ((hcond0 t).mp h)) (iblk0 V c 0 t) (iblk0 V c 1 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact rfl

/-- The region's invariant before position `n`: the class's before the first point; afterwards the carried scratch
    at what the point before left, the other region's buffers at anything, the generator register at some state. -/
def PhiS0 (c : Dev nD) : (n : ℕ) → n ≤ cfg0.N → sProp 𝕄
  | 0, _ => Pipeline.ΦA spec0 c
  | n + 1, hn => iprop(iprop(owns (c : Thread nD τ) scM0 fullShare ((outsAt0 V c n hn).2) ∗ Rest0 c) ∗ (∃ r, prngReg c r))

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop(iprop(owns (c : Thread nD τ) scM0 fullShare ((outsAt0 V c n hn).2) ∗ Rest0 c) ∗ (∃ r, prngReg c r)) := rfl

theorem PhiS0_pos (c : Dev nD) (n : ℕ) (h : n ≤ cfg0.N) (hz : n ≠ 0) :
    PhiS0 V c n h = iprop(iprop(owns (c : Thread nD τ) scM0 fullShare ((outsAt0 V c (n - 1) (by omega)).2) ∗ Rest0 c) ∗ (∃ r, prngReg c r)) := by
  cases n with
  | zero => exact absurd rfl hz
  | succ n => rfl

/-! ## The proof data -/

/-- The arrays as the region finds them; after the body at point `t` each input's buffer at its block and the
    output's at the accumulated row; the invariant above; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => (outsAt0 V c t.val t.isLt).1
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS0_castSucc (c : Dev nD) (t : Fin cfg0.N) :
    (dat0 V c).Φ t.castSucc = PhiS0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = (outsAt0 V c t.val t.isLt).1 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

set_option maxHeartbeats 4800000 in
/-- The body at any point: the inputs' buffers hold their blocks; the first point runs the reset case from the
    class's invariant, every later point the accumulating case from the scratch at what the point before left; the
    invariant takes the scratch back at this point's contents; the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = PhiS0 V c (t.val + 1) t.isLt from rfl, PhiS0_succ]
  have hN : t.val < 64 := lt_of_lt_of_eq t.isLt (show cfg0.N = 64 from N_0)
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  rw [show (dat0 V c).leavesExact 2 t = owns (c : Thread nD τ) (ms0_2 t) fullShare ((dat0 V c).after 2 t) from by
    unfold Dat.leavesExact; rw [liveAt0_2 t], after0_2]
  by_cases h0 : t.val % 64 = 0
  · have hz : t.val = 0 := by omega
    rw [outsAt0_A V c t h0]
    unfold out0_A_2 sout0_A; (try dsimp only)
    rw [PhiS0_castSucc V c t, PhiS0_zero V c _ _ hz, PhiA0_eq]
    iintro ⟨⟨⟨HS0, HR⟩, Hg⟩, Ho, ⟨%d0, H0⟩, ⟨%d1, H1⟩, ⟨%d2, H2⟩⟩
    iapply ((kernelRun0_A c (grid0.coords t) _ _ _ _ _ _ _ _ ((hcond0 t).mpr h0) (iblk0 V c 0 t) (iblk0 V c 1 t)).2.2 Set.univ _)
    isplitl [H0]; · iexact H0
    isplitl [H1]; · iexact H1
    isplitl [H2]; · iexists _; iexact H2
    isplitl [HS0]; · iexact HS0
    iintro ⟨H0, H1, ⟨%e2, H2⟩, ⟨%es0, HS0⟩⟩
    isplitl [HS0 HR Hg]
    · isplitl [HS0 HR]
      · isplitl [HS0]
        · unfold owns; iexists _; isplitr
          swap; · iexact HS0
          ipureintro; exact View.read_writes_of_cover _ _ _ _ _ (scover0_A c _ _ _ _ _ _ _ _ _ _ _ _)
        iexact HR
      iexact Hg
    isplitl [Ho]; · iexact Ho
    isplitl [H0]; · iexact H0
    isplitl [H1]; · iexact H1
    unfold owns; iexists _; isplitr
    swap; · iexact H2
    ipureintro; exact View.read_writes_of_cover _ _ _ _ _ (cover0_A_2 c _ _ _ _ _ _ _ _ _ _ _ _)
  · have hz : t.val ≠ 0 := by omega
    rw [outsAt0_B V c t h0]
    unfold out0_B_2 sout0_B; (try dsimp only)
    rw [PhiS0_castSucc V c t, PhiS0_pos V c _ _ hz]
    iintro ⟨⟨⟨HS0, HR⟩, Hg⟩, Ho, ⟨%d0, H0⟩, ⟨%d1, H1⟩, ⟨%d2, H2⟩⟩
    iapply ((kernelRun0_B c (grid0.coords t) _ _ _ _ _ _ _ _ (fun h => h0 ((hcond0 t).mp h)) (iblk0 V c 0 t) (iblk0 V c 1 t) _).2.2 Set.univ _)
    isplitl [H0]; · iexact H0
    isplitl [H1]; · iexact H1
    isplitl [H2]; · iexists _; iexact H2
    isplitl [HS0]; · iexact HS0
    iintro ⟨H0, H1, ⟨%e2, H2⟩, ⟨%es0, HS0⟩⟩
    isplitl [HS0 HR Hg]
    · isplitl [HS0 HR]
      · isplitl [HS0]
        · unfold owns; iexists _; isplitr
          swap; · iexact HS0
          ipureintro; exact View.read_writes_of_cover _ _ _ _ _ (scover0_B c _ _ _ _ _ _ _ _ _ _ _ _ _)
        iexact HR
      iexact Hg
    isplitl [Ho]; · iexact Ho
    isplitl [H0]; · iexact H0
    isplitl [H1]; · iexact H1
    unfold owns; iexists _; isplitr
    swap; · iexact H2
    ipureintro; exact View.read_writes_of_cover _ _ _ _ _ (cover0_B_2 c _ _ _ _ _ _ _ _ _ _ _ _ _)

theorem body_obligation0 (c : Dev nD) : BodyObligation (dat0 (F := F) V c) (defs₀ (F := F)) Variants.none () Set.univ := fun t => by
  rw [bigSep_W0, bigSep_W0]
  exact sound_body0 V c t

/-- After any point but the first the invariant gives the class's back: the scratch's named contents forgotten. -/
theorem Phi0_out (c : Dev nD) (t : Fin (cfg0.N + 1)) (ht : t.val ≠ 0) : (dat0 V c).Φ t ⊢ Pipeline.ΦA spec0 c := by
  rw [show (dat0 V c).Φ t = PhiS0 V c t.val (Nat.le_of_lt_succ t.isLt) from rfl, PhiS0_pos V c _ _ ht, PhiA0_eq]
  iintro ⟨⟨HS0, HR⟩, Hg⟩
  isplitl [HS0 HR]
  · isplitl [HS0]
    · iexists _; iexact HS0
    iexact HR
  iexact Hg

theorem Phi0_in (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

theorem Phi0_last (c : Dev nD) : (dat0 V c).Φ (Fin.last cfg0.N) ⊢ Pipeline.ΦA spec0 c :=
  Phi0_out V c _ (by rw [Fin.val_last]; have : cfg0.N = 64 := N_0; omega)

end Region0

end Cert.Kernel.Hand

end
-- ==== Proof.K.Runs1.lean ====
/-
  The loss region, point by point: what its body is run on, which of its two control cases a grid point is in (the
  first point resets the carried loss cell, every later point adds to it), and the body's run in each case with the
  pieces its stores leave.
-/
import proofs.«107730_j46686294508030_1_alg».proof.Proof.Gen.Kernel.Launch
import proofs.«107730_j46686294508030_1_alg».proof.Proof.Gen.Kernel.Skeleton
import proofs.«107730_j46686294508030_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section Region1

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's staging buffer holds its block at every point, fetched there or not, for any proof data whose
    array is the entry contents and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

end Region1

/-- The body's one branch: taken at the grid's first point. -/
abbrev cond1 (i : grid1.Coords) : Prop := (Scalar.cmpi .ne (Scalar.extui (Scalar.cmpi .eq (BitVec.ofNat 32 (i 0).val) 0#32)) 0#32) = 1#1
theorem hcond1 : ∀ t : Fin cfg1.N, cond1 (grid1.coords t) ↔ t.val % 64 = 0 :=
  (by decide +kernel : ∀ t : Fin grid1.N, cond1 (grid1.coords t) ↔ t.val % 64 = 0)

/-- No window is idle at any point. -/
theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel

/-- The output window's one staging buffer and the carried scratch, as views. -/
abbrev VO1_3 : View sig .tc .vmem S1x1 .f32 := (Memref.whole cc1_stg3_0 : Memref sig .tc .vmem S1x1 .f32).view
abbrev ms1_0 (t : Fin cfg1.N) : Memref sig .tc .vmem S16384x32 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S16384x32 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x10 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x1 .f32 := win1_3.stage (cfg1.slots t 3)
abbrev hs1_3 (t : Fin cfg1.N) : (ms1_3 t).IsWhole := hstage1_3 ((cfg1.slots t 3).cast nbuf1_3)
abbrev scM1 : Memref sig .tc .vmem S1x1 .f32 := Memref.whole cc1_scratch0
abbrev VS1 : View sig .tc .vmem S1x1 .f32 := scM1.view

/-- The other region's staging buffers and scratch, each whole at some contents, beside this region's own scratch in
    the state `S`: the core's scoped buffers no window of this region stages. -/
def Rest1 (c : Dev nD) (S : sProp 𝕄) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_scratch0), ((c : Thread nD τ).loc cc0_scratch0) ↦{fullShare} f) ∗ S)

/-- The class invariant with the carried scratch as an owned memref at some contents. -/
theorem PhiA1_eq (c : Dev nD) :
    (Pipeline.ΦA spec1 c : sProp 𝕄)
      = iprop(Rest1 c iprop(∃ d, owns (c : Thread nD τ) scM1 fullShare d) ∗ (∃ r, prngReg c r)) := by
  unfold Pipeline.ΦA Rest1; rw [scopedRest1_eq]; simp only [scM1, owns_whole]; try rfl

set_option maxHeartbeats 1000000 in
/-- The first point (the branch taken): the carried cell at anything is reset and then added to; the pieces the stores
    leave in the output's buffer and in the scratch are what the run finds. -/
noncomputable def kernelRun1_A (c : Dev nD) (i : grid1.Coords) (arg1 : Memref sig .tc .vmem S16384x32 .f32) (harg1 : arg1.IsWhole) (arg2 : Memref sig .tc .vmem S16384x32 .f32) (harg2 : arg2.IsWhole) (arg3 : Memref sig .tc .vmem S1x10 .f32) (harg3 : arg3.IsWhole) (arg4 : Memref sig .tc .vmem S1x1 .f32) (harg4 : arg4.IsWhole) (arg5 : Memref sig .tc .vmem S1x1 .f32) (harg5 : arg5.IsWhole) (hc0 : cond1 i)
    (x0 : Vec F S16384x32 .f32) (x1 : Vec F S16384x32 .f32) (x2 : Vec F S1x10 .f32) :
    Σ' (L3 : List (View.Piece (Elt F) S1x1 .f32)), { LS0 : List (View.Piece (Elt F) S1x1 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ (∃ d, owns (c : Thread nD τ) arg4 fullShare d) ∗ (∃ d, owns (c : Thread nD τ) arg5 fullShare d)
            ∗ (iprop(owns (c : Thread nD τ) arg1 fullShare x0 ∗ owns (c : Thread nD τ) arg2 fullShare x1 ∗ owns (c : Thread nD τ) arg3 fullShare x2 ∗ (∃ f, arg4.view.loc (c : Thread nD τ) ↦[arg4.view.set]{fullShare} arg4.view.writes (Elt F) f L3) ∗ (∃ f, arg5.view.loc (c : Thread nD τ) ↦[arg5.view.set]{fullShare} arg5.view.writes (Elt F) f LS0)) -∗ K ⟨⟩))
          ⊢ wp frame (wpE (defs₀ (F := F)) Variants.none c none) E (cc1__loss_kernel i arg1 harg1 arg2 harg2 arg3 harg3 arg4 harg4 arg5 harg5) K } := by
  refine ⟨?_, ?_, fun E K => ?run⟩
  case run =>
    simp only [cc1__loss_kernel_eq_skeleton]; unfold cc1__loss_kernel_skel
    simp only [k1_part1_eq_skeleton]; unfold k1_part1_skel
    unfold owns
    iintro ⟨⟨%f0, %hf0, H0⟩, ⟨%f1, %hf1, H1⟩, ⟨%f2, %hf2, H2⟩, ⟨%d3, %f3, -, H3⟩, ⟨%ds0, %fs0, -, HS0⟩, Hk⟩
    obtain rfl := harg1.eq_unread hf0; obtain rfl := harg2.eq_unread hf1; obtain rfl := harg3.eq_unread hf2
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]; · iexists _; iexact H3
    iexists _; iexact HS0

set_option maxHeartbeats 1000000 in
/-- Every later point (the branch not taken): the carried cell at the contents `xs0` the point before left is added to. -/
noncomputable def kernelRun1_B (c : Dev nD) (i : grid1.Coords) (arg1 : Memref sig .tc .vmem S16384x32 .f32) (harg1 : arg1.IsWhole) (arg2 : Memref sig .tc .vmem S16384x32 .f32) (harg2 : arg2.IsWhole) (arg3 : Memref sig .tc .vmem S1x10 .f32) (harg3 : arg3.IsWhole) (arg4 : Memref sig .tc .vmem S1x1 .f32) (harg4 : arg4.IsWhole) (arg5 : Memref sig .tc .vmem S1x1 .f32) (harg5 : arg5.IsWhole) (hc0 : ¬cond1 i)
    (x0 : Vec F S16384x32 .f32) (x1 : Vec F S16384x32 .f32) (x2 : Vec F S1x10 .f32) (xs0 : Vec F S1x1 .f32) :
    Σ' (L3 : List (View.Piece (Elt F) S1x1 .f32)), { LS0 : List (View.Piece (Elt F) S1x1 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ (∃ d, owns (c : Thread nD τ) arg4 fullShare d) ∗ owns (c : Thread nD τ) arg5 fullShare xs0
            ∗ (iprop(owns (c : Thread nD τ) arg1 fullShare x0 ∗ owns (c : Thread nD τ) arg2 fullShare x1 ∗ owns (c : Thread nD τ) arg3 fullShare x2 ∗ (∃ f, arg4.view.loc (c : Thread nD τ) ↦[arg4.view.set]{fullShare} arg4.view.writes (Elt F) f L3) ∗ (∃ f, arg5.view.loc (c : Thread nD τ) ↦[arg5.view.set]{fullShare} arg5.view.writes (Elt F) f LS0)) -∗ K ⟨⟩))
          ⊢ wp frame (wpE (defs₀ (F := F)) Variants.none c none) E (cc1__loss_kernel i arg1 harg1 arg2 harg2 arg3 harg3 arg4 harg4 arg5 harg5) K } := by
  refine ⟨?_, ?_, fun E K => ?run⟩
  case run =>
    simp only [cc1__loss_kernel_eq_skeleton]; unfold cc1__loss_kernel_skel
    simp only [k1_part1_eq_skeleton]; unfold k1_part1_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg1.eq_unread hf0; obtain rfl := harg2.eq_unread hf1; obtain rfl := harg3.eq_unread hf2; obtain rfl := harg5.eq_unread hfs0
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]; · iexists _; iexact H3
    iexists _; iexact HS0

end Cert.Kernel.Hand

end
-- ==== Proof.K.Body1.lean ====
/-
  The loss region's proof data and body obligation.  After point `n` the output window's buffer and the carried scratch
  both hold the loss cell accumulated over tiles `0 … n`: the first point's run starts from the reset cell, every later
  point's from what the point before left in the scratch.  The region's invariant names the scratch's contents from
  the first point on, beside the other region's buffers and the generator register, which it never touches.
-/
import proofs.«107730_j46686294508030_1_alg».proof.Proof.K.Runs1

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section Region1

variable (V : (c : Dev nD) → (b : Ref sig .tc) → Buf (Elt F) ((c : Thread nD τ).loc b))

/-! ## What each case leaves -/

theorem cover1_A_3 (c : Dev nD) (i : grid1.Coords) (arg1 : Memref sig .tc .vmem S16384x32 .f32) (harg1 : arg1.IsWhole) (arg2 : Memref sig .tc .vmem S16384x32 .f32) (harg2 : arg2.IsWhole) (arg3 : Memref sig .tc .vmem S1x10 .f32) (harg3 : arg3.IsWhole) (arg4 : Memref sig .tc .vmem S1x1 .f32) (harg4 : arg4.IsWhole) (arg5 : Memref sig .tc .vmem S1x1 .f32) (harg5 : arg5.IsWhole) (hc0 : cond1 i)
    (x0 x1 : Vec F S16384x32 .f32) (x2 : Vec F S1x10 .f32) (y : S1x1.Idx) :
    ∃ pc ∈ (kernelRun1_A c i arg1 harg1 arg2 harg2 arg3 harg3 arg4 harg4 arg5 harg5 hc0 x0 x1 x2).1, y ∈ pc.1.set :=
  View.cover_of_tiledL (kernelRun1_A c i arg1 harg1 arg2 harg2 arg3 harg3 arg4 harg4 arg5 harg5 hc0 x0 x1 x2).1 S1x1.size (by sl_kernel_rfl) y

/-- What the first point leaves in the output window's buffer. -/
def out1_A_3 (c : Dev nD) (i : grid1.Coords) (arg1 : Memref sig .tc .vmem S16384x32 .f32) (harg1 : arg1.IsWhole) (arg2 : Memref sig .tc .vmem S16384x32 .f32) (harg2 : arg2.IsWhole) (arg3 : Memref sig .tc .vmem S1x10 .f32) (harg3 : arg3.IsWhole) (arg4 : Memref sig .tc .vmem S1x1 .f32) (harg4 : arg4.IsWhole) (arg5 : Memref sig .tc .vmem S1x1 .f32) (harg5 : arg5.IsWhole) (hc0 : cond1 i)
    (x0 x1 : Vec F S16384x32 .f32) (x2 : Vec F S1x10 .f32) : Vec F S1x1 .f32 :=
  VO1_3.read (Elt F) (VO1_3.writes (Elt F) VO1_3.junk (kernelRun1_A c i arg1 harg1 arg2 harg2 arg3 harg3 arg4 harg4 arg5 harg5 hc0 x0 x1 x2).1)

theorem scover1_A (c : Dev nD) (i : grid1.Coords) (arg1 : Memref sig .tc .vmem S16384x32 .f32) (harg1 : arg1.IsWhole) (arg2 : Memref sig .tc .vmem S16384x32 .f32) (harg2 : arg2.IsWhole) (arg3 : Memref sig .tc .vmem S1x10 .f32) (harg3 : arg3.IsWhole) (arg4 : Memref sig .tc .vmem S1x1 .f32) (harg4 : arg4.IsWhole) (arg5 : Memref sig .tc .vmem S1x1 .f32) (harg5 : arg5.IsWhole) (hc0 : cond1 i)
    (x0 x1 : Vec F S16384x32 .f32) (x2 : Vec F S1x10 .f32) (y : S1x1.Idx) :
    ∃ pc ∈ (kernelRun1_A c i arg1 harg1 arg2 harg2 arg3 harg3 arg4 harg4 arg5 harg5 hc0 x0 x1 x2).2.1, y ∈ pc.1.set :=
  View.cover_of_tiledL (kernelRun1_A c i arg1 harg1 arg2 harg2 arg3 harg3 arg4 harg4 arg5 harg5 hc0 x0 x1 x2).2.1 S1x1.size (by sl_kernel_rfl) y

/-- What the first point leaves in the carried scratch. -/
def sout1_A (c : Dev nD) (i : grid1.Coords) (arg1 : Memref sig .tc .vmem S16384x32 .f32) (harg1 : arg1.IsWhole) (arg2 : Memref sig .tc .vmem S16384x32 .f32) (harg2 : arg2.IsWhole) (arg3 : Memref sig .tc .vmem S1x10 .f32) (harg3 : arg3.IsWhole) (arg4 : Memref sig .tc .vmem S1x1 .f32) (harg4 : arg4.IsWhole) (arg5 : Memref sig .tc .vmem S1x1 .f32) (harg5 : arg5.IsWhole) (hc0 : cond1 i)
    (x0 x1 : Vec F S16384x32 .f32) (x2 : Vec F S1x10 .f32) : Vec F S1x1 .f32 :=
  VS1.read (Elt F) (VS1.writes (Elt F) VS1.junk (kernelRun1_A c i arg1 harg1 arg2 harg2 arg3 harg3 arg4 harg4 arg5 harg5 hc0 x0 x1 x2).2.1)

theorem cover1_B_3 (c : Dev nD) (i : grid1.Coords) (arg1 : Memref sig .tc .vmem S16384x32 .f32) (harg1 : arg1.IsWhole) (arg2 : Memref sig .tc .vmem S16384x32 .f32) (harg2 : arg2.IsWhole) (arg3 : Memref sig .tc .vmem S1x10 .f32) (harg3 : arg3.IsWhole) (arg4 : Memref sig .tc .vmem S1x1 .f32) (harg4 : arg4.IsWhole) (arg5 : Memref sig .tc .vmem S1x1 .f32) (harg5 : arg5.IsWhole) (hc0 : ¬cond1 i)
    (x0 x1 : Vec F S16384x32 .f32) (x2 : Vec F S1x10 .f32) (xs0 : Vec F S1x1 .f32) (y : S1x1.Idx) :
    ∃ pc ∈ (kernelRun1_B c i arg1 harg1 arg2 harg2 arg3 harg3 arg4 harg4 arg5 harg5 hc0 x0 x1 x2 xs0).1, y ∈ pc.1.set :=
  View.cover_of_tiledL (kernelRun1_B c i arg1 harg1 arg2 harg2 arg3 harg3 arg4 harg4 arg5 harg5 hc0 x0 x1 x2 xs0).1 S1x1.size (by sl_kernel_rfl) y

/-- What a later point leaves in the output window's buffer. -/
def out1_B_3 (c : Dev nD) (i : grid1.Coords) (arg1 : Memref sig .tc .vmem S16384x32 .f32) (harg1 : arg1.IsWhole) (arg2 : Memref sig .tc .vmem S16384x32 .f32) (harg2 : arg2.IsWhole) (arg3 : Memref sig .tc .vmem S1x10 .f32) (harg3 : arg3.IsWhole) (arg4 : Memref sig .tc .vmem S1x1 .f32) (harg4 : arg4.IsWhole) (arg5 : Memref sig .tc .vmem S1x1 .f32) (harg5 : arg5.IsWhole) (hc0 : ¬cond1 i)
    (x0 x1 : Vec F S16384x32 .f32) (x2 : Vec F S1x10 .f32) (xs0 : Vec F S1x1 .f32) : Vec F S1x1 .f32 :=
  VO1_3.read (Elt F) (VO1_3.writes (Elt F) VO1_3.junk (kernelRun1_B c i arg1 harg1 arg2 harg2 arg3 harg3 arg4 harg4 arg5 harg5 hc0 x0 x1 x2 xs0).1)

theorem scover1_B (c : Dev nD) (i : grid1.Coords) (arg1 : Memref sig .tc .vmem S16384x32 .f32) (harg1 : arg1.IsWhole) (arg2 : Memref sig .tc .vmem S16384x32 .f32) (harg2 : arg2.IsWhole) (arg3 : Memref sig .tc .vmem S1x10 .f32) (harg3 : arg3.IsWhole) (arg4 : Memref sig .tc .vmem S1x1 .f32) (harg4 : arg4.IsWhole) (arg5 : Memref sig .tc .vmem S1x1 .f32) (harg5 : arg5.IsWhole) (hc0 : ¬cond1 i)
    (x0 x1 : Vec F S16384x32 .f32) (x2 : Vec F S1x10 .f32) (xs0 : Vec F S1x1 .f32) (y : S1x1.Idx) :
    ∃ pc ∈ (kernelRun1_B c i arg1 harg1 arg2 harg2 arg3 harg3 arg4 harg4 arg5 harg5 hc0 x0 x1 x2 xs0).2.1, y ∈ pc.1.set :=
  View.cover_of_tiledL (kernelRun1_B c i arg1 harg1 arg2 harg2 arg3 harg3 arg4 harg4 arg5 harg5 hc0 x0 x1 x2 xs0).2.1 S1x1.size (by sl_kernel_rfl) y

/-- What a later point leaves in the carried scratch. -/
def sout1_B (c : Dev nD) (i : grid1.Coords) (arg1 : Memref sig .tc .vmem S16384x32 .f32) (harg1 : arg1.IsWhole) (arg2 : Memref sig .tc .vmem S16384x32 .f32) (harg2 : arg2.IsWhole) (arg3 : Memref sig .tc .vmem S1x10 .f32) (harg3 : arg3.IsWhole) (arg4 : Memref sig .tc .vmem S1x1 .f32) (harg4 : arg4.IsWhole) (arg5 : Memref sig .tc .vmem S1x1 .f32) (harg5 : arg5.IsWhole) (hc0 : ¬cond1 i)
    (x0 x1 : Vec F S16384x32 .f32) (x2 : Vec F S1x10 .f32) (xs0 : Vec F S1x1 .f32) : Vec F S1x1 .f32 :=
  VS1.read (Elt F) (VS1.writes (Elt F) VS1.junk (kernelRun1_B c i arg1 harg1 arg2 harg2 arg3 harg3 arg4 harg4 arg5 harg5 hc0 x0 x1 x2 xs0).2.1)

/-! ## The accumulation, point by point -/

theorem notCond1_succ (n : ℕ) (hn : n + 1 < cfg1.N) : ¬cond1 (grid1.coords ⟨n + 1, hn⟩) := fun h => by
  have h' := (hcond1 ⟨n + 1, hn⟩).mp h
  have hN : n + 1 < 64 := lt_of_lt_of_eq hn (show cfg1.N = 64 from N_1)
  (try dsimp only at h'); omega

/-- The output window's buffer and the carried scratch after the body at position `n`. -/
def outsAt1 (c : Dev nD) : (n : ℕ) → n < cfg1.N → Vec F S1x1 .f32 × Vec F S1x1 .f32
  | 0, hn => (out1_A_3 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1 (Memref.isWhole_whole _) ((hcond1 ⟨0, hn⟩).mpr (Nat.zero_mod _)) (iblk1 V c 0 ⟨0, hn⟩) (iblk1 V c 1 ⟨0, hn⟩) (iblk1 V c 2 ⟨0, hn⟩),
      sout1_A c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1 (Memref.isWhole_whole _) ((hcond1 ⟨0, hn⟩).mpr (Nat.zero_mod _)) (iblk1 V c 0 ⟨0, hn⟩) (iblk1 V c 1 ⟨0, hn⟩) (iblk1 V c 2 ⟨0, hn⟩))
  | n + 1, hn => (out1_B_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1 (Memref.isWhole_whole _) (notCond1_succ n hn) (iblk1 V c 0 ⟨n + 1, hn⟩) (iblk1 V c 1 ⟨n + 1, hn⟩) (iblk1 V c 2 ⟨n + 1, hn⟩) (outsAt1 c n (Nat.lt_of_succ_lt hn)).2,
      sout1_B c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1 (Memref.isWhole_whole _) (notCond1_succ n hn) (iblk1 V c 0 ⟨n + 1, hn⟩) (iblk1 V c 1 ⟨n + 1, hn⟩) (iblk1 V c 2 ⟨n + 1, hn⟩) (outsAt1 c n (Nat.lt_of_succ_lt hn)).2)

theorem outsAt1_A (c : Dev nD) (t : Fin cfg1.N) (h0 : t.val % 64 = 0) :
    outsAt1 V c t.val t.isLt = (out1_A_3 c (grid1.coords t) (ms1_0 t) (hs1_0 t) (ms1_1 t) (hs1_1 t) (ms1_2 t) (hs1_2 t) (ms1_3 t) (hs1_3 t) scM1 (Memref.isWhole_whole _) ((hcond1 t).mpr h0) (iblk1 V c 0 t) (iblk1 V c 1 t) (iblk1 V c 2 t),
      sout1_A c (grid1.coords t) (ms1_0 t) (hs1_0 t) (ms1_1 t) (hs1_1 t) (ms1_2 t) (hs1_2 t) (ms1_3 t) (hs1_3 t) scM1 (Memref.isWhole_whole _) ((hcond1 t).mpr h0) (iblk1 V c 0 t) (iblk1 V c 1 t) (iblk1 V c 2 t)) := by
  obtain ⟨n, hn⟩ := t
  cases n with
  | zero => exact rfl
  | succ n => exact (by exfalso; have hN : n + 1 < 64 := lt_of_lt_of_eq hn (show cfg1.N = 64 from N_1); (try dsimp only at h0); omega)

theorem outsAt1_B (c : Dev nD) (t : Fin cfg1.N) (h0 : ¬t.val % 64 = 0) :
    outsAt1 V c t.val t.isLt = (out1_B_3 c (grid1.coords t) (ms1_0 t) (hs1_0 t) (ms1_1 t) (hs1_1 t) (ms1_2 t) (hs1_2 t) (ms1_3 t) (hs1_3 t) scM1 (Memref.isWhole_whole _) (fun h => h0 ((hcond1 t).mp h)) (iblk1 V c 0 t) (iblk1 V c 1 t) (iblk1 V c 2 t) (outsAt1 V c (t.val - 1) (Nat.lt_of_le_of_lt (Nat.sub_le _ _) t.isLt)).2,
      sout1_B c (grid1.coords t) (ms1_0 t) (hs1_0 t) (ms1_1 t) (hs1_1 t) (ms1_2 t) (hs1_2 t) (ms1_3 t) (hs1_3 t) scM1 (Memref.isWhole_whole _) (fun h => h0 ((hcond1 t).mp h)) (iblk1 V c 0 t) (iblk1 V c 1 t) (iblk1 V c 2 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact rfl

/-- The region's invariant before position `n`: the class's before the first point; afterwards the carried scratch
    at what the point before left, the other region's buffers at anything, the generator register at some state. -/
def PhiS1 (c : Dev nD) : (n : ℕ) → n ≤ cfg1.N → sProp 𝕄
  | 0, _ => Pipeline.ΦA spec1 c
  | n + 1, hn => iprop(Rest1 c (owns (c : Thread nD τ) scM1 fullShare ((outsAt1 V c n hn).2)) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(Rest1 c (owns (c : Thread nD τ) scM1 fullShare ((outsAt1 V c n hn).2)) ∗ (∃ r, prngReg c r)) := rfl

theorem PhiS1_pos (c : Dev nD) (n : ℕ) (h : n ≤ cfg1.N) (hz : n ≠ 0) :
    PhiS1 V c n h = iprop(Rest1 c (owns (c : Thread nD τ) scM1 fullShare ((outsAt1 V c (n - 1) (by omega)).2)) ∗ (∃ r, prngReg c r)) := by
  cases n with
  | zero => exact absurd rfl hz
  | succ n => rfl

/-! ## The proof data -/

/-- The arrays as the region finds them; after the body at point `t` each input's buffer at its block and the
    output's at the accumulated cell; the invariant above; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4800000 in
/-- The body at any point: the inputs' buffers hold their blocks; the first point runs the reset case from the
    class's invariant, every later point the accumulating case from the scratch at what the point before left; the
    invariant takes the scratch back at this point's contents; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  have hN : t.val < 64 := lt_of_lt_of_eq t.isLt (show cfg1.N = 64 from N_1)
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [show (dat1 V c).leavesExact 3 t = owns (c : Thread nD τ) (ms1_3 t) fullShare ((dat1 V c).after 3 t) from by
    unfold Dat.leavesExact; rw [liveAt1_3 t], after1_3]
  by_cases h0 : t.val % 64 = 0
  · have hz : t.val = 0 := by omega
    rw [outsAt1_A V c t h0]
    unfold out1_A_3 sout1_A; (try dsimp only)
    rw [PhiS1_castSucc V c t, PhiS1_zero V c _ _ hz, PhiA1_eq]
    unfold Rest1
    iintro ⟨⟨⟨R1, R2, R3, R4, R5, R6, HS0⟩, Hg⟩, Ho, ⟨%d0, H0⟩, ⟨%d1, H1⟩, ⟨%d2, H2⟩, ⟨%d3, H3⟩⟩
    iapply ((kernelRun1_A c (grid1.coords t) _ _ _ _ _ _ _ _ _ _ ((hcond1 t).mpr h0) (iblk1 V c 0 t) (iblk1 V c 1 t) (iblk1 V c 2 t)).2.2 Set.univ _)
    isplitl [H0]; · iexact H0
    isplitl [H1]; · iexact H1
    isplitl [H2]; · iexact H2
    isplitl [H3]; · iexists _; iexact H3
    isplitl [HS0]; · iexact HS0
    iintro ⟨H0, H1, H2, ⟨%e3, H3⟩, ⟨%es0, HS0⟩⟩
    isplitl [HS0 R1 R2 R3 R4 R5 R6 Hg]
    · isplitl [HS0 R1 R2 R3 R4 R5 R6]
      · isplitl [R1]; · iexact R1
        isplitl [R2]; · iexact R2
        isplitl [R3]; · iexact R3
        isplitl [R4]; · iexact R4
        isplitl [R5]; · iexact R5
        isplitl [R6]; · iexact R6
        unfold owns; iexists _; isplitr
        swap; · iexact HS0
        ipureintro; exact View.read_writes_of_cover _ _ _ _ _ (scover1_A c _ _ _ _ _ _ _ _ _ _ _ _ _ _ _)
      iexact Hg
    isplitl [Ho]; · iexact Ho
    isplitl [H0]; · iexact H0
    isplitl [H1]; · iexact H1
    isplitl [H2]; · iexact H2
    unfold owns; iexists _; isplitr
    swap; · iexact H3
    ipureintro; exact View.read_writes_of_cover _ _ _ _ _ (cover1_A_3 c _ _ _ _ _ _ _ _ _ _ _ _ _ _ _)
  · have hz : t.val ≠ 0 := by omega
    rw [outsAt1_B V c t h0]
    unfold out1_B_3 sout1_B; (try dsimp only)
    rw [PhiS1_castSucc V c t, PhiS1_pos V c _ _ hz]
    unfold Rest1
    iintro ⟨⟨⟨R1, R2, R3, R4, R5, R6, HS0⟩, Hg⟩, Ho, ⟨%d0, H0⟩, ⟨%d1, H1⟩, ⟨%d2, H2⟩, ⟨%d3, H3⟩⟩
    iapply ((kernelRun1_B c (grid1.coords t) _ _ _ _ _ _ _ _ _ _ (fun h => h0 ((hcond1 t).mp h)) (iblk1 V c 0 t) (iblk1 V c 1 t) (iblk1 V c 2 t) _).2.2 Set.univ _)
    isplitl [H0]; · iexact H0
    isplitl [H1]; · iexact H1
    isplitl [H2]; · iexact H2
    isplitl [H3]; · iexists _; iexact H3
    isplitl [HS0]; · iexact HS0
    iintro ⟨H0, H1, H2, ⟨%e3, H3⟩, ⟨%es0, HS0⟩⟩
    isplitl [HS0 R1 R2 R3 R4 R5 R6 Hg]
    · isplitl [HS0 R1 R2 R3 R4 R5 R6]
      · isplitl [R1]; · iexact R1
        isplitl [R2]; · iexact R2
        isplitl [R3]; · iexact R3
        isplitl [R4]; · iexact R4
        isplitl [R5]; · iexact R5
        isplitl [R6]; · iexact R6
        unfold owns; iexists _; isplitr
        swap; · iexact HS0
        ipureintro; exact View.read_writes_of_cover _ _ _ _ _ (scover1_B c _ _ _ _ _ _ _ _ _ _ _ _ _ _ _ _)
      iexact Hg
    isplitl [Ho]; · iexact Ho
    isplitl [H0]; · iexact H0
    isplitl [H1]; · iexact H1
    isplitl [H2]; · iexact H2
    unfold owns; iexists _; isplitr
    swap; · iexact H3
    ipureintro; exact View.read_writes_of_cover _ _ _ _ _ (cover1_B_3 c _ _ _ _ _ _ _ _ _ _ _ _ _ _ _ _)

theorem body_obligation1 (c : Dev nD) : BodyObligation (dat1 (F := F) V c) (defs₀ (F := F)) Variants.none () Set.univ := fun t => by
  rw [bigSep_W1, bigSep_W1]
  exact sound_body1 V c t

/-- After any point but the first the invariant gives the class's back: the scratch's named contents forgotten. -/
theorem Phi1_out (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  unfold Rest1
  iintro ⟨⟨R1, R2, R3, R4, R5, R6, HS0⟩, Hg⟩
  isplitl [HS0 R1 R2 R3 R4 R5 R6]
  · isplitl [R1]; · iexact R1
    isplitl [R2]; · iexact R2
    isplitl [R3]; · iexact R3
    isplitl [R4]; · iexact R4
    isplitl [R5]; · iexact R5
    isplitl [R6]; · iexact R6
    iexists _; iexact HS0
  iexact Hg

theorem Phi1_in (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

theorem Phi1_last (c : Dev nD) : (dat1 V c).Φ (Fin.last cfg1.N) ⊢ Pipeline.ΦA spec1 c :=
  Phi1_out V c _ (by rw [Fin.val_last]; have : cfg1.N = 64 := N_1; omega)

end Region1

end Cert.Kernel.Hand

end
-- ==== Proof.K.Run.lean ====
/-
  The kernel program's run from the launch to the return, at any float family: the two regions' records around the
  valuations of the unscoped buffers between @main's items, the contents each region leaves in its output array named
  (what the pipeline's write-backs fold to), and the conclusion that every weakly fair execution terminates with every
  unscoped buffer of every core at the last valuation.
-/
import proofs.«107730_j46686294508030_1_alg».proof.Proof.K.Body0
import proofs.«107730_j46686294508030_1_alg».proof.Proof.K.Body1
import proofs.«107730_j46686294508030_1_alg».proof.Proof.K.RunCond
import Idealize.ShloMosaic.Lib.Pipeline.RegionsLoop

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

/-! ## The contents at the regions' ends -/

/-- The histogram region's entry contents, read at the TensorCore's references. -/
abbrev VE0 (c : Dev nD) (b : Ref sig .tc) : Buf (Elt F) ((c : Thread nD τ).loc b) := Gen.V1 m c b

/-- At the histogram region's exit: its arrays at what the pipeline leaves, every other buffer as entered. -/
def W2' (c : Dev nD) : Valuation τ sig (Elt F) :=
  Pipeline.withArrays spec0 c (Gen.V1 m c) fun w => (dat0 (VE0 m) c).arrAt w cfg0.N
theorem W2'_arr (c : Dev nD) (w : Fin cfg0.W) :
    W2' m c (Proc.devRef .tc (Pipeline.arrRef spec0 w)) = (dat0 (VE0 m) c).arrAt w cfg0.N := by
  unfold W2'; exact Pipeline.withArrays_arr spec0 launch0.win.arr_inj c _ _ w

/-- What the histogram region leaves, as the unknowns of the valuations between the items. -/
abbrev outsA : Gen.Outs (F := F) := fun _ r c => W2' m c r

/-- The loss region's entry contents, read at the TensorCore's references. -/
abbrev VE1 (c : Dev nD) (b : Ref sig .tc) : Buf (Elt F) ((c : Thread nD τ).loc b) := Gen.V9 m (outsA m) c b

/-- At the loss region's exit: its arrays at what the pipeline leaves, every other buffer as entered. -/
def W10' (c : Dev nD) : Valuation τ sig (Elt F) :=
  Pipeline.withArrays spec1 c (Gen.V9 m (outsA m) c) fun w => (dat1 (VE1 m) c).arrAt w cfg1.N
theorem W10'_arr (c : Dev nD) (w : Fin cfg1.W) :
    W10' m c (Proc.devRef .tc (Pipeline.arrRef spec1 w)) = (dat1 (VE1 m) c).arrAt w cfg1.N := by
  unfold W10'; exact Pipeline.withArrays_arr spec1 launch1.win.arr_inj c _ _ w

/-- What both regions leave. -/
def outs : Gen.Outs (F := F) := fun n r c => if n = 2 then W2' m c r else W10' m c r

theorem outs_2 (c : Dev nD) (r : Ref sig .tc) : outs m 2 r c = W2' m c r := rfl
theorem outs_10 (c : Dev nD) (r : Ref sig .tc) : outs m 10 r c = W10' m c r := rfl

/-- The valuations up to the loss region's entry read only what the histogram region leaves. -/
theorem V9_outs (c : Dev nD) : Gen.V9 m (outs m) c = Gen.V9 m (outsA m) c := rfl

abbrev VX0 (c : Dev nD) (b : Ref sig .tc) : Buf (Elt F) ((c : Thread nD τ).loc b) := Gen.V2 m (outs m) c b
abbrev VX1 (c : Dev nD) (b : Ref sig .tc) : Buf (Elt F) ((c : Thread nD τ).loc b) := Gen.V10 m (outs m) c b

theorem V2_main_v0 (c : Dev nD) : Gen.V2 m (outs m) c main_v0 = (dat0 (VE0 m) c).arrAt 2 cfg0.N := by
  unfold Gen.V2; rw [Function.update_self, outs_2]; exact W2'_arr m c 2
theorem V10_main_v22 (c : Dev nD) : Gen.V10 m (outs m) c main_v22 = (dat1 (VE1 m) c).arrAt 3 cfg1.N := by
  unfold Gen.V10; rw [Function.update_self, outs_10]; exact W10'_arr m c 3

theorem hF0 (c : Dev nD) (w : Fin cfg0.W) : (dat0 (VE0 m) c).arrAt w cfg0.N = VX0 m c (Pipeline.arrRef spec0 w) := by
  match w with
  | ⟨0, _⟩ => exact ((dat0 (VE0 m) c).arrAt_in 0 rfl _).trans ((A_eq0 (VE0 m) c 0).trans (Gen.V2_of m (outs m) c main_arg0 (by decide)).symm)
  | ⟨1, _⟩ => exact ((dat0 (VE0 m) c).arrAt_in 1 rfl _).trans ((A_eq0 (VE0 m) c 1).trans (Gen.V2_of m (outs m) c main_arg1 (by decide)).symm)
  | ⟨2, _⟩ => exact (V2_main_v0 m c).symm
theorem hrest0 (c : Dev nD) : ∀ b, b ∉ Finset.univ.image (Pipeline.arrRef spec0) → VX0 m c b = VE0 m c b :=
  fun b hb => Gen.V2_of m (outs m) c b (by
    intro h; rw [List.mem_singleton] at h; subst h
    exact hb (Finset.mem_image.mpr ⟨2, Finset.mem_univ _, rfl⟩))

theorem hF1 (c : Dev nD) (w : Fin cfg1.W) : (dat1 (VE1 m) c).arrAt w cfg1.N = VX1 m c (Pipeline.arrRef spec1 w) := by
  match w with
  | ⟨0, _⟩ => exact ((dat1 (VE1 m) c).arrAt_in 0 rfl _).trans ((A_eq1 (VE1 m) c 0).trans ((Gen.V10_of m (outs m) c main_arg0 (by decide)).trans (congrFun (V9_outs m c) _)).symm)
  | ⟨1, _⟩ => exact ((dat1 (VE1 m) c).arrAt_in 1 rfl _).trans ((A_eq1 (VE1 m) c 1).trans ((Gen.V10_of m (outs m) c main_arg1 (by decide)).trans (congrFun (V9_outs m c) _)).symm)
  | ⟨2, _⟩ => exact ((dat1 (VE1 m) c).arrAt_in 2 rfl _).trans ((A_eq1 (VE1 m) c 2).trans ((Gen.V10_of m (outs m) c main_v21 (by decide)).trans (congrFun (V9_outs m c) _)).symm)
  | ⟨3, _⟩ => exact (V10_main_v22 m c).symm
theorem hrest1 (c : Dev nD) : ∀ b, b ∉ Finset.univ.image (Pipeline.arrRef spec1) → VX1 m c b = VE1 m c b :=
  fun b hb => (Gen.V10_of m (outs m) c b (by
    intro h; rw [List.mem_singleton] at h; subst h
    exact hb (Finset.mem_image.mpr ⟨3, Finset.mem_univ _, rfl⟩))).trans (congrFun (V9_outs m c) _)

/-! ## The proof data family and the thread state -/

abbrev adm : (p : Fin 2) → (pcfgs (F := F) p).Adm := Gen.adm
/-- Every pipeline's proof data, each at its region's entry contents. -/
def pdats : (p : Fin 2) → (c : Dev nD) → Dat τ (Elt F) Unit ℕ (UR sig nD τ) ℕ (cfgs p) c
  | ⟨0, _⟩ => fun c => dat0 (VE0 m) c
  | ⟨1, _⟩ => fun c => dat1 (VE1 m) c
abbrev 𝒱₀ : Variants := Variants.none
abbrev L : GSem nD τ sig → Finset Unit := fun _ => ∅
abbrev lv : GSem nD τ sig → Unit → ℕ := fun _ _ => 0
/-- What rides beside the buffers through every item: the generator register at some state and the core owing nothing. -/
abbrev R (c : Dev nD) : sProp 𝕄 := iprop((∃ r, prngReg c r) ∗ ∃ W, owes (c : Thread nD τ) (0 : CellTallies nD τ sig Unit) W)

/-! ## The regions as segments -/

set_option backward.isDefEq.respectTransparency.types false in
/-- REGION 0 over the thread state: entered from every unscoped buffer at the valuation before it, left at the one
    after it. Its arrays are split out of the unscoped buffers and put back at the exit contents; the generator register
    and the scoped rest go into the region's invariant and come back out of it, the carried scratch's named contents
    forgotten at the exit; nothing owed; no semaphore of the kernel's own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (VE0 m) c).loose
  hwaits := Pipeline.hwaits_of_owed_zero _ _ _ _ L lv 0 fun _ _ => rfl
  pre c := iprop(StableHlo.held (c : Thread nD τ) (Pipeline.ucRefs τ sig) (Gen.V1 m c) ∗ R c)
  post c := iprop(StableHlo.held (c : Thread nD τ) (Pipeline.ucRefs τ sig) (Gen.V2 m (outs m) c) ∗ R c)
  X c := iprop(∃ r, prngReg c r)
  Y c := iprop(∃ r, prngReg c r)
  Z c := Pipeline.unscopedRest (Ix := Unit) (Name := ℕ) (U := UR sig nD τ) (Lvl := ℕ) spec0 c (VE0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (VE0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none]
    refine (Phi0_last (VE0 m) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (VE0 m c) (VX0 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 1 over the thread state: entered from every unscoped buffer at the valuation before it, left at the one
    after it. Its arrays are split out of the unscoped buffers and put back at the exit contents; the generator register
    and the scoped rest go into the region's invariant and come back out of it, the carried scratch's named contents
    forgotten at the exit; nothing owed; no semaphore of the kernel's own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (VE1 m) c).loose
  hwaits := Pipeline.hwaits_of_owed_zero _ _ _ _ L lv 1 fun _ _ => rfl
  pre c := iprop(StableHlo.held (c : Thread nD τ) (Pipeline.ucRefs τ sig) (Gen.V9 m (outsA m) c) ∗ R c)
  post c := iprop(StableHlo.held (c : Thread nD τ) (Pipeline.ucRefs τ sig) (Gen.V10 m (outs m) c) ∗ R c)
  X c := iprop(∃ r, prngReg c r)
  Y c := iprop(∃ r, prngReg c r)
  Z c := Pipeline.unscopedRest (Ix := Unit) (Name := ℕ) (U := UR sig nD τ) (Lvl := ℕ) spec1 c (VE1 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (VE1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none]
    refine (Phi1_last (VE1 m) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (VE1 m c) (VX1 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The run -/

set_option backward.isDefEq.respectTransparency.types false in
/-- Every weakly fair execution of @main from memory `m` with zero counters terminates, and every final memory holds
    every unscoped buffer of every core at the last valuation. -/
theorem run_all (ρ : Dev nD → PrngReg) :
    θ_run defs (onTc (τ := τ) (main (F := F))) ⟨m, fun _ => 0, ρ⟩ (fun r => ∀ c : Dev nD,
      ∀ b ∈ Pipeline.ucRefs τ sig, r.2.mem ((c : Thread nD τ).1, b) = Gen.V11 m (outs m) c b) :=
  GenP.run_cond m emb₁ () 𝒱₀ L lv (fun _ _ => rfl) ρ (outs m) (pdats m) (O₀ := 0) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (E := fun _ c => R c)
    (hE0 := by
      refine Pipeline.initEach L lv fun c => ?_
      iintro ⟨⟨-, HO, -, Hp, -⟩, -⟩
      imodintro
      isplitl [Hp]; · iexists _; iexact Hp
      iexists ∅; iexact HO)
    (hE2 := fun c => by iintro ⟨-, HO⟩; iexact HO)
    (reg0 m) (fun c => .rfl) (fun c => .rfl)
    (reg1 m) (fun c => by rw [V9_outs]; exact .rfl) (fun c => .rfl)

end Cert.Kernel.Hand

end
-- ==== Proof.K.Frame.lean ====
/-
  The kernel program's frame, at any float family: every weakly fair execution terminates and the two argument arrays
  end as launched — no host operation and no region writes an argument, so the last valuation at an argument walks
  back to the launch memory.
-/
import proofs.«107730_j46686294508030_1_alg».proof.Proof.K.Run

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

/-- An unscoped TensorCore reference is among those the run's post names. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

theorem frame (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c =>
    ⟨(h c (Proc.devRef .tc main_arg0) (mem_uc main_arg0 (by decide))).trans (Gen.V11_main_arg0 m (outs m) c),
     (h c (Proc.devRef .tc main_arg1) (mem_uc main_arg1 (by decide))).trans (Gen.V11_main_arg1 m (outs m) c)⟩) (run_all m ρ)

end Cert.Kernel.Hand

end
-- ==== Proof.KI.Runs0.lean ====
/-
  The histogram region, point by point: what its body is run on, which of its two control cases a grid point is in
  (the first point resets the carried row of counts, every later point adds to it), and the body's run in each case
  with the pieces its stores leave.
-/
import proofs.«107730_j46686294508030_1_alg».proof.Proof.Gen.KernelIdeal.Launch
import proofs.«107730_j46686294508030_1_alg».proof.Proof.Gen.KernelIdeal.Skeleton
import proofs.«107730_j46686294508030_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section Region0

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's staging buffer holds its block at every point, for any proof data whose array is the entry
    contents and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

end Region0

/-- The body's one branch: taken at the grid's first point. -/
abbrev cond0 (i : grid0.Coords) : Prop := (Scalar.cmpi .ne (Scalar.extui (Scalar.cmpi .eq (BitVec.ofNat 32 (i 0).val) 0#32)) 0#32) = 1#1
theorem hcond0 : ∀ t : Fin cfg0.N, cond0 (grid0.coords t) ↔ t.val % 64 = 0 :=
  (by decide +kernel : ∀ t : Fin grid0.N, cond0 (grid0.coords t) ↔ t.val % 64 = 0)

/-- No window is idle at any point. -/
theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel

/-- The output window's one staging buffer and the carried scratch, as views. -/
abbrev VO0_2 : View sig .tc .vmem S1x10 .f32 := (Memref.whole cc0_stg2_0 : Memref sig .tc .vmem S1x10 .f32).view
abbrev ms0_0 (t : Fin cfg0.N) : Memref sig .tc .vmem S16384x32 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S16384x32 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x10 .f32 := win0_2.stage (cfg0.slots t 2)
abbrev hs0_2 (t : Fin cfg0.N) : (ms0_2 t).IsWhole := hstage0_2 ((cfg0.slots t 2).cast nbuf0_2)
abbrev scM0 : Memref sig .tc .vmem S1x10 .f32 := Memref.whole cc0_scratch0
abbrev VS0 : View sig .tc .vmem S1x10 .f32 := scM0.view

/-- The other region's staging buffers and scratch, each whole at some contents: what this region never touches. -/
def Rest0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_scratch0), ((c : Thread nD τ).loc cc1_scratch0) ↦{fullShare} f))

/-- The class invariant with the carried scratch as an owned memref at some contents. -/
theorem PhiA0_eq (c : Dev nD) :
    (Pipeline.ΦA spec0 c : sProp 𝕄)
      = iprop(iprop((∃ d, owns (c : Thread nD τ) scM0 fullShare d) ∗ Rest0 c) ∗ (∃ r, prngReg c r)) := by
  unfold Pipeline.ΦA Rest0; rw [scopedRest0_eq]; simp only [scM0, owns_whole]; try rfl

set_option maxHeartbeats 1000000 in
/-- The first point (the branch taken): the carried scratch at anything is reset and then added to; the pieces the
    stores leave in the output's buffer and in the scratch are what the run finds. -/
noncomputable def kernelRun0_A (c : Dev nD) (i : grid0.Coords) (arg1 : Memref sig .tc .vmem S16384x32 .f32) (harg1 : arg1.IsWhole) (arg2 : Memref sig .tc .vmem S16384x32 .f32) (harg2 : arg2.IsWhole) (arg3 : Memref sig .tc .vmem S1x10 .f32) (harg3 : arg3.IsWhole) (arg4 : Memref sig .tc .vmem S1x10 .f32) (harg4 : arg4.IsWhole) (hc0 : cond0 i)
    (x0 : Vec F S16384x32 .f32) (x1 : Vec F S16384x32 .f32) :
    Σ' (L2 : List (View.Piece (Elt F) S1x10 .f32)), { LS0 : List (View.Piece (Elt F) S1x10 .f32) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d) ∗ (∃ d, owns (c : Thread nD τ) arg4 fullShare d)
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2) ∗ (∃ f, arg4.view.loc (c : Thread nD τ) ↦[arg4.view.set]{fullShare} arg4.view.writes (Elt F) f LS0)) -∗ K ⟨⟩))
          ⊢ wp frame (wpE (defs₀ (F := F)) Variants.none c none) E (cc0__hist_kernel i arg1 harg1 arg2 harg2 arg3 harg3 arg4 harg4) K } := by
  refine ⟨?_, ?_, fun E K => ?run⟩
  case run =>
    simp only [cc0__hist_kernel_eq_skeleton]; unfold cc0__hist_kernel_skel
    unfold owns
    iintro ⟨⟨%f0, %hf0, H0⟩, ⟨%f1, %hf1, H1⟩, ⟨%d2, %f2, -, H2⟩, ⟨%ds0, %fs0, -, HS0⟩, Hk⟩
    obtain rfl := harg1.eq_unread hf0; obtain rfl := harg2.eq_unread hf1
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    iexists _; iexact HS0

set_option maxHeartbeats 1000000 in
/-- Every later point (the branch not taken): the carried scratch at the contents `xs0` the point before left is
    added to. -/
noncomputable def kernelRun0_B (c : Dev nD) (i : grid0.Coords) (arg1 : Memref sig .tc .vmem S16384x32 .f32) (harg1 : arg1.IsWhole) (arg2 : Memref sig .tc .vmem S16384x32 .f32) (harg2 : arg2.IsWhole) (arg3 : Memref sig .tc .vmem S1x10 .f32) (harg3 : arg3.IsWhole) (arg4 : Memref sig .tc .vmem S1x10 .f32) (harg4 : arg4.IsWhole) (hc0 : ¬cond0 i)
    (x0 : Vec F S16384x32 .f32) (x1 : Vec F S16384x32 .f32) (xs0 : Vec F S1x10 .f32) :
    Σ' (L2 : List (View.Piece (Elt F) S1x10 .f32)), { LS0 : List (View.Piece (Elt F) S1x10 .f32) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d) ∗ owns (c : Thread nD τ) arg4 fullShare xs0
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2) ∗ (∃ f, arg4.view.loc (c : Thread nD τ) ↦[arg4.view.set]{fullShare} arg4.view.writes (Elt F) f LS0)) -∗ K ⟨⟩))
          ⊢ wp frame (wpE (defs₀ (F := F)) Variants.none c none) E (cc0__hist_kernel i arg1 harg1 arg2 harg2 arg3 harg3 arg4 harg4) K } := by
  refine ⟨?_, ?_, fun E K => ?run⟩
  case run =>
    simp only [cc0__hist_kernel_eq_skeleton]; unfold cc0__hist_kernel_skel
    unfold owns
    iintro ⟨⟨%f0, %hf0, H0⟩, ⟨%f1, %hf1, H1⟩, ⟨%d2, %f2, -, H2⟩, ⟨%fs0, %hfs0, HS0⟩, Hk⟩
    obtain rfl := harg1.eq_unread hf0; obtain rfl := harg2.eq_unread hf1; obtain rfl := harg4.eq_unread hfs0
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    iexists _; iexact HS0

end Cert.KernelIdeal.Hand

end
-- ==== Proof.KI.Body0.lean ====
/-
  The histogram region's proof data and body obligation.  After point `n` the output window's buffer and the carried
  scratch both hold the row of counts accumulated over tiles `0 … n`: the first point's run starts from the reset row,
  every later point's from what the point before left in the scratch.  The region's invariant names the scratch's
  contents from the first point on, beside the other region's buffers and the generator register, which it never
  touches.
-/
import proofs.«107730_j46686294508030_1_alg».proof.Proof.KI.Runs0

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section Region0

variable (V : (c : Dev nD) → (b : Ref sig .tc) → Buf (Elt F) ((c : Thread nD τ).loc b))

/-! ## What each case leaves -/

theorem cover0_A_2 (c : Dev nD) (i : grid0.Coords) (arg1 : Memref sig .tc .vmem S16384x32 .f32) (harg1 : arg1.IsWhole) (arg2 : Memref sig .tc .vmem S16384x32 .f32) (harg2 : arg2.IsWhole) (arg3 : Memref sig .tc .vmem S1x10 .f32) (harg3 : arg3.IsWhole) (arg4 : Memref sig .tc .vmem S1x10 .f32) (harg4 : arg4.IsWhole) (hc0 : cond0 i)
    (x0 x1 : Vec F S16384x32 .f32) (y : S1x10.Idx) :
    ∃ pc ∈ (kernelRun0_A c i arg1 harg1 arg2 harg2 arg3 harg3 arg4 harg4 hc0 x0 x1).1, y ∈ pc.1.set :=
  View.cover_of_tiledL (kernelRun0_A c i arg1 harg1 arg2 harg2 arg3 harg3 arg4 harg4 hc0 x0 x1).1 S1x10.size (by sl_kernel_rfl) y

/-- What the first point leaves in the output window's buffer. -/
def out0_A_2 (c : Dev nD) (i : grid0.Coords) (arg1 : Memref sig .tc .vmem S16384x32 .f32) (harg1 : arg1.IsWhole) (arg2 : Memref sig .tc .vmem S16384x32 .f32) (harg2 : arg2.IsWhole) (arg3 : Memref sig .tc .vmem S1x10 .f32) (harg3 : arg3.IsWhole) (arg4 : Memref sig .tc .vmem S1x10 .f32) (harg4 : arg4.IsWhole) (hc0 : cond0 i)
    (x0 x1 : Vec F S16384x32 .f32) : Vec F S1x10 .f32 :=
  VO0_2.read (Elt F) (VO0_2.writes (Elt F) VO0_2.junk (kernelRun0_A c i arg1 harg1 arg2 harg2 arg3 harg3 arg4 harg4 hc0 x0 x1).1)

theorem scover0_A (c : Dev nD) (i : grid0.Coords) (arg1 : Memref sig .tc .vmem S16384x32 .f32) (harg1 : arg1.IsWhole) (arg2 : Memref sig .tc .vmem S16384x32 .f32) (harg2 : arg2.IsWhole) (arg3 : Memref sig .tc .vmem S1x10 .f32) (harg3 : arg3.IsWhole) (arg4 : Memref sig .tc .vmem S1x10 .f32) (harg4 : arg4.IsWhole) (hc0 : cond0 i)
    (x0 x1 : Vec F S16384x32 .f32) (y : S1x10.Idx) :
    ∃ pc ∈ (kernelRun0_A c i arg1 harg1 arg2 harg2 arg3 harg3 arg4 harg4 hc0 x0 x1).2.1, y ∈ pc.1.set :=
  View.cover_of_tiledL (kernelRun0_A c i arg1 harg1 arg2 harg2 arg3 harg3 arg4 harg4 hc0 x0 x1).2.1 S1x10.size (by sl_kernel_rfl) y

/-- What the first point leaves in the carried scratch. -/
def sout0_A (c : Dev nD) (i : grid0.Coords) (arg1 : Memref sig .tc .vmem S16384x32 .f32) (harg1 : arg1.IsWhole) (arg2 : Memref sig .tc .vmem S16384x32 .f32) (harg2 : arg2.IsWhole) (arg3 : Memref sig .tc .vmem S1x10 .f32) (harg3 : arg3.IsWhole) (arg4 : Memref sig .tc .vmem S1x10 .f32) (harg4 : arg4.IsWhole) (hc0 : cond0 i)
    (x0 x1 : Vec F S16384x32 .f32) : Vec F S1x10 .f32 :=
  VS0.read (Elt F) (VS0.writes (Elt F) VS0.junk (kernelRun0_A c i arg1 harg1 arg2 harg2 arg3 harg3 arg4 harg4 hc0 x0 x1).2.1)

theorem cover0_B_2 (c : Dev nD) (i : grid0.Coords) (arg1 : Memref sig .tc .vmem S16384x32 .f32) (harg1 : arg1.IsWhole) (arg2 : Memref sig .tc .vmem S16384x32 .f32) (harg2 : arg2.IsWhole) (arg3 : Memref sig .tc .vmem S1x10 .f32) (harg3 : arg3.IsWhole) (arg4 : Memref sig .tc .vmem S1x10 .f32) (harg4 : arg4.IsWhole) (hc0 : ¬cond0 i)
    (x0 x1 : Vec F S16384x32 .f32) (xs0 : Vec F S1x10 .f32) (y : S1x10.Idx) :
    ∃ pc ∈ (kernelRun0_B c i arg1 harg1 arg2 harg2 arg3 harg3 arg4 harg4 hc0 x0 x1 xs0).1, y ∈ pc.1.set :=
  View.cover_of_tiledL (kernelRun0_B c i arg1 harg1 arg2 harg2 arg3 harg3 arg4 harg4 hc0 x0 x1 xs0).1 S1x10.size (by sl_kernel_rfl) y

/-- What a later point leaves in the output window's buffer. -/
def out0_B_2 (c : Dev nD) (i : grid0.Coords) (arg1 : Memref sig .tc .vmem S16384x32 .f32) (harg1 : arg1.IsWhole) (arg2 : Memref sig .tc .vmem S16384x32 .f32) (harg2 : arg2.IsWhole) (arg3 : Memref sig .tc .vmem S1x10 .f32) (harg3 : arg3.IsWhole) (arg4 : Memref sig .tc .vmem S1x10 .f32) (harg4 : arg4.IsWhole) (hc0 : ¬cond0 i)
    (x0 x1 : Vec F S16384x32 .f32) (xs0 : Vec F S1x10 .f32) : Vec F S1x10 .f32 :=
  VO0_2.read (Elt F) (VO0_2.writes (Elt F) VO0_2.junk (kernelRun0_B c i arg1 harg1 arg2 harg2 arg3 harg3 arg4 harg4 hc0 x0 x1 xs0).1)

theorem scover0_B (c : Dev nD) (i : grid0.Coords) (arg1 : Memref sig .tc .vmem S16384x32 .f32) (harg1 : arg1.IsWhole) (arg2 : Memref sig .tc .vmem S16384x32 .f32) (harg2 : arg2.IsWhole) (arg3 : Memref sig .tc .vmem S1x10 .f32) (harg3 : arg3.IsWhole) (arg4 : Memref sig .tc .vmem S1x10 .f32) (harg4 : arg4.IsWhole) (hc0 : ¬cond0 i)
    (x0 x1 : Vec F S16384x32 .f32) (xs0 : Vec F S1x10 .f32) (y : S1x10.Idx) :
    ∃ pc ∈ (kernelRun0_B c i arg1 harg1 arg2 harg2 arg3 harg3 arg4 harg4 hc0 x0 x1 xs0).2.1, y ∈ pc.1.set :=
  View.cover_of_tiledL (kernelRun0_B c i arg1 harg1 arg2 harg2 arg3 harg3 arg4 harg4 hc0 x0 x1 xs0).2.1 S1x10.size (by sl_kernel_rfl) y

/-- What a later point leaves in the carried scratch. -/
def sout0_B (c : Dev nD) (i : grid0.Coords) (arg1 : Memref sig .tc .vmem S16384x32 .f32) (harg1 : arg1.IsWhole) (arg2 : Memref sig .tc .vmem S16384x32 .f32) (harg2 : arg2.IsWhole) (arg3 : Memref sig .tc .vmem S1x10 .f32) (harg3 : arg3.IsWhole) (arg4 : Memref sig .tc .vmem S1x10 .f32) (harg4 : arg4.IsWhole) (hc0 : ¬cond0 i)
    (x0 x1 : Vec F S16384x32 .f32) (xs0 : Vec F S1x10 .f32) : Vec F S1x10 .f32 :=
  VS0.read (Elt F) (VS0.writes (Elt F) VS0.junk (kernelRun0_B c i arg1 harg1 arg2 harg2 arg3 harg3 arg4 harg4 hc0 x0 x1 xs0).2.1)

/-! ## The accumulation, point by point -/

theorem notCond0_succ (n : ℕ) (hn : n + 1 < cfg0.N) : ¬cond0 (grid0.coords ⟨n + 1, hn⟩) := fun h => by
  have h' := (hcond0 ⟨n + 1, hn⟩).mp h
  have hN : n + 1 < 64 := lt_of_lt_of_eq hn (show cfg0.N = 64 from N_0)
  (try dsimp only at h'); omega

/-- The output window's buffer and the carried scratch after the body at position `n`. -/
def outsAt0 (c : Dev nD) : (n : ℕ) → n < cfg0.N → Vec F S1x10 .f32 × Vec F S1x10 .f32
  | 0, hn => (out0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0 (Memref.isWhole_whole _) ((hcond0 ⟨0, hn⟩).mpr (Nat.zero_mod _)) (iblk0 V c 0 ⟨0, hn⟩) (iblk0 V c 1 ⟨0, hn⟩),
      sout0_A c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0 (Memref.isWhole_whole _) ((hcond0 ⟨0, hn⟩).mpr (Nat.zero_mod _)) (iblk0 V c 0 ⟨0, hn⟩) (iblk0 V c 1 ⟨0, hn⟩))
  | n + 1, hn => (out0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0 (Memref.isWhole_whole _) (notCond0_succ n hn) (iblk0 V c 0 ⟨n + 1, hn⟩) (iblk0 V c 1 ⟨n + 1, hn⟩) (outsAt0 c n (Nat.lt_of_succ_lt hn)).2,
      sout0_B c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0 (Memref.isWhole_whole _) (notCond0_succ n hn) (iblk0 V c 0 ⟨n + 1, hn⟩) (iblk0 V c 1 ⟨n + 1, hn⟩) (outsAt0 c n (Nat.lt_of_succ_lt hn)).2)

theorem outsAt0_A (c : Dev nD) (t : Fin cfg0.N) (h0 : t.val % 64 = 0) :
    outsAt0 V c t.val t.isLt = (out0_A_2 c (grid0.coords t) (ms0_0 t) (hs0_0 t) (ms0_1 t) (hs0_1 t) (ms0_2 t) (hs0_2 t) scM0 (Memref.isWhole_whole _) ((hcond0 t).mpr h0) (iblk0 V c 0 t) (iblk0 V c 1 t),
      sout0_A c (grid0.coords t) (ms0_0 t) (hs0_0 t) (ms0_1 t) (hs0_1 t) (ms0_2 t) (hs0_2 t) scM0 (Memref.isWhole_whole _) ((hcond0 t).mpr h0) (iblk0 V c 0 t) (iblk0 V c 1 t)) := by
  obtain ⟨n, hn⟩ := t
  cases n with
  | zero => exact rfl
  | succ n => exact (by exfalso; have hN : n + 1 < 64 := lt_of_lt_of_eq hn (show cfg0.N = 64 from N_0); (try dsimp only at h0); omega)

theorem outsAt0_B (c : Dev nD) (t : Fin cfg0.N) (h0 : ¬t.val % 64 = 0) :
    outsAt0 V c t.val t.isLt = (out0_B_2 c (grid0.coords t) (ms0_0 t) (hs0_0 t) (ms0_1 t) (hs0_1 t) (ms0_2 t) (hs0_2 t) scM0 (Memref.isWhole_whole _) (fun h => h0 ((hcond0 t).mp h)) (iblk0 V c 0 t) (iblk0 V c 1 t) (outsAt0 V c (t.val - 1) (Nat.lt_of_le_of_lt (Nat.sub_le _ _) t.isLt)).2,
      sout0_B c (grid0.coords t) (ms0_0 t) (hs0_0 t) (ms0_1 t) (hs0_1 t) (ms0_2 t) (hs0_2 t) scM0 (Memref.isWhole_whole _) (fun h => h0 ((hcond0 t).mp h)) (iblk0 V c 0 t) (iblk0 V c 1 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact rfl

/-- The region's invariant before position `n`: the class's before the first point; afterwards the carried scratch
    at what the point before left, the other region's buffers at anything, the generator register at some state. -/
def PhiS0 (c : Dev nD) : (n : ℕ) → n ≤ cfg0.N → sProp 𝕄
  | 0, _ => Pipeline.ΦA spec0 c
  | n + 1, hn => iprop(iprop(owns (c : Thread nD τ) scM0 fullShare ((outsAt0 V c n hn).2) ∗ Rest0 c) ∗ (∃ r, prngReg c r))

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop(iprop(owns (c : Thread nD τ) scM0 fullShare ((outsAt0 V c n hn).2) ∗ Rest0 c) ∗ (∃ r, prngReg c r)) := rfl

theorem PhiS0_pos (c : Dev nD) (n : ℕ) (h : n ≤ cfg0.N) (hz : n ≠ 0) :
    PhiS0 V c n h = iprop(iprop(owns (c : Thread nD τ) scM0 fullShare ((outsAt0 V c (n - 1) (by omega)).2) ∗ Rest0 c) ∗ (∃ r, prngReg c r)) := by
  cases n with
  | zero => exact absurd rfl hz
  | succ n => rfl

/-! ## The proof data -/

/-- The arrays as the region finds them; after the body at point `t` each input's buffer at its block and the
    output's at the accumulated row; the invariant above; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => (outsAt0 V c t.val t.isLt).1
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS0_castSucc (c : Dev nD) (t : Fin cfg0.N) :
    (dat0 V c).Φ t.castSucc = PhiS0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = (outsAt0 V c t.val t.isLt).1 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

set_option maxHeartbeats 4800000 in
/-- The body at any point: the inputs' buffers hold their blocks; the first point runs the reset case from the
    class's invariant, every later point the accumulating case from the scratch at what the point before left; the
    invariant takes the scratch back at this point's contents; the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = PhiS0 V c (t.val + 1) t.isLt from rfl, PhiS0_succ]
  have hN : t.val < 64 := lt_of_lt_of_eq t.isLt (show cfg0.N = 64 from N_0)
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  rw [show (dat0 V c).leavesExact 2 t = owns (c : Thread nD τ) (ms0_2 t) fullShare ((dat0 V c).after 2 t) from by
    unfold Dat.leavesExact; rw [liveAt0_2 t], after0_2]
  by_cases h0 : t.val % 64 = 0
  · have hz : t.val = 0 := by omega
    rw [outsAt0_A V c t h0]
    unfold out0_A_2 sout0_A; (try dsimp only)
    rw [PhiS0_castSucc V c t, PhiS0_zero V c _ _ hz, PhiA0_eq]
    iintro ⟨⟨⟨HS0, HR⟩, Hg⟩, Ho, ⟨%d0, H0⟩, ⟨%d1, H1⟩, ⟨%d2, H2⟩⟩
    iapply ((kernelRun0_A c (grid0.coords t) _ _ _ _ _ _ _ _ ((hcond0 t).mpr h0) (iblk0 V c 0 t) (iblk0 V c 1 t)).2.2 Set.univ _)
    isplitl [H0]; · iexact H0
    isplitl [H1]; · iexact H1
    isplitl [H2]; · iexists _; iexact H2
    isplitl [HS0]; · iexact HS0
    iintro ⟨H0, H1, ⟨%e2, H2⟩, ⟨%es0, HS0⟩⟩
    isplitl [HS0 HR Hg]
    · isplitl [HS0 HR]
      · isplitl [HS0]
        · unfold owns; iexists _; isplitr
          swap; · iexact HS0
          ipureintro; exact View.read_writes_of_cover _ _ _ _ _ (scover0_A c _ _ _ _ _ _ _ _ _ _ _ _)
        iexact HR
      iexact Hg
    isplitl [Ho]; · iexact Ho
    isplitl [H0]; · iexact H0
    isplitl [H1]; · iexact H1
    unfold owns; iexists _; isplitr
    swap; · iexact H2
    ipureintro; exact View.read_writes_of_cover _ _ _ _ _ (cover0_A_2 c _ _ _ _ _ _ _ _ _ _ _ _)
  · have hz : t.val ≠ 0 := by omega
    rw [outsAt0_B V c t h0]
    unfold out0_B_2 sout0_B; (try dsimp only)
    rw [PhiS0_castSucc V c t, PhiS0_pos V c _ _ hz]
    iintro ⟨⟨⟨HS0, HR⟩, Hg⟩, Ho, ⟨%d0, H0⟩, ⟨%d1, H1⟩, ⟨%d2, H2⟩⟩
    iapply ((kernelRun0_B c (grid0.coords t) _ _ _ _ _ _ _ _ (fun h => h0 ((hcond0 t).mp h)) (iblk0 V c 0 t) (iblk0 V c 1 t) _).2.2 Set.univ _)
    isplitl [H0]; · iexact H0
    isplitl [H1]; · iexact H1
    isplitl [H2]; · iexists _; iexact H2
    isplitl [HS0]; · iexact HS0
    iintro ⟨H0, H1, ⟨%e2, H2⟩, ⟨%es0, HS0⟩⟩
    isplitl [HS0 HR Hg]
    · isplitl [HS0 HR]
      · isplitl [HS0]
        · unfold owns; iexists _; isplitr
          swap; · iexact HS0
          ipureintro; exact View.read_writes_of_cover _ _ _ _ _ (scover0_B c _ _ _ _ _ _ _ _ _ _ _ _ _)
        iexact HR
      iexact Hg
    isplitl [Ho]; · iexact Ho
    isplitl [H0]; · iexact H0
    isplitl [H1]; · iexact H1
    unfold owns; iexists _; isplitr
    swap; · iexact H2
    ipureintro; exact View.read_writes_of_cover _ _ _ _ _ (cover0_B_2 c _ _ _ _ _ _ _ _ _ _ _ _ _)

theorem body_obligation0 (c : Dev nD) : BodyObligation (dat0 (F := F) V c) (defs₀ (F := F)) Variants.none () Set.univ := fun t => by
  rw [bigSep_W0, bigSep_W0]
  exact sound_body0 V c t

/-- After any point but the first the invariant gives the class's back: the scratch's named contents forgotten. -/
theorem Phi0_out (c : Dev nD) (t : Fin (cfg0.N + 1)) (ht : t.val ≠ 0) : (dat0 V c).Φ t ⊢ Pipeline.ΦA spec0 c := by
  rw [show (dat0 V c).Φ t = PhiS0 V c t.val (Nat.le_of_lt_succ t.isLt) from rfl, PhiS0_pos V c _ _ ht, PhiA0_eq]
  iintro ⟨⟨HS0, HR⟩, Hg⟩
  isplitl [HS0 HR]
  · isplitl [HS0]
    · iexists _; iexact HS0
    iexact HR
  iexact Hg

theorem Phi0_in (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

theorem Phi0_last (c : Dev nD) : (dat0 V c).Φ (Fin.last cfg0.N) ⊢ Pipeline.ΦA spec0 c :=
  Phi0_out V c _ (by rw [Fin.val_last]; have : cfg0.N = 64 := N_0; omega)

end Region0

end Cert.KernelIdeal.Hand

end
-- ==== Proof.KI.Runs1.lean ====
/-
  The loss region, point by point: what its body is run on, which of its two control cases a grid point is in (the
  first point resets the carried loss cell, every later point adds to it), and the body's run in each case with the
  pieces its stores leave.
-/
import proofs.«107730_j46686294508030_1_alg».proof.Proof.Gen.KernelIdeal.Launch
import proofs.«107730_j46686294508030_1_alg».proof.Proof.Gen.KernelIdeal.Skeleton
import proofs.«107730_j46686294508030_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section Region1

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's staging buffer holds its block at every point, fetched there or not, for any proof data whose
    array is the entry contents and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

end Region1

/-- The body's one branch: taken at the grid's first point. -/
abbrev cond1 (i : grid1.Coords) : Prop := (Scalar.cmpi .ne (Scalar.extui (Scalar.cmpi .eq (BitVec.ofNat 32 (i 0).val) 0#32)) 0#32) = 1#1
theorem hcond1 : ∀ t : Fin cfg1.N, cond1 (grid1.coords t) ↔ t.val % 64 = 0 :=
  (by decide +kernel : ∀ t : Fin grid1.N, cond1 (grid1.coords t) ↔ t.val % 64 = 0)

/-- No window is idle at any point. -/
theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel

/-- The output window's one staging buffer and the carried scratch, as views. -/
abbrev VO1_3 : View sig .tc .vmem S1x1 .f32 := (Memref.whole cc1_stg3_0 : Memref sig .tc .vmem S1x1 .f32).view
abbrev ms1_0 (t : Fin cfg1.N) : Memref sig .tc .vmem S16384x32 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S16384x32 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x10 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x1 .f32 := win1_3.stage (cfg1.slots t 3)
abbrev hs1_3 (t : Fin cfg1.N) : (ms1_3 t).IsWhole := hstage1_3 ((cfg1.slots t 3).cast nbuf1_3)
abbrev scM1 : Memref sig .tc .vmem S1x1 .f32 := Memref.whole cc1_scratch0
abbrev VS1 : View sig .tc .vmem S1x1 .f32 := scM1.view

/-- The other region's staging buffers and scratch, each whole at some contents, beside this region's own scratch in
    the state `S`: the core's scoped buffers no window of this region stages. -/
def Rest1 (c : Dev nD) (S : sProp 𝕄) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_scratch0), ((c : Thread nD τ).loc cc0_scratch0) ↦{fullShare} f) ∗ S)

/-- The class invariant with the carried scratch as an owned memref at some contents. -/
theorem PhiA1_eq (c : Dev nD) :
    (Pipeline.ΦA spec1 c : sProp 𝕄)
      = iprop(Rest1 c iprop(∃ d, owns (c : Thread nD τ) scM1 fullShare d) ∗ (∃ r, prngReg c r)) := by
  unfold Pipeline.ΦA Rest1; rw [scopedRest1_eq]; simp only [scM1, owns_whole]; try rfl

set_option maxHeartbeats 1000000 in
/-- The first point (the branch taken): the carried cell at anything is reset and then added to; the pieces the stores
    leave in the output's buffer and in the scratch are what the run finds. -/
noncomputable def kernelRun1_A (c : Dev nD) (i : grid1.Coords) (arg1 : Memref sig .tc .vmem S16384x32 .f32) (harg1 : arg1.IsWhole) (arg2 : Memref sig .tc .vmem S16384x32 .f32) (harg2 : arg2.IsWhole) (arg3 : Memref sig .tc .vmem S1x10 .f32) (harg3 : arg3.IsWhole) (arg4 : Memref sig .tc .vmem S1x1 .f32) (harg4 : arg4.IsWhole) (arg5 : Memref sig .tc .vmem S1x1 .f32) (harg5 : arg5.IsWhole) (hc0 : cond1 i)
    (x0 : Vec F S16384x32 .f32) (x1 : Vec F S16384x32 .f32) (x2 : Vec F S1x10 .f32) :
    Σ' (L3 : List (View.Piece (Elt F) S1x1 .f32)), { LS0 : List (View.Piece (Elt F) S1x1 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ (∃ d, owns (c : Thread nD τ) arg4 fullShare d) ∗ (∃ d, owns (c : Thread nD τ) arg5 fullShare d)
            ∗ (iprop(owns (c : Thread nD τ) arg1 fullShare x0 ∗ owns (c : Thread nD τ) arg2 fullShare x1 ∗ owns (c : Thread nD τ) arg3 fullShare x2 ∗ (∃ f, arg4.view.loc (c : Thread nD τ) ↦[arg4.view.set]{fullShare} arg4.view.writes (Elt F) f L3) ∗ (∃ f, arg5.view.loc (c : Thread nD τ) ↦[arg5.view.set]{fullShare} arg5.view.writes (Elt F) f LS0)) -∗ K ⟨⟩))
          ⊢ wp frame (wpE (defs₀ (F := F)) Variants.none c none) E (cc1__loss_kernel i arg1 harg1 arg2 harg2 arg3 harg3 arg4 harg4 arg5 harg5) K } := by
  refine ⟨?_, ?_, fun E K => ?run⟩
  case run =>
    simp only [cc1__loss_kernel_eq_skeleton]; unfold cc1__loss_kernel_skel
    simp only [k1_part1_eq_skeleton]; unfold k1_part1_skel
    unfold owns
    iintro ⟨⟨%f0, %hf0, H0⟩, ⟨%f1, %hf1, H1⟩, ⟨%f2, %hf2, H2⟩, ⟨%d3, %f3, -, H3⟩, ⟨%ds0, %fs0, -, HS0⟩, Hk⟩
    obtain rfl := harg1.eq_unread hf0; obtain rfl := harg2.eq_unread hf1; obtain rfl := harg3.eq_unread hf2
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]; · iexists _; iexact H3
    iexists _; iexact HS0

set_option maxHeartbeats 1000000 in
/-- Every later point (the branch not taken): the carried cell at the contents `xs0` the point before left is added to. -/
noncomputable def kernelRun1_B (c : Dev nD) (i : grid1.Coords) (arg1 : Memref sig .tc .vmem S16384x32 .f32) (harg1 : arg1.IsWhole) (arg2 : Memref sig .tc .vmem S16384x32 .f32) (harg2 : arg2.IsWhole) (arg3 : Memref sig .tc .vmem S1x10 .f32) (harg3 : arg3.IsWhole) (arg4 : Memref sig .tc .vmem S1x1 .f32) (harg4 : arg4.IsWhole) (arg5 : Memref sig .tc .vmem S1x1 .f32) (harg5 : arg5.IsWhole) (hc0 : ¬cond1 i)
    (x0 : Vec F S16384x32 .f32) (x1 : Vec F S16384x32 .f32) (x2 : Vec F S1x10 .f32) (xs0 : Vec F S1x1 .f32) :
    Σ' (L3 : List (View.Piece (Elt F) S1x1 .f32)), { LS0 : List (View.Piece (Elt F) S1x1 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ (∃ d, owns (c : Thread nD τ) arg4 fullShare d) ∗ owns (c : Thread nD τ) arg5 fullShare xs0
            ∗ (iprop(owns (c : Thread nD τ) arg1 fullShare x0 ∗ owns (c : Thread nD τ) arg2 fullShare x1 ∗ owns (c : Thread nD τ) arg3 fullShare x2 ∗ (∃ f, arg4.view.loc (c : Thread nD τ) ↦[arg4.view.set]{fullShare} arg4.view.writes (Elt F) f L3) ∗ (∃ f, arg5.view.loc (c : Thread nD τ) ↦[arg5.view.set]{fullShare} arg5.view.writes (Elt F) f LS0)) -∗ K ⟨⟩))
          ⊢ wp frame (wpE (defs₀ (F := F)) Variants.none c none) E (cc1__loss_kernel i arg1 harg1 arg2 harg2 arg3 harg3 arg4 harg4 arg5 harg5) K } := by
  refine ⟨?_, ?_, fun E K => ?run⟩
  case run =>
    simp only [cc1__loss_kernel_eq_skeleton]; unfold cc1__loss_kernel_skel
    simp only [k1_part1_eq_skeleton]; unfold k1_part1_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg1.eq_unread hf0; obtain rfl := harg2.eq_unread hf1; obtain rfl := harg3.eq_unread hf2; obtain rfl := harg5.eq_unread hfs0
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]; · iexists _; iexact H3
    iexists _; iexact HS0

end Cert.KernelIdeal.Hand

end
-- ==== Proof.KI.Body1.lean ====
/-
  The loss region's proof data and body obligation.  After point `n` the output window's buffer and the carried scratch
  both hold the loss cell accumulated over tiles `0 … n`: the first point's run starts from the reset cell, every later
  point's from what the point before left in the scratch.  The region's invariant names the scratch's contents from
  the first point on, beside the other region's buffers and the generator register, which it never touches.
-/
import proofs.«107730_j46686294508030_1_alg».proof.Proof.KI.Runs1

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section Region1

variable (V : (c : Dev nD) → (b : Ref sig .tc) → Buf (Elt F) ((c : Thread nD τ).loc b))

/-! ## What each case leaves -/

theorem cover1_A_3 (c : Dev nD) (i : grid1.Coords) (arg1 : Memref sig .tc .vmem S16384x32 .f32) (harg1 : arg1.IsWhole) (arg2 : Memref sig .tc .vmem S16384x32 .f32) (harg2 : arg2.IsWhole) (arg3 : Memref sig .tc .vmem S1x10 .f32) (harg3 : arg3.IsWhole) (arg4 : Memref sig .tc .vmem S1x1 .f32) (harg4 : arg4.IsWhole) (arg5 : Memref sig .tc .vmem S1x1 .f32) (harg5 : arg5.IsWhole) (hc0 : cond1 i)
    (x0 x1 : Vec F S16384x32 .f32) (x2 : Vec F S1x10 .f32) (y : S1x1.Idx) :
    ∃ pc ∈ (kernelRun1_A c i arg1 harg1 arg2 harg2 arg3 harg3 arg4 harg4 arg5 harg5 hc0 x0 x1 x2).1, y ∈ pc.1.set :=
  View.cover_of_tiledL (kernelRun1_A c i arg1 harg1 arg2 harg2 arg3 harg3 arg4 harg4 arg5 harg5 hc0 x0 x1 x2).1 S1x1.size (by sl_kernel_rfl) y

/-- What the first point leaves in the output window's buffer. -/
def out1_A_3 (c : Dev nD) (i : grid1.Coords) (arg1 : Memref sig .tc .vmem S16384x32 .f32) (harg1 : arg1.IsWhole) (arg2 : Memref sig .tc .vmem S16384x32 .f32) (harg2 : arg2.IsWhole) (arg3 : Memref sig .tc .vmem S1x10 .f32) (harg3 : arg3.IsWhole) (arg4 : Memref sig .tc .vmem S1x1 .f32) (harg4 : arg4.IsWhole) (arg5 : Memref sig .tc .vmem S1x1 .f32) (harg5 : arg5.IsWhole) (hc0 : cond1 i)
    (x0 x1 : Vec F S16384x32 .f32) (x2 : Vec F S1x10 .f32) : Vec F S1x1 .f32 :=
  VO1_3.read (Elt F) (VO1_3.writes (Elt F) VO1_3.junk (kernelRun1_A c i arg1 harg1 arg2 harg2 arg3 harg3 arg4 harg4 arg5 harg5 hc0 x0 x1 x2).1)

theorem scover1_A (c : Dev nD) (i : grid1.Coords) (arg1 : Memref sig .tc .vmem S16384x32 .f32) (harg1 : arg1.IsWhole) (arg2 : Memref sig .tc .vmem S16384x32 .f32) (harg2 : arg2.IsWhole) (arg3 : Memref sig .tc .vmem S1x10 .f32) (harg3 : arg3.IsWhole) (arg4 : Memref sig .tc .vmem S1x1 .f32) (harg4 : arg4.IsWhole) (arg5 : Memref sig .tc .vmem S1x1 .f32) (harg5 : arg5.IsWhole) (hc0 : cond1 i)
    (x0 x1 : Vec F S16384x32 .f32) (x2 : Vec F S1x10 .f32) (y : S1x1.Idx) :
    ∃ pc ∈ (kernelRun1_A c i arg1 harg1 arg2 harg2 arg3 harg3 arg4 harg4 arg5 harg5 hc0 x0 x1 x2).2.1, y ∈ pc.1.set :=
  View.cover_of_tiledL (kernelRun1_A c i arg1 harg1 arg2 harg2 arg3 harg3 arg4 harg4 arg5 harg5 hc0 x0 x1 x2).2.1 S1x1.size (by sl_kernel_rfl) y

/-- What the first point leaves in the carried scratch. -/
def sout1_A (c : Dev nD) (i : grid1.Coords) (arg1 : Memref sig .tc .vmem S16384x32 .f32) (harg1 : arg1.IsWhole) (arg2 : Memref sig .tc .vmem S16384x32 .f32) (harg2 : arg2.IsWhole) (arg3 : Memref sig .tc .vmem S1x10 .f32) (harg3 : arg3.IsWhole) (arg4 : Memref sig .tc .vmem S1x1 .f32) (harg4 : arg4.IsWhole) (arg5 : Memref sig .tc .vmem S1x1 .f32) (harg5 : arg5.IsWhole) (hc0 : cond1 i)
    (x0 x1 : Vec F S16384x32 .f32) (x2 : Vec F S1x10 .f32) : Vec F S1x1 .f32 :=
  VS1.read (Elt F) (VS1.writes (Elt F) VS1.junk (kernelRun1_A c i arg1 harg1 arg2 harg2 arg3 harg3 arg4 harg4 arg5 harg5 hc0 x0 x1 x2).2.1)

theorem cover1_B_3 (c : Dev nD) (i : grid1.Coords) (arg1 : Memref sig .tc .vmem S16384x32 .f32) (harg1 : arg1.IsWhole) (arg2 : Memref sig .tc .vmem S16384x32 .f32) (harg2 : arg2.IsWhole) (arg3 : Memref sig .tc .vmem S1x10 .f32) (harg3 : arg3.IsWhole) (arg4 : Memref sig .tc .vmem S1x1 .f32) (harg4 : arg4.IsWhole) (arg5 : Memref sig .tc .vmem S1x1 .f32) (harg5 : arg5.IsWhole) (hc0 : ¬cond1 i)
    (x0 x1 : Vec F S16384x32 .f32) (x2 : Vec F S1x10 .f32) (xs0 : Vec F S1x1 .f32) (y : S1x1.Idx) :
    ∃ pc ∈ (kernelRun1_B c i arg1 harg1 arg2 harg2 arg3 harg3 arg4 harg4 arg5 harg5 hc0 x0 x1 x2 xs0).1, y ∈ pc.1.set :=
  View.cover_of_tiledL (kernelRun1_B c i arg1 harg1 arg2 harg2 arg3 harg3 arg4 harg4 arg5 harg5 hc0 x0 x1 x2 xs0).1 S1x1.size (by sl_kernel_rfl) y

/-- What a later point leaves in the output window's buffer. -/
def out1_B_3 (c : Dev nD) (i : grid1.Coords) (arg1 : Memref sig .tc .vmem S16384x32 .f32) (harg1 : arg1.IsWhole) (arg2 : Memref sig .tc .vmem S16384x32 .f32) (harg2 : arg2.IsWhole) (arg3 : Memref sig .tc .vmem S1x10 .f32) (harg3 : arg3.IsWhole) (arg4 : Memref sig .tc .vmem S1x1 .f32) (harg4 : arg4.IsWhole) (arg5 : Memref sig .tc .vmem S1x1 .f32) (harg5 : arg5.IsWhole) (hc0 : ¬cond1 i)
    (x0 x1 : Vec F S16384x32 .f32) (x2 : Vec F S1x10 .f32) (xs0 : Vec F S1x1 .f32) : Vec F S1x1 .f32 :=
  VO1_3.read (Elt F) (VO1_3.writes (Elt F) VO1_3.junk (kernelRun1_B c i arg1 harg1 arg2 harg2 arg3 harg3 arg4 harg4 arg5 harg5 hc0 x0 x1 x2 xs0).1)

theorem scover1_B (c : Dev nD) (i : grid1.Coords) (arg1 : Memref sig .tc .vmem S16384x32 .f32) (harg1 : arg1.IsWhole) (arg2 : Memref sig .tc .vmem S16384x32 .f32) (harg2 : arg2.IsWhole) (arg3 : Memref sig .tc .vmem S1x10 .f32) (harg3 : arg3.IsWhole) (arg4 : Memref sig .tc .vmem S1x1 .f32) (harg4 : arg4.IsWhole) (arg5 : Memref sig .tc .vmem S1x1 .f32) (harg5 : arg5.IsWhole) (hc0 : ¬cond1 i)
    (x0 x1 : Vec F S16384x32 .f32) (x2 : Vec F S1x10 .f32) (xs0 : Vec F S1x1 .f32) (y : S1x1.Idx) :
    ∃ pc ∈ (kernelRun1_B c i arg1 harg1 arg2 harg2 arg3 harg3 arg4 harg4 arg5 harg5 hc0 x0 x1 x2 xs0).2.1, y ∈ pc.1.set :=
  View.cover_of_tiledL (kernelRun1_B c i arg1 harg1 arg2 harg2 arg3 harg3 arg4 harg4 arg5 harg5 hc0 x0 x1 x2 xs0).2.1 S1x1.size (by sl_kernel_rfl) y

/-- What a later point leaves in the carried scratch. -/
def sout1_B (c : Dev nD) (i : grid1.Coords) (arg1 : Memref sig .tc .vmem S16384x32 .f32) (harg1 : arg1.IsWhole) (arg2 : Memref sig .tc .vmem S16384x32 .f32) (harg2 : arg2.IsWhole) (arg3 : Memref sig .tc .vmem S1x10 .f32) (harg3 : arg3.IsWhole) (arg4 : Memref sig .tc .vmem S1x1 .f32) (harg4 : arg4.IsWhole) (arg5 : Memref sig .tc .vmem S1x1 .f32) (harg5 : arg5.IsWhole) (hc0 : ¬cond1 i)
    (x0 x1 : Vec F S16384x32 .f32) (x2 : Vec F S1x10 .f32) (xs0 : Vec F S1x1 .f32) : Vec F S1x1 .f32 :=
  VS1.read (Elt F) (VS1.writes (Elt F) VS1.junk (kernelRun1_B c i arg1 harg1 arg2 harg2 arg3 harg3 arg4 harg4 arg5 harg5 hc0 x0 x1 x2 xs0).2.1)

/-! ## The accumulation, point by point -/

theorem notCond1_succ (n : ℕ) (hn : n + 1 < cfg1.N) : ¬cond1 (grid1.coords ⟨n + 1, hn⟩) := fun h => by
  have h' := (hcond1 ⟨n + 1, hn⟩).mp h
  have hN : n + 1 < 64 := lt_of_lt_of_eq hn (show cfg1.N = 64 from N_1)
  (try dsimp only at h'); omega

/-- The output window's buffer and the carried scratch after the body at position `n`. -/
def outsAt1 (c : Dev nD) : (n : ℕ) → n < cfg1.N → Vec F S1x1 .f32 × Vec F S1x1 .f32
  | 0, hn => (out1_A_3 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1 (Memref.isWhole_whole _) ((hcond1 ⟨0, hn⟩).mpr (Nat.zero_mod _)) (iblk1 V c 0 ⟨0, hn⟩) (iblk1 V c 1 ⟨0, hn⟩) (iblk1 V c 2 ⟨0, hn⟩),
      sout1_A c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1 (Memref.isWhole_whole _) ((hcond1 ⟨0, hn⟩).mpr (Nat.zero_mod _)) (iblk1 V c 0 ⟨0, hn⟩) (iblk1 V c 1 ⟨0, hn⟩) (iblk1 V c 2 ⟨0, hn⟩))
  | n + 1, hn => (out1_B_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1 (Memref.isWhole_whole _) (notCond1_succ n hn) (iblk1 V c 0 ⟨n + 1, hn⟩) (iblk1 V c 1 ⟨n + 1, hn⟩) (iblk1 V c 2 ⟨n + 1, hn⟩) (outsAt1 c n (Nat.lt_of_succ_lt hn)).2,
      sout1_B c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1 (Memref.isWhole_whole _) (notCond1_succ n hn) (iblk1 V c 0 ⟨n + 1, hn⟩) (iblk1 V c 1 ⟨n + 1, hn⟩) (iblk1 V c 2 ⟨n + 1, hn⟩) (outsAt1 c n (Nat.lt_of_succ_lt hn)).2)

theorem outsAt1_A (c : Dev nD) (t : Fin cfg1.N) (h0 : t.val % 64 = 0) :
    outsAt1 V c t.val t.isLt = (out1_A_3 c (grid1.coords t) (ms1_0 t) (hs1_0 t) (ms1_1 t) (hs1_1 t) (ms1_2 t) (hs1_2 t) (ms1_3 t) (hs1_3 t) scM1 (Memref.isWhole_whole _) ((hcond1 t).mpr h0) (iblk1 V c 0 t) (iblk1 V c 1 t) (iblk1 V c 2 t),
      sout1_A c (grid1.coords t) (ms1_0 t) (hs1_0 t) (ms1_1 t) (hs1_1 t) (ms1_2 t) (hs1_2 t) (ms1_3 t) (hs1_3 t) scM1 (Memref.isWhole_whole _) ((hcond1 t).mpr h0) (iblk1 V c 0 t) (iblk1 V c 1 t) (iblk1 V c 2 t)) := by
  obtain ⟨n, hn⟩ := t
  cases n with
  | zero => exact rfl
  | succ n => exact (by exfalso; have hN : n + 1 < 64 := lt_of_lt_of_eq hn (show cfg1.N = 64 from N_1); (try dsimp only at h0); omega)

theorem outsAt1_B (c : Dev nD) (t : Fin cfg1.N) (h0 : ¬t.val % 64 = 0) :
    outsAt1 V c t.val t.isLt = (out1_B_3 c (grid1.coords t) (ms1_0 t) (hs1_0 t) (ms1_1 t) (hs1_1 t) (ms1_2 t) (hs1_2 t) (ms1_3 t) (hs1_3 t) scM1 (Memref.isWhole_whole _) (fun h => h0 ((hcond1 t).mp h)) (iblk1 V c 0 t) (iblk1 V c 1 t) (iblk1 V c 2 t) (outsAt1 V c (t.val - 1) (Nat.lt_of_le_of_lt (Nat.sub_le _ _) t.isLt)).2,
      sout1_B c (grid1.coords t) (ms1_0 t) (hs1_0 t) (ms1_1 t) (hs1_1 t) (ms1_2 t) (hs1_2 t) (ms1_3 t) (hs1_3 t) scM1 (Memref.isWhole_whole _) (fun h => h0 ((hcond1 t).mp h)) (iblk1 V c 0 t) (iblk1 V c 1 t) (iblk1 V c 2 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact rfl

/-- The region's invariant before position `n`: the class's before the first point; afterwards the carried scratch
    at what the point before left, the other region's buffers at anything, the generator register at some state. -/
def PhiS1 (c : Dev nD) : (n : ℕ) → n ≤ cfg1.N → sProp 𝕄
  | 0, _ => Pipeline.ΦA spec1 c
  | n + 1, hn => iprop(Rest1 c (owns (c : Thread nD τ) scM1 fullShare ((outsAt1 V c n hn).2)) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(Rest1 c (owns (c : Thread nD τ) scM1 fullShare ((outsAt1 V c n hn).2)) ∗ (∃ r, prngReg c r)) := rfl

theorem PhiS1_pos (c : Dev nD) (n : ℕ) (h : n ≤ cfg1.N) (hz : n ≠ 0) :
    PhiS1 V c n h = iprop(Rest1 c (owns (c : Thread nD τ) scM1 fullShare ((outsAt1 V c (n - 1) (by omega)).2)) ∗ (∃ r, prngReg c r)) := by
  cases n with
  | zero => exact absurd rfl hz
  | succ n => rfl

/-! ## The proof data -/

/-- The arrays as the region finds them; after the body at point `t` each input's buffer at its block and the
    output's at the accumulated cell; the invariant above; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4800000 in
/-- The body at any point: the inputs' buffers hold their blocks; the first point runs the reset case from the
    class's invariant, every later point the accumulating case from the scratch at what the point before left; the
    invariant takes the scratch back at this point's contents; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  have hN : t.val < 64 := lt_of_lt_of_eq t.isLt (show cfg1.N = 64 from N_1)
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [show (dat1 V c).leavesExact 3 t = owns (c : Thread nD τ) (ms1_3 t) fullShare ((dat1 V c).after 3 t) from by
    unfold Dat.leavesExact; rw [liveAt1_3 t], after1_3]
  by_cases h0 : t.val % 64 = 0
  · have hz : t.val = 0 := by omega
    rw [outsAt1_A V c t h0]
    unfold out1_A_3 sout1_A; (try dsimp only)
    rw [PhiS1_castSucc V c t, PhiS1_zero V c _ _ hz, PhiA1_eq]
    unfold Rest1
    iintro ⟨⟨⟨R1, R2, R3, R4, R5, R6, HS0⟩, Hg⟩, Ho, ⟨%d0, H0⟩, ⟨%d1, H1⟩, ⟨%d2, H2⟩, ⟨%d3, H3⟩⟩
    iapply ((kernelRun1_A c (grid1.coords t) _ _ _ _ _ _ _ _ _ _ ((hcond1 t).mpr h0) (iblk1 V c 0 t) (iblk1 V c 1 t) (iblk1 V c 2 t)).2.2 Set.univ _)
    isplitl [H0]; · iexact H0
    isplitl [H1]; · iexact H1
    isplitl [H2]; · iexact H2
    isplitl [H3]; · iexists _; iexact H3
    isplitl [HS0]; · iexact HS0
    iintro ⟨H0, H1, H2, ⟨%e3, H3⟩, ⟨%es0, HS0⟩⟩
    isplitl [HS0 R1 R2 R3 R4 R5 R6 Hg]
    · isplitl [HS0 R1 R2 R3 R4 R5 R6]
      · isplitl [R1]; · iexact R1
        isplitl [R2]; · iexact R2
        isplitl [R3]; · iexact R3
        isplitl [R4]; · iexact R4
        isplitl [R5]; · iexact R5
        isplitl [R6]; · iexact R6
        unfold owns; iexists _; isplitr
        swap; · iexact HS0
        ipureintro; exact View.read_writes_of_cover _ _ _ _ _ (scover1_A c _ _ _ _ _ _ _ _ _ _ _ _ _ _ _)
      iexact Hg
    isplitl [Ho]; · iexact Ho
    isplitl [H0]; · iexact H0
    isplitl [H1]; · iexact H1
    isplitl [H2]; · iexact H2
    unfold owns; iexists _; isplitr
    swap; · iexact H3
    ipureintro; exact View.read_writes_of_cover _ _ _ _ _ (cover1_A_3 c _ _ _ _ _ _ _ _ _ _ _ _ _ _ _)
  · have hz : t.val ≠ 0 := by omega
    rw [outsAt1_B V c t h0]
    unfold out1_B_3 sout1_B; (try dsimp only)
    rw [PhiS1_castSucc V c t, PhiS1_pos V c _ _ hz]
    unfold Rest1
    iintro ⟨⟨⟨R1, R2, R3, R4, R5, R6, HS0⟩, Hg⟩, Ho, ⟨%d0, H0⟩, ⟨%d1, H1⟩, ⟨%d2, H2⟩, ⟨%d3, H3⟩⟩
    iapply ((kernelRun1_B c (grid1.coords t) _ _ _ _ _ _ _ _ _ _ (fun h => h0 ((hcond1 t).mp h)) (iblk1 V c 0 t) (iblk1 V c 1 t) (iblk1 V c 2 t) _).2.2 Set.univ _)
    isplitl [H0]; · iexact H0
    isplitl [H1]; · iexact H1
    isplitl [H2]; · iexact H2
    isplitl [H3]; · iexists _; iexact H3
    isplitl [HS0]; · iexact HS0
    iintro ⟨H0, H1, H2, ⟨%e3, H3⟩, ⟨%es0, HS0⟩⟩
    isplitl [HS0 R1 R2 R3 R4 R5 R6 Hg]
    · isplitl [HS0 R1 R2 R3 R4 R5 R6]
      · isplitl [R1]; · iexact R1
        isplitl [R2]; · iexact R2
        isplitl [R3]; · iexact R3
        isplitl [R4]; · iexact R4
        isplitl [R5]; · iexact R5
        isplitl [R6]; · iexact R6
        unfold owns; iexists _; isplitr
        swap; · iexact HS0
        ipureintro; exact View.read_writes_of_cover _ _ _ _ _ (scover1_B c _ _ _ _ _ _ _ _ _ _ _ _ _ _ _ _)
      iexact Hg
    isplitl [Ho]; · iexact Ho
    isplitl [H0]; · iexact H0
    isplitl [H1]; · iexact H1
    isplitl [H2]; · iexact H2
    unfold owns; iexists _; isplitr
    swap; · iexact H3
    ipureintro; exact View.read_writes_of_cover _ _ _ _ _ (cover1_B_3 c _ _ _ _ _ _ _ _ _ _ _ _ _ _ _ _)

theorem body_obligation1 (c : Dev nD) : BodyObligation (dat1 (F := F) V c) (defs₀ (F := F)) Variants.none () Set.univ := fun t => by
  rw [bigSep_W1, bigSep_W1]
  exact sound_body1 V c t

/-- After any point but the first the invariant gives the class's back: the scratch's named contents forgotten. -/
theorem Phi1_out (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  unfold Rest1
  iintro ⟨⟨R1, R2, R3, R4, R5, R6, HS0⟩, Hg⟩
  isplitl [HS0 R1 R2 R3 R4 R5 R6]
  · isplitl [R1]; · iexact R1
    isplitl [R2]; · iexact R2
    isplitl [R3]; · iexact R3
    isplitl [R4]; · iexact R4
    isplitl [R5]; · iexact R5
    isplitl [R6]; · iexact R6
    iexists _; iexact HS0
  iexact Hg

theorem Phi1_in (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

theorem Phi1_last (c : Dev nD) : (dat1 V c).Φ (Fin.last cfg1.N) ⊢ Pipeline.ΦA spec1 c :=
  Phi1_out V c _ (by rw [Fin.val_last]; have : cfg1.N = 64 := N_1; omega)

end Region1

end Cert.KernelIdeal.Hand

end
-- ==== Proof.KI.Run.lean ====
/-
  The kernel program's run from the launch to the return, at any float family: the two regions' records around the
  valuations of the unscoped buffers between @main's items, the contents each region leaves in its output array named
  (what the pipeline's write-backs fold to), and the conclusion that every weakly fair execution terminates with every
  unscoped buffer of every core at the last valuation.
-/
import proofs.«107730_j46686294508030_1_alg».proof.Proof.KI.Body0
import proofs.«107730_j46686294508030_1_alg».proof.Proof.KI.Body1
import proofs.«107730_j46686294508030_1_alg».proof.Proof.KI.RunCond
import Idealize.ShloMosaic.Lib.Pipeline.RegionsLoop

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

/-! ## The contents at the regions' ends -/

/-- The histogram region's entry contents, read at the TensorCore's references. -/
abbrev VE0 (c : Dev nD) (b : Ref sig .tc) : Buf (Elt F) ((c : Thread nD τ).loc b) := Gen.V1 m c b

/-- At the histogram region's exit: its arrays at what the pipeline leaves, every other buffer as entered. -/
def W2' (c : Dev nD) : Valuation τ sig (Elt F) :=
  Pipeline.withArrays spec0 c (Gen.V1 m c) fun w => (dat0 (VE0 m) c).arrAt w cfg0.N
theorem W2'_arr (c : Dev nD) (w : Fin cfg0.W) :
    W2' m c (Proc.devRef .tc (Pipeline.arrRef spec0 w)) = (dat0 (VE0 m) c).arrAt w cfg0.N := by
  unfold W2'; exact Pipeline.withArrays_arr spec0 launch0.win.arr_inj c _ _ w

/-- What the histogram region leaves, as the unknowns of the valuations between the items. -/
abbrev outsA : Gen.Outs (F := F) := fun _ r c => W2' m c r

/-- The loss region's entry contents, read at the TensorCore's references. -/
abbrev VE1 (c : Dev nD) (b : Ref sig .tc) : Buf (Elt F) ((c : Thread nD τ).loc b) := Gen.V9 m (outsA m) c b

/-- At the loss region's exit: its arrays at what the pipeline leaves, every other buffer as entered. -/
def W10' (c : Dev nD) : Valuation τ sig (Elt F) :=
  Pipeline.withArrays spec1 c (Gen.V9 m (outsA m) c) fun w => (dat1 (VE1 m) c).arrAt w cfg1.N
theorem W10'_arr (c : Dev nD) (w : Fin cfg1.W) :
    W10' m c (Proc.devRef .tc (Pipeline.arrRef spec1 w)) = (dat1 (VE1 m) c).arrAt w cfg1.N := by
  unfold W10'; exact Pipeline.withArrays_arr spec1 launch1.win.arr_inj c _ _ w

/-- What both regions leave. -/
def outs : Gen.Outs (F := F) := fun n r c => if n = 2 then W2' m c r else W10' m c r

theorem outs_2 (c : Dev nD) (r : Ref sig .tc) : outs m 2 r c = W2' m c r := rfl
theorem outs_10 (c : Dev nD) (r : Ref sig .tc) : outs m 10 r c = W10' m c r := rfl

/-- The valuations up to the loss region's entry read only what the histogram region leaves. -/
theorem V9_outs (c : Dev nD) : Gen.V9 m (outs m) c = Gen.V9 m (outsA m) c := rfl

abbrev VX0 (c : Dev nD) (b : Ref sig .tc) : Buf (Elt F) ((c : Thread nD τ).loc b) := Gen.V2 m (outs m) c b
abbrev VX1 (c : Dev nD) (b : Ref sig .tc) : Buf (Elt F) ((c : Thread nD τ).loc b) := Gen.V10 m (outs m) c b

theorem V2_main_v0 (c : Dev nD) : Gen.V2 m (outs m) c main_v0 = (dat0 (VE0 m) c).arrAt 2 cfg0.N := by
  unfold Gen.V2; rw [Function.update_self, outs_2]; exact W2'_arr m c 2
theorem V10_main_v22 (c : Dev nD) : Gen.V10 m (outs m) c main_v22 = (dat1 (VE1 m) c).arrAt 3 cfg1.N := by
  unfold Gen.V10; rw [Function.update_self, outs_10]; exact W10'_arr m c 3

theorem hF0 (c : Dev nD) (w : Fin cfg0.W) : (dat0 (VE0 m) c).arrAt w cfg0.N = VX0 m c (Pipeline.arrRef spec0 w) := by
  match w with
  | ⟨0, _⟩ => exact ((dat0 (VE0 m) c).arrAt_in 0 rfl _).trans ((A_eq0 (VE0 m) c 0).trans (Gen.V2_of m (outs m) c main_arg0 (by decide)).symm)
  | ⟨1, _⟩ => exact ((dat0 (VE0 m) c).arrAt_in 1 rfl _).trans ((A_eq0 (VE0 m) c 1).trans (Gen.V2_of m (outs m) c main_arg1 (by decide)).symm)
  | ⟨2, _⟩ => exact (V2_main_v0 m c).symm
theorem hrest0 (c : Dev nD) : ∀ b, b ∉ Finset.univ.image (Pipeline.arrRef spec0) → VX0 m c b = VE0 m c b :=
  fun b hb => Gen.V2_of m (outs m) c b (by
    intro h; rw [List.mem_singleton] at h; subst h
    exact hb (Finset.mem_image.mpr ⟨2, Finset.mem_univ _, rfl⟩))

theorem hF1 (c : Dev nD) (w : Fin cfg1.W) : (dat1 (VE1 m) c).arrAt w cfg1.N = VX1 m c (Pipeline.arrRef spec1 w) := by
  match w with
  | ⟨0, _⟩ => exact ((dat1 (VE1 m) c).arrAt_in 0 rfl _).trans ((A_eq1 (VE1 m) c 0).trans ((Gen.V10_of m (outs m) c main_arg0 (by decide)).trans (congrFun (V9_outs m c) _)).symm)
  | ⟨1, _⟩ => exact ((dat1 (VE1 m) c).arrAt_in 1 rfl _).trans ((A_eq1 (VE1 m) c 1).trans ((Gen.V10_of m (outs m) c main_arg1 (by decide)).trans (congrFun (V9_outs m c) _)).symm)
  | ⟨2, _⟩ => exact ((dat1 (VE1 m) c).arrAt_in 2 rfl _).trans ((A_eq1 (VE1 m) c 2).trans ((Gen.V10_of m (outs m) c main_v21 (by decide)).trans (congrFun (V9_outs m c) _)).symm)
  | ⟨3, _⟩ => exact (V10_main_v22 m c).symm
theorem hrest1 (c : Dev nD) : ∀ b, b ∉ Finset.univ.image (Pipeline.arrRef spec1) → VX1 m c b = VE1 m c b :=
  fun b hb => (Gen.V10_of m (outs m) c b (by
    intro h; rw [List.mem_singleton] at h; subst h
    exact hb (Finset.mem_image.mpr ⟨3, Finset.mem_univ _, rfl⟩))).trans (congrFun (V9_outs m c) _)

/-! ## The proof data family and the thread state -/

abbrev adm : (p : Fin 2) → (pcfgs (F := F) p).Adm := Gen.adm
/-- Every pipeline's proof data, each at its region's entry contents. -/
def pdats : (p : Fin 2) → (c : Dev nD) → Dat τ (Elt F) Unit ℕ (UR sig nD τ) ℕ (cfgs p) c
  | ⟨0, _⟩ => fun c => dat0 (VE0 m) c
  | ⟨1, _⟩ => fun c => dat1 (VE1 m) c
abbrev 𝒱₀ : Variants := Variants.none
abbrev L : GSem nD τ sig → Finset Unit := fun _ => ∅
abbrev lv : GSem nD τ sig → Unit → ℕ := fun _ _ => 0
/-- What rides beside the buffers through every item: the generator register at some state and the core owing nothing. -/
abbrev R (c : Dev nD) : sProp 𝕄 := iprop((∃ r, prngReg c r) ∗ ∃ W, owes (c : Thread nD τ) (0 : CellTallies nD τ sig Unit) W)

/-! ## The regions as segments -/

set_option backward.isDefEq.respectTransparency.types false in
/-- REGION 0 over the thread state: entered from every unscoped buffer at the valuation before it, left at the one
    after it. Its arrays are split out of the unscoped buffers and put back at the exit contents; the generator register
    and the scoped rest go into the region's invariant and come back out of it, the carried scratch's named contents
    forgotten at the exit; nothing owed; no semaphore of the kernel's own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (VE0 m) c).loose
  hwaits := Pipeline.hwaits_of_owed_zero _ _ _ _ L lv 0 fun _ _ => rfl
  pre c := iprop(StableHlo.held (c : Thread nD τ) (Pipeline.ucRefs τ sig) (Gen.V1 m c) ∗ R c)
  post c := iprop(StableHlo.held (c : Thread nD τ) (Pipeline.ucRefs τ sig) (Gen.V2 m (outs m) c) ∗ R c)
  X c := iprop(∃ r, prngReg c r)
  Y c := iprop(∃ r, prngReg c r)
  Z c := Pipeline.unscopedRest (Ix := Unit) (Name := ℕ) (U := UR sig nD τ) (Lvl := ℕ) spec0 c (VE0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (VE0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none]
    refine (Phi0_last (VE0 m) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (VE0 m c) (VX0 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 1 over the thread state: entered from every unscoped buffer at the valuation before it, left at the one
    after it. Its arrays are split out of the unscoped buffers and put back at the exit contents; the generator register
    and the scoped rest go into the region's invariant and come back out of it, the carried scratch's named contents
    forgotten at the exit; nothing owed; no semaphore of the kernel's own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (VE1 m) c).loose
  hwaits := Pipeline.hwaits_of_owed_zero _ _ _ _ L lv 1 fun _ _ => rfl
  pre c := iprop(StableHlo.held (c : Thread nD τ) (Pipeline.ucRefs τ sig) (Gen.V9 m (outsA m) c) ∗ R c)
  post c := iprop(StableHlo.held (c : Thread nD τ) (Pipeline.ucRefs τ sig) (Gen.V10 m (outs m) c) ∗ R c)
  X c := iprop(∃ r, prngReg c r)
  Y c := iprop(∃ r, prngReg c r)
  Z c := Pipeline.unscopedRest (Ix := Unit) (Name := ℕ) (U := UR sig nD τ) (Lvl := ℕ) spec1 c (VE1 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (VE1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none]
    refine (Phi1_last (VE1 m) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (VE1 m c) (VX1 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The run -/

set_option backward.isDefEq.respectTransparency.types false in
/-- Every weakly fair execution of @main from memory `m` with zero counters terminates, and every final memory holds
    every unscoped buffer of every core at the last valuation. -/
theorem run_all (ρ : Dev nD → PrngReg) :
    θ_run defs (onTc (τ := τ) (main (F := F))) ⟨m, fun _ => 0, ρ⟩ (fun r => ∀ c : Dev nD,
      ∀ b ∈ Pipeline.ucRefs τ sig, r.2.mem ((c : Thread nD τ).1, b) = Gen.V11 m (outs m) c b) :=
  GenP.run_cond m emb₁ () 𝒱₀ L lv (fun _ _ => rfl) ρ (outs m) (pdats m) (O₀ := 0) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (E := fun _ c => R c)
    (hE0 := by
      refine Pipeline.initEach L lv fun c => ?_
      iintro ⟨⟨-, HO, -, Hp, -⟩, -⟩
      imodintro
      isplitl [Hp]; · iexists _; iexact Hp
      iexists ∅; iexact HO)
    (hE2 := fun c => by iintro ⟨-, HO⟩; iexact HO)
    (reg0 m) (fun c => .rfl) (fun c => .rfl)
    (reg1 m) (fun c => by rw [V9_outs]; exact .rfl) (fun c => .rfl)

end Cert.KernelIdeal.Hand

end
-- ==== Proof.KI.Frame.lean ====
/-
  The kernel program's frame, at any float family: every weakly fair execution terminates and the two argument arrays
  end as launched — no host operation and no region writes an argument, so the last valuation at an argument walks
  back to the launch memory.
-/
import proofs.«107730_j46686294508030_1_alg».proof.Proof.KI.Run

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

/-- An unscoped TensorCore reference is among those the run's post names. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

theorem frame (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c =>
    ⟨(h c (Proc.devRef .tc main_arg0) (mem_uc main_arg0 (by decide))).trans (Gen.V11_main_arg0 m (outs m) c),
     (h c (Proc.devRef .tc main_arg1) (mem_uc main_arg1 (by decide))).trans (Gen.V11_main_arg1 m (outs m) c)⟩) (run_all m ρ)

end Cert.KernelIdeal.Hand

end
-- ==== Proof.KernSpec.lean ====
/-
  The kernel's result as ONE term of its two argument arrays, at any float family: the histogram the first region
  accumulates tile by tile, the per-bin weight table the host computes from it, and the weighted loss the second
  region accumulates tile by tile.  Nothing is proved here; the definitions are what the run of the program is
  stated to end at, and what the algebra joins to the reference's term.
-/
import proofs.«107730_j46686294508030_1_alg».proof.Proof.Gen.KernelIdeal.Skeleton
import Idealize.ShloMosaic.Lib.ValueIdx

noncomputable section

namespace Cert.KernelIdeal.Spec

open Idealize.ShloMosaic Idealize.ShloMosaic.ValueIdx Cert.KernelIdeal Cert.KernelIdeal.Gen

variable {F : FTy → Type} [FloatOps F]

/-- Tile `t` of a `[1048576, 32]` array: its rows `16384 t … 16384 t + 16383`. -/
def tile (x : FVec F S1048576x32 .f32) (t : Fin 64) : Vec F S16384x32 .f32 :=
  fun j => x (ix2 (⟨t.val * 16384 + (j 0).val, by
      have h0 : (j 0).val < 16384 := (j 0).isLt
      have ht : t.val < 64 := t.isLt
      omega⟩ : Fin 1048576) (⟨(j 1).val, (j 1).isLt⟩ : Fin 32))

/-- The bin counts after tiles `0 … n` (tile numbers past 63 wrap, so that the recursion is total): the first tile
    adds its counts to the zero row, every later one to the row before it. -/
def hist (x y : FVec F S1048576x32 .f32) : ℕ → FVec F S1x10 .f32
  | 0 => k0_pay2 (tile x 0) (tile y 0) (k0_pay1 (F := F))
  | n + 1 => k0_pay2 (tile x (Fin.ofNat 64 (n + 1))) (tile y (Fin.ofNat 64 (n + 1))) (hist x y n)

/-- The host's weight table from the bin counts `cnt` (a `[1, 10]` row): with `c` the counts as a vector,
    `a = 0.25 c`, `s = a` where `a > 0` and `1` elsewhere, `p = (smooth · 2^25) / s` where `c > 0` and `0`
    elsewhere, `q = p · p`, `z = Σ c · q`, `u = q / z`, the table is `0` where `u < 1e-6` and `u` elsewhere,
    as a row again. -/
def wtab (cnt : FVec F S1x10 .f32) : FVec F S1x10 .f32 :=
  let smooth : FVec F S10 .f32 := fun i => FloatOps.ofBits .f32 (lit0 (S10.rowMajor i))
  let c : FVec F S10 .f32 := shapeCast S10 cnt shapeCasts_S1x10_S10
  let a : FVec F S10 .f32 := mulf (broadcastInDim S10 ![] bcast_S_S10 (constant (F := F) S_ .f32 0x3E800000#32)) c
  let zero : FVec F S10 .f32 := broadcastInDim S10 ![] bcast_S_S10 (constant (F := F) S_ .f32 0x00000000#32)
  let one : FVec F S10 .f32 := broadcastInDim S10 ![] bcast_S_S10 (constant (F := F) S_ .f32 0x3F800000#32)
  let s : FVec F S10 .f32 := select (cmpf .ogt a zero) a one
  let p : FVec F S10 .f32 := select (cmpf .ogt c zero)
    (Host.divf (mulf smooth (broadcastInDim S10 ![] bcast_S_S10 (constant (F := F) S_ .f32 0x4C000000#32))) s) zero
  let q : FVec F S10 .f32 := mulf p p
  let z : FVec F S_ .f32 := Host.reduceAdd (mulf c q) (constant (F := F) S_ .f32 0x00000000#32) reducesTo_S10_S_d0 h_S_
  let u : FVec F S10 .f32 := Host.divf q (broadcastInDim S10 ![] bcast_S_S10 z)
  let w : FVec F S10 .f32 := select (cmpf .olt u (broadcastInDim S10 ![] bcast_S_S10 (constant (F := F) S_ .f32 0x358637BD#32))) zero u
  shapeCast S1x10 w shapeCasts_S10_S1x10

/-- The weighted loss after tiles `0 … n` under the table `tb`: the first tile adds to the zero cell, every later
    one to the cell before it. -/
def lossAcc (x y : FVec F S1048576x32 .f32) (tb : FVec F S1x10 .f32) : ℕ → FVec F S1x1 .f32
  | 0 => k1_pay1 (k1_pay3 (tile x 0) (tile y 0) tb) (k1_pay4 (tile x 0) (tile y 0)) (k1_pay2 (F := F))
  | n + 1 => k1_pay1 (k1_pay3 (tile x (Fin.ofNat 64 (n + 1))) (tile y (Fin.ofNat 64 (n + 1))) tb)
      (k1_pay4 (tile x (Fin.ofNat 64 (n + 1))) (tile y (Fin.ofNat 64 (n + 1)))) (lossAcc x y tb n)

/-- The kernel's scalar result of its two arguments. -/
def result (x y : FVec F S1048576x32 .f32) : FVec F S_ .f32 :=
  shapeCast S_ (lossAcc x y (wtab (hist x y 63)) 63) shapeCasts_S1x1_S_

end Cert.KernelIdeal.Spec

end
-- ==== Proof.KI.Blocks.lean ====
/-
  The windows' blocks as tiles of the argument arrays: at grid point `t` the first two windows of either region hold
  rows `16384 t … 16384 t + 16383` of the two arguments (no host operation and no region writes an argument before
  the region is entered), and the loss region's third window holds the whole weight table at every point.
-/
import proofs.«107730_j46686294508030_1_alg».proof.Proof.KI.Run
import proofs.«107730_j46686294508030_1_alg».proof.Proof.KernSpec

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

open Cert.KernelIdeal.Spec (tile hist wtab lossAcc)

variable (m : (ℓ : Loc nD τ sig) → Buf (Elt F) ℓ)

/-- The two argument arrays as launched, on core `c`. -/
abbrev argX (c : Dev nD) : FVec F S1048576x32 .f32 := m ((c.tc : Thread nD τ).loc main_arg0)
abbrev argY (c : Dev nD) : FVec F S1048576x32 .f32 := m ((c.tc : Thread nD τ).loc main_arg1)

theorem VE0_arg0 (c : Dev nD) : VE0 m c main_arg0 = argX m c :=
  (Gen.V1_of m c main_arg0 (by decide)).trans rfl
theorem VE0_arg1 (c : Dev nD) : VE0 m c main_arg1 = argY m c :=
  (Gen.V1_of m c main_arg1 (by decide)).trans rfl
theorem VE1_arg0 (c : Dev nD) : VE1 m c main_arg0 = argX m c :=
  (Gen.V9_of m (outsA m) c main_arg0 (by decide)).trans <| (Gen.V8_of m (outsA m) c main_arg0 (by decide)).trans <| (Gen.V7_of m (outsA m) c main_arg0 (by decide)).trans <| (Gen.V6_of m (outsA m) c main_arg0 (by decide)).trans <| (Gen.V5_of m (outsA m) c main_arg0 (by decide)).trans <| (Gen.V4_of m (outsA m) c main_arg0 (by decide)).trans <| (Gen.V3_of m (outsA m) c main_arg0 (by decide)).trans <| (Gen.V2_of m (outsA m) c main_arg0 (by decide)).trans <| (Gen.V1_of m c main_arg0 (by decide)).trans rfl
theorem VE1_arg1 (c : Dev nD) : VE1 m c main_arg1 = argY m c :=
  (Gen.V9_of m (outsA m) c main_arg1 (by decide)).trans <| (Gen.V8_of m (outsA m) c main_arg1 (by decide)).trans <| (Gen.V7_of m (outsA m) c main_arg1 (by decide)).trans <| (Gen.V6_of m (outsA m) c main_arg1 (by decide)).trans <| (Gen.V5_of m (outsA m) c main_arg1 (by decide)).trans <| (Gen.V4_of m (outsA m) c main_arg1 (by decide)).trans <| (Gen.V3_of m (outsA m) c main_arg1 (by decide)).trans <| (Gen.V2_of m (outsA m) c main_arg1 (by decide)).trans <| (Gen.V1_of m c main_arg1 (by decide)).trans rfl

/-- The row windows' index maps over the grid: block `t` starts at row block `t`, column block `0`. -/
theorem idx0_0 : ∀ t : Fin cfg0.N, win0_0.index t (0 : Fin 2) = t.val ∧ win0_0.index t (1 : Fin 2) = 0 :=
  (by decide +kernel : ∀ t : Fin grid0.N, win0_0.index t (0 : Fin 2) = t.val ∧ win0_0.index t (1 : Fin 2) = 0)
theorem idx0_1 : ∀ t : Fin cfg0.N, win0_1.index t (0 : Fin 2) = t.val ∧ win0_1.index t (1 : Fin 2) = 0 :=
  (by decide +kernel : ∀ t : Fin grid0.N, win0_1.index t (0 : Fin 2) = t.val ∧ win0_1.index t (1 : Fin 2) = 0)
theorem idx1_0 : ∀ t : Fin cfg1.N, win1_0.index t (0 : Fin 2) = t.val ∧ win1_0.index t (1 : Fin 2) = 0 :=
  (by decide +kernel : ∀ t : Fin grid1.N, win1_0.index t (0 : Fin 2) = t.val ∧ win1_0.index t (1 : Fin 2) = 0)
theorem idx1_1 : ∀ t : Fin cfg1.N, win1_1.index t (0 : Fin 2) = t.val ∧ win1_1.index t (1 : Fin 2) = 0 :=
  (by decide +kernel : ∀ t : Fin grid1.N, win1_1.index t (0 : Fin 2) = t.val ∧ win1_1.index t (1 : Fin 2) = 0)
/-- The table window's index map: block `(0, 0)` at every point. -/
theorem idx1_2 : ∀ t : Fin cfg1.N, win1_2.index t (0 : Fin 2) = 0 ∧ win1_2.index t (1 : Fin 2) = 0 :=
  (by decide +kernel : ∀ t : Fin grid1.N, win1_2.index t (0 : Fin 2) = 0 ∧ win1_2.index t (1 : Fin 2) = 0)

theorem iblk0_0 (c : Dev nD) (t : Fin cfg0.N) : iblk0 (VE0 m) c 0 t = tile (argX m c) (Fin.cast N_0 t) := by
  rw [← VE0_arg0 m c]
  funext y
  unfold iblk0 tile
  show VE0 m c main_arg0 (((cfg0.win 0).blk t).view.emb y) = VE0 m c main_arg0 _
  refine congrArg _ ?_
  funext a
  apply Fin.ext
  match a with
  | ⟨0, _⟩ =>
    show win0_0.index t (0 : Fin 2) * 16384 + 1 * (y (0 : Fin 2)).val = (Fin.cast N_0 t).val * 16384 + (y (0 : Fin 2)).val
    rw [(idx0_0 t).1]; simp only [Fin.coe_cast]; omega
  | ⟨1, _⟩ =>
    show win0_0.index t (1 : Fin 2) * 32 + 1 * (y (1 : Fin 2)).val = (y (1 : Fin 2)).val
    rw [(idx0_0 t).2]; omega
theorem iblk0_1 (c : Dev nD) (t : Fin cfg0.N) : iblk0 (VE0 m) c 1 t = tile (argY m c) (Fin.cast N_0 t) := by
  rw [← VE0_arg1 m c]
  funext y
  unfold iblk0 tile
  show VE0 m c main_arg1 (((cfg0.win 1).blk t).view.emb y) = VE0 m c main_arg1 _
  refine congrArg _ ?_
  funext a
  apply Fin.ext
  match a with
  | ⟨0, _⟩ =>
    show win0_1.index t (0 : Fin 2) * 16384 + 1 * (y (0 : Fin 2)).val = (Fin.cast N_0 t).val * 16384 + (y (0 : Fin 2)).val
    rw [(idx0_1 t).1]; simp only [Fin.coe_cast]; omega
  | ⟨1, _⟩ =>
    show win0_1.index t (1 : Fin 2) * 32 + 1 * (y (1 : Fin 2)).val = (y (1 : Fin 2)).val
    rw [(idx0_1 t).2]; omega
theorem iblk1_0 (c : Dev nD) (t : Fin cfg1.N) : iblk1 (VE1 m) c 0 t = tile (argX m c) (Fin.cast N_1 t) := by
  rw [← VE1_arg0 m c]
  funext y
  unfold iblk1 tile
  show VE1 m c main_arg0 (((cfg1.win 0).blk t).view.emb y) = VE1 m c main_arg0 _
  refine congrArg _ ?_
  funext a
  apply Fin.ext
  match a with
  | ⟨0, _⟩ =>
    show win1_0.index t (0 : Fin 2) * 16384 + 1 * (y (0 : Fin 2)).val = (Fin.cast N_1 t).val * 16384 + (y (0 : Fin 2)).val
    rw [(idx1_0 t).1]; simp only [Fin.coe_cast]; omega
  | ⟨1, _⟩ =>
    show win1_0.index t (1 : Fin 2) * 32 + 1 * (y (1 : Fin 2)).val = (y (1 : Fin 2)).val
    rw [(idx1_0 t).2]; omega
theorem iblk1_1 (c : Dev nD) (t : Fin cfg1.N) : iblk1 (VE1 m) c 1 t = tile (argY m c) (Fin.cast N_1 t) := by
  rw [← VE1_arg1 m c]
  funext y
  unfold iblk1 tile
  show VE1 m c main_arg1 (((cfg1.win 1).blk t).view.emb y) = VE1 m c main_arg1 _
  refine congrArg _ ?_
  funext a
  apply Fin.ext
  match a with
  | ⟨0, _⟩ =>
    show win1_1.index t (0 : Fin 2) * 16384 + 1 * (y (0 : Fin 2)).val = (Fin.cast N_1 t).val * 16384 + (y (0 : Fin 2)).val
    rw [(idx1_1 t).1]; simp only [Fin.coe_cast]; omega
  | ⟨1, _⟩ =>
    show win1_1.index t (1 : Fin 2) * 32 + 1 * (y (1 : Fin 2)).val = (y (1 : Fin 2)).val
    rw [(idx1_1 t).2]; omega
theorem iblk1_2 (c : Dev nD) (t : Fin cfg1.N) : iblk1 (VE1 m) c 2 t = VE1 m c main_v21 := by
  funext y
  unfold iblk1
  show VE1 m c main_v21 (((cfg1.win 2).blk t).view.emb y) = VE1 m c main_v21 y
  refine congrArg _ ?_
  funext a
  apply Fin.ext
  match a with
  | ⟨0, _⟩ =>
    show win1_2.index t (0 : Fin 2) * 1 + 1 * (y (0 : Fin 2)).val = (y (0 : Fin 2)).val
    rw [(idx1_2 t).1]; omega
  | ⟨1, _⟩ =>
    show win1_2.index t (1 : Fin 2) * 10 + 1 * (y (1 : Fin 2)).val = (y (1 : Fin 2)).val
    rw [(idx1_2 t).2]; omega

end Cert.KernelIdeal.Hand

end
-- ==== Proof.KI.Value0.lean ====
/-
  The histogram region's value: what each case's stores leave is the histogram payload of the point's two blocks over
  the reset row (first point) or over the row before (later points); so after point `n` the output buffer and the
  scratch hold the bin counts of tiles `0 … n`, and the array the region leaves is the counts after the last tile.
-/
import proofs.«107730_j46686294508030_1_alg».proof.Proof.KI.Blocks
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

open Cert.KernelIdeal.Spec (tile hist wtab lossAcc)

/-! ## What each case's stores leave: the histogram payload of the point's two blocks -/

/-- The zero offsets of a whole-buffer access, as the constant function. -/
theorem hz2 : (![0, 0] : Fin 2 → Nat) = fun _ => 0 := funext fun a => by fin_cases a <;> rfl

/-- A later point's run leaves in the carried scratch the histogram payload of its two blocks over the row before. -/
theorem sout0_B_eq (c : Dev nD) (i : grid0.Coords) (arg1 : Memref sig .tc .vmem S16384x32 .f32) (harg1 : arg1.IsWhole) (arg2 : Memref sig .tc .vmem S16384x32 .f32) (harg2 : arg2.IsWhole) (arg3 : Memref sig .tc .vmem S1x10 .f32) (harg3 : arg3.IsWhole) (arg4 : Memref sig .tc .vmem S1x10 .f32) (harg4 : arg4.IsWhole) (hc0 : ¬cond0 i)
    (x0 x1 : Vec F S16384x32 .f32) (xs0 : Vec F S1x10 .f32) :
    sout0_B c i arg1 harg1 arg2 harg2 arg3 harg3 arg4 harg4 hc0 x0 x1 xs0 = k0_pay2 x0 x1 xs0 := by
  unfold sout0_B
  rw [View.read_writes_eq_canon _ _ _ (scover0_B c i arg1 harg1 arg2 harg2 arg3 harg3 arg4 harg4 hc0 x0 x1 xs0)]
  unfold kernelRun0_B
  dsimp only
  sl_unfold_words
  rw [View.canon_unit_zero (S := S1x10) hz2]
  simp only [View.readAt_eq_ld, harg1.read_unread, harg2.read_unread, harg4.read_unread,
    View.ld_unit_zero (S := S16384x32) hz2, View.ld_unit_zero (S := S1x10) hz2]

/-- … and the same row in the output window's buffer (it stores what it reads back from the scratch). -/
theorem out0_B_2_eq (c : Dev nD) (i : grid0.Coords) (arg1 : Memref sig .tc .vmem S16384x32 .f32) (harg1 : arg1.IsWhole) (arg2 : Memref sig .tc .vmem S16384x32 .f32) (harg2 : arg2.IsWhole) (arg3 : Memref sig .tc .vmem S1x10 .f32) (harg3 : arg3.IsWhole) (arg4 : Memref sig .tc .vmem S1x10 .f32) (harg4 : arg4.IsWhole) (hc0 : ¬cond0 i)
    (x0 x1 : Vec F S16384x32 .f32) (xs0 : Vec F S1x10 .f32) :
    out0_B_2 c i arg1 harg1 arg2 harg2 arg3 harg3 arg4 harg4 hc0 x0 x1 xs0 = k0_pay2 x0 x1 xs0 := by
  unfold out0_B_2
  rw [View.read_writes_eq_canon _ _ _ (cover0_B_2 c i arg1 harg1 arg2 harg2 arg3 harg3 arg4 harg4 hc0 x0 x1 xs0)]
  unfold kernelRun0_B
  dsimp only
  sl_unfold_words
  rw [View.canon_unit_zero (S := S1x10) hz2, View.readCov_unit_zero (S := S1x10) _ hz2]
  simp only [View.readAt_eq_ld, harg1.read_unread, harg2.read_unread, harg4.read_unread,
    View.ld_unit_zero (S := S16384x32) hz2, View.ld_unit_zero (S := S1x10) hz2]

/-- The first point's run leaves in the carried scratch the histogram payload of its two blocks over the reset row. -/
theorem sout0_A_eq (c : Dev nD) (i : grid0.Coords) (arg1 : Memref sig .tc .vmem S16384x32 .f32) (harg1 : arg1.IsWhole) (arg2 : Memref sig .tc .vmem S16384x32 .f32) (harg2 : arg2.IsWhole) (arg3 : Memref sig .tc .vmem S1x10 .f32) (harg3 : arg3.IsWhole) (arg4 : Memref sig .tc .vmem S1x10 .f32) (harg4 : arg4.IsWhole) (hc0 : cond0 i)
    (x0 x1 : Vec F S16384x32 .f32) :
    sout0_A c i arg1 harg1 arg2 harg2 arg3 harg3 arg4 harg4 hc0 x0 x1 = k0_pay2 x0 x1 (k0_pay1 (F := F)) := by
  unfold sout0_A
  rw [View.read_writes_eq_canon _ _ _ (scover0_A c i arg1 harg1 arg2 harg2 arg3 harg3 arg4 harg4 hc0 x0 x1)]
  unfold kernelRun0_A
  dsimp only
  sl_unfold_words
  rw [View.canon_cons_unit_zero (S := S1x10) hz2, View.readCov_unit_zero (S := S1x10) _ hz2]
  simp only [View.readAt_eq_ld, harg1.read_unread, harg2.read_unread,
    View.ld_unit_zero (S := S16384x32) hz2]

/-- … and the same row in the output window's buffer. -/
theorem out0_A_2_eq (c : Dev nD) (i : grid0.Coords) (arg1 : Memref sig .tc .vmem S16384x32 .f32) (harg1 : arg1.IsWhole) (arg2 : Memref sig .tc .vmem S16384x32 .f32) (harg2 : arg2.IsWhole) (arg3 : Memref sig .tc .vmem S1x10 .f32) (harg3 : arg3.IsWhole) (arg4 : Memref sig .tc .vmem S1x10 .f32) (harg4 : arg4.IsWhole) (hc0 : cond0 i)
    (x0 x1 : Vec F S16384x32 .f32) :
    out0_A_2 c i arg1 harg1 arg2 harg2 arg3 harg3 arg4 harg4 hc0 x0 x1 = k0_pay2 x0 x1 (k0_pay1 (F := F)) := by
  unfold out0_A_2
  rw [View.read_writes_eq_canon _ _ _ (cover0_A_2 c i arg1 harg1 arg2 harg2 arg3 harg3 arg4 harg4 hc0 x0 x1)]
  unfold kernelRun0_A
  dsimp only
  sl_unfold_words
  rw [View.canon_unit_zero (S := S1x10) hz2, View.readCov_cons_toLoadRect, View.readCov_unit_zero (S := S1x10) _ hz2]
  simp only [View.readAt_eq_ld, harg1.read_unread, harg2.read_unread,
    View.ld_unit_zero (S := S16384x32) hz2]

/-! ## The accumulation, point by point -/

variable (m : (ℓ : Loc nD τ sig) → Buf (Elt F) ℓ)

/-- The two input windows' blocks at a point, by their literal type. -/
abbrev xblk (c : Dev nD) (t : Fin cfg0.N) : Vec F S16384x32 .f32 := iblk0 (VE0 m) c 0 t
abbrev yblk (c : Dev nD) (t : Fin cfg0.N) : Vec F S16384x32 .f32 := iblk0 (VE0 m) c 1 t

/-- At point `t` they are tile `t` of the two arguments. -/
theorem xblk_eq (c : Dev nD) (t : Fin cfg0.N) : xblk m c t = tile (argX m c) (Fin.cast N_0 t) := iblk0_0 m c t
theorem yblk_eq (c : Dev nD) (t : Fin cfg0.N) : yblk m c t = tile (argY m c) (Fin.cast N_0 t) := iblk0_1 m c t

/-- After position `n` the output window's buffer and the carried scratch both hold the bin counts of tiles
    `0 … n`: the first point's stores leave the payload over the reset row, every later point's over what the point
    before left in the scratch, which by induction is the counts up to it. -/
theorem outsAt0_hist (c : Dev nD) : ∀ (n : ℕ) (hn : n < cfg0.N),
    outsAt0 (VE0 m) c n hn = (hist (argX m c) (argY m c) n, hist (argX m c) (argY m c) n)
  | 0, hn => by
    have hc : cond0 (grid0.coords ⟨0, hn⟩) := (hcond0 ⟨0, hn⟩).mpr (Nat.zero_mod _)
    have e1 := out0_A_2_eq (F := F) c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0 (Memref.isWhole_whole _) hc (xblk m c ⟨0, hn⟩) (yblk m c ⟨0, hn⟩)
    have e2 := sout0_A_eq (F := F) c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0 (Memref.isWhole_whole _) hc (xblk m c ⟨0, hn⟩) (yblk m c ⟨0, hn⟩)
    have h0 : Fin.cast N_0 (⟨0, hn⟩ : Fin cfg0.N) = (0 : Fin 64) := Fin.ext rfl
    have hv : k0_pay2 (xblk m c ⟨0, hn⟩) (yblk m c ⟨0, hn⟩) (k0_pay1 (F := F)) = hist (argX m c) (argY m c) 0 := by
      rw [xblk_eq, yblk_eq, h0]; rfl
    refine (show outsAt0 (VE0 m) c 0 hn = (out0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0 (Memref.isWhole_whole _) hc (xblk m c ⟨0, hn⟩) (yblk m c ⟨0, hn⟩),
      sout0_A c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0 (Memref.isWhole_whole _) hc (xblk m c ⟨0, hn⟩) (yblk m c ⟨0, hn⟩)) from rfl).trans ?_
    exact congrArg₂ Prod.mk (e1.trans hv) (e2.trans hv)
  | n + 1, hn => by
    have hN : n + 1 < 64 := lt_of_lt_of_eq hn (show cfg0.N = 64 from N_0)
    have ih := outsAt0_hist c n (Nat.lt_of_succ_lt hn)
    have hc : ¬cond0 (grid0.coords ⟨n + 1, hn⟩) := notCond0_succ n hn
    have e1 := out0_B_2_eq (F := F) c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0 (Memref.isWhole_whole _) hc (xblk m c ⟨n + 1, hn⟩) (yblk m c ⟨n + 1, hn⟩) (outsAt0 (VE0 m) c n (Nat.lt_of_succ_lt hn)).2
    have e2 := sout0_B_eq (F := F) c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0 (Memref.isWhole_whole _) hc (xblk m c ⟨n + 1, hn⟩) (yblk m c ⟨n + 1, hn⟩) (outsAt0 (VE0 m) c n (Nat.lt_of_succ_lt hn)).2
    have h0 : Fin.cast N_0 (⟨n + 1, hn⟩ : Fin cfg0.N) = Fin.ofNat 64 (n + 1) :=
      Fin.ext (by show n + 1 = (n + 1) % 64; rw [Nat.mod_eq_of_lt hN])
    have hv : k0_pay2 (xblk m c ⟨n + 1, hn⟩) (yblk m c ⟨n + 1, hn⟩) (outsAt0 (VE0 m) c n (Nat.lt_of_succ_lt hn)).2
        = hist (argX m c) (argY m c) (n + 1) := by
      rw [ih, xblk_eq, yblk_eq, h0]; rfl
    refine (show outsAt0 (VE0 m) c (n + 1) hn = (out0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0 (Memref.isWhole_whole _) hc (xblk m c ⟨n + 1, hn⟩) (yblk m c ⟨n + 1, hn⟩) (outsAt0 (VE0 m) c n (Nat.lt_of_succ_lt hn)).2,
      sout0_B c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0 (Memref.isWhole_whole _) hc (xblk m c ⟨n + 1, hn⟩) (yblk m c ⟨n + 1, hn⟩) (outsAt0 (VE0 m) c n (Nat.lt_of_succ_lt hn)).2) from rfl).trans ?_
    exact congrArg₂ Prod.mk (e1.trans hv) (e2.trans hv)

theorem outsAt0_eq (c : Dev nD) (n : ℕ) (hn : n < cfg0.N) :
    outsAt0 (VE0 m) c n hn = (hist (argX m c) (argY m c) n, hist (argX m c) (argY m c) n) :=
  outsAt0_hist m c n hn

/-! ## From the last point's block to the array -/

/-- The last grid point, the one whose block is written back. -/
abbrev lastPt : Fin cfg0.N := ⟨63, by rw [show cfg0.N = 64 from N_0]; decide⟩

/-- The bin counts after the last tile, as contents of the histogram array (its one block is the array). -/
abbrev histArr (c : Dev nD) : Buf (Elt F) ((c : Thread nD τ).loc main_v0) := hist (argX m c) (argY m c) 63

/-- The one write-back, at the last point, writes those counts: the output window's block at zero offsets, read
    through the array, is the array. -/
theorem flushed_hist (c : Dev nD) (t : Fin cfg0.N) (hf : (cfg0.win 2).flush t = true) :
    (dat0 (VE0 m) c).flushed 2 t = ((cfg0.win 2).blk t).view.read (Elt F) (histArr m c) := by
  have hN : cfg0.N = 64 := N_0
  have h63 : t.val = 63 := by have := (flush0_2 t).mp hf; have := t.isLt; omega
  obtain rfl : t = lastPt := Fin.ext h63
  show (cfg0.win 2).cut (grid0.coords lastPt) ((dat0 (VE0 m) c).after 2 lastPt) = _
  rw [after0_2, outsAt0_eq]
  have hoff : (fun a => win0_2.index lastPt a * main_v0.ty.shape.size a) = fun _ => 0 := funext fun a => by fin_cases a <;> decide +kernel
  exact (Memref.read_access_unit_zero (Elt F) main_v0 hoff (fun a => by rw [congrFun hoff a]; simp) (histArr m c)).symm

/-- The array the histogram region leaves: the bin counts after the last tile. -/
theorem hist_array (c : Dev nD) : Gen.V2 m (outs m) c main_v0 = hist (argX m c) (argY m c) 63 := by
  rw [V2_main_v0]
  refine (dat0 (VE0 m) c).arrAt_eq_of_cover 2 (histArr m c) (flushed_hist m c) fun i => ⟨lastPt, (flush0_2 lastPt).mpr rfl, ?_⟩
  show i ∈ ((View.whole main_v0).slice (win0_2.rect lastPt)).set
  rw [View.set_slice_whole, Rect.mem_set_unit]
  intro a
  have h0 : (i 0 : Nat) < 1 := (i 0).isLt
  have h1 : (i 1 : Nat) < 10 := (i 1).isLt
  match a with
  | ⟨0, _⟩ =>
    show win0_2.index lastPt 0 * win0_2.size 0 ≤ (i 0 : Nat) ∧ (i 0 : Nat) < win0_2.index lastPt 0 * win0_2.size 0 + win0_2.xsize (grid0.coords lastPt) 0
    rw [show win0_2.index lastPt 0 * win0_2.size 0 = 0 from by decide +kernel, show win0_2.xsize (grid0.coords lastPt) 0 = 1 from by decide +kernel]
    omega
  | ⟨1, _⟩ =>
    show win0_2.index lastPt 1 * win0_2.size 1 ≤ (i 1 : Nat) ∧ (i 1 : Nat) < win0_2.index lastPt 1 * win0_2.size 1 + win0_2.xsize (grid0.coords lastPt) 1
    rw [show win0_2.index lastPt 1 * win0_2.size 1 = 0 from by decide +kernel, show win0_2.xsize (grid0.coords lastPt) 1 = 10 from by decide +kernel]
    omega

end Cert.KernelIdeal.Hand

end
-- ==== Proof.KI.Value1.lean ====
/-
  The loss region's value: what each case's stores leave is the loss payload of the point's two blocks and the weight
  table over the reset cell (first point) or over the cell before (later points); so after point `n` the output buffer
  and the scratch hold the weighted loss of tiles `0 … n`, and the array the region leaves is the loss after the last
  tile.
-/
import proofs.«107730_j46686294508030_1_alg».proof.Proof.KI.Blocks
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

open Cert.KernelIdeal.Spec (tile hist wtab lossAcc)

/-! ## What each case's stores leave: the loss payload of the point's blocks -/

namespace Loss1

/-- The zero offsets of a whole-buffer access, as the constant function. -/
theorem hz : (![0, 0] : Fin 2 → Nat) = fun _ => 0 := funext fun a => by fin_cases a <;> rfl

/-- A later point leaves in the carried scratch the loss payload of its two blocks and the table over the cell before. -/
theorem sout_B (c : Dev nD) (i : grid1.Coords) (arg1 : Memref sig .tc .vmem S16384x32 .f32) (harg1 : arg1.IsWhole) (arg2 : Memref sig .tc .vmem S16384x32 .f32) (harg2 : arg2.IsWhole) (arg3 : Memref sig .tc .vmem S1x10 .f32) (harg3 : arg3.IsWhole) (arg4 : Memref sig .tc .vmem S1x1 .f32) (harg4 : arg4.IsWhole) (arg5 : Memref sig .tc .vmem S1x1 .f32) (harg5 : arg5.IsWhole) (hc0 : ¬cond1 i)
    (x0 x1 : Vec F S16384x32 .f32) (x2 : Vec F S1x10 .f32) (xs0 : Vec F S1x1 .f32) :
    sout1_B c i arg1 harg1 arg2 harg2 arg3 harg3 arg4 harg4 arg5 harg5 hc0 x0 x1 x2 xs0
      = k1_pay1 (k1_pay3 x0 x1 x2) (k1_pay4 x0 x1) xs0 := by
  unfold sout1_B
  rw [View.read_writes_eq_canon _ _ _ (scover1_B c i arg1 harg1 arg2 harg2 arg3 harg3 arg4 harg4 arg5 harg5 hc0 x0 x1 x2 xs0)]
  unfold kernelRun1_B
  dsimp only
  sl_unfold_words
  rw [View.canon_unit_zero hz]
  simp only [View.readAt_eq_ld, harg1.read_unread, harg2.read_unread, harg3.read_unread, harg5.read_unread,
    View.ld_unit_zero (S := S16384x32) hz, View.ld_unit_zero (S := S1x10) hz, View.ld_unit_zero (S := S1x1) hz]

/-- … and the same cell in the output window's buffer: it stores what it reads back from the scratch. -/
theorem out_B (c : Dev nD) (i : grid1.Coords) (arg1 : Memref sig .tc .vmem S16384x32 .f32) (harg1 : arg1.IsWhole) (arg2 : Memref sig .tc .vmem S16384x32 .f32) (harg2 : arg2.IsWhole) (arg3 : Memref sig .tc .vmem S1x10 .f32) (harg3 : arg3.IsWhole) (arg4 : Memref sig .tc .vmem S1x1 .f32) (harg4 : arg4.IsWhole) (arg5 : Memref sig .tc .vmem S1x1 .f32) (harg5 : arg5.IsWhole) (hc0 : ¬cond1 i)
    (x0 x1 : Vec F S16384x32 .f32) (x2 : Vec F S1x10 .f32) (xs0 : Vec F S1x1 .f32) :
    out1_B_3 c i arg1 harg1 arg2 harg2 arg3 harg3 arg4 harg4 arg5 harg5 hc0 x0 x1 x2 xs0
      = k1_pay1 (k1_pay3 x0 x1 x2) (k1_pay4 x0 x1) xs0 := by
  unfold out1_B_3
  rw [View.read_writes_eq_canon _ _ _ (cover1_B_3 c i arg1 harg1 arg2 harg2 arg3 harg3 arg4 harg4 arg5 harg5 hc0 x0 x1 x2 xs0)]
  unfold kernelRun1_B
  dsimp only
  sl_unfold_words
  rw [View.canon_unit_zero hz]
  simp only [View.readCov_unit_zero (S := S1x1) _ hz, View.readAt_eq_ld, harg1.read_unread, harg2.read_unread, harg3.read_unread, harg5.read_unread,
    View.ld_unit_zero (S := S16384x32) hz, View.ld_unit_zero (S := S1x10) hz, View.ld_unit_zero (S := S1x1) hz]

/-- The first point leaves in the carried scratch the loss payload over the reset cell: the reset store is read back,
    then overwritten by the update. -/
theorem sout_A (c : Dev nD) (i : grid1.Coords) (arg1 : Memref sig .tc .vmem S16384x32 .f32) (harg1 : arg1.IsWhole) (arg2 : Memref sig .tc .vmem S16384x32 .f32) (harg2 : arg2.IsWhole) (arg3 : Memref sig .tc .vmem S1x10 .f32) (harg3 : arg3.IsWhole) (arg4 : Memref sig .tc .vmem S1x1 .f32) (harg4 : arg4.IsWhole) (arg5 : Memref sig .tc .vmem S1x1 .f32) (harg5 : arg5.IsWhole) (hc0 : cond1 i)
    (x0 x1 : Vec F S16384x32 .f32) (x2 : Vec F S1x10 .f32) :
    sout1_A c i arg1 harg1 arg2 harg2 arg3 harg3 arg4 harg4 arg5 harg5 hc0 x0 x1 x2
      = k1_pay1 (k1_pay3 x0 x1 x2) (k1_pay4 x0 x1) (k1_pay2 (F := F)) := by
  unfold sout1_A
  rw [View.read_writes_eq_canon _ _ _ (scover1_A c i arg1 harg1 arg2 harg2 arg3 harg3 arg4 harg4 arg5 harg5 hc0 x0 x1 x2)]
  unfold kernelRun1_A
  dsimp only
  sl_unfold_words
  rw [View.canon_cons_unit_zero (S := S1x1) hz]
  simp only [View.readCov_unit_zero (S := S1x1) _ hz, View.readAt_eq_ld, harg1.read_unread, harg2.read_unread, harg3.read_unread, harg5.read_unread,
    View.ld_unit_zero (S := S16384x32) hz, View.ld_unit_zero (S := S1x10) hz, View.ld_unit_zero (S := S1x1) hz]

/-- … and the same cell in the output window's buffer: the load after the two stores reads the later one's payload. -/
theorem out_A (c : Dev nD) (i : grid1.Coords) (arg1 : Memref sig .tc .vmem S16384x32 .f32) (harg1 : arg1.IsWhole) (arg2 : Memref sig .tc .vmem S16384x32 .f32) (harg2 : arg2.IsWhole) (arg3 : Memref sig .tc .vmem S1x10 .f32) (harg3 : arg3.IsWhole) (arg4 : Memref sig .tc .vmem S1x1 .f32) (harg4 : arg4.IsWhole) (arg5 : Memref sig .tc .vmem S1x1 .f32) (harg5 : arg5.IsWhole) (hc0 : cond1 i)
    (x0 x1 : Vec F S16384x32 .f32) (x2 : Vec F S1x10 .f32) :
    out1_A_3 c i arg1 harg1 arg2 harg2 arg3 harg3 arg4 harg4 arg5 harg5 hc0 x0 x1 x2
      = k1_pay1 (k1_pay3 x0 x1 x2) (k1_pay4 x0 x1) (k1_pay2 (F := F)) := by
  unfold out1_A_3
  rw [View.read_writes_eq_canon _ _ _ (cover1_A_3 c i arg1 harg1 arg2 harg2 arg3 harg3 arg4 harg4 arg5 harg5 hc0 x0 x1 x2)]
  unfold kernelRun1_A
  dsimp only
  sl_unfold_words
  rw [View.canon_unit_zero hz, View.readCov_cons_toLoadRect]
  simp only [View.readCov_unit_zero (S := S1x1) _ hz, View.readAt_eq_ld, harg1.read_unread, harg2.read_unread, harg3.read_unread, harg5.read_unread,
    View.ld_unit_zero (S := S16384x32) hz, View.ld_unit_zero (S := S1x10) hz, View.ld_unit_zero (S := S1x1) hz]

end Loss1

variable (m : (ℓ : Loc nD τ sig) → Buf (Elt F) ℓ)

/-! ## The accumulation over the points, and the array the region leaves -/

namespace Loss1

/-- The loss cell after tiles `0 … n`, twice: what the output window's buffer and the carried scratch both hold. -/
theorem outsAt_eq (c : Dev nD) : ∀ (n : ℕ) (hn : n < cfg1.N),
    outsAt1 (VE1 m) c n hn = (lossAcc (argX m c) (argY m c) (VE1 m c main_v21) n, lossAcc (argX m c) (argY m c) (VE1 m c main_v21) n)
  | 0, hn => by
    have e : outsAt1 (VE1 m) c 0 hn
        = (out1_A_3 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1 (Memref.isWhole_whole _) ((hcond1 ⟨0, hn⟩).mpr (Nat.zero_mod _)) (iblk1 (VE1 m) c 0 ⟨0, hn⟩) (iblk1 (VE1 m) c 1 ⟨0, hn⟩) (iblk1 (VE1 m) c 2 ⟨0, hn⟩),
           sout1_A c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1 (Memref.isWhole_whole _) ((hcond1 ⟨0, hn⟩).mpr (Nat.zero_mod _)) (iblk1 (VE1 m) c 0 ⟨0, hn⟩) (iblk1 (VE1 m) c 1 ⟨0, hn⟩) (iblk1 (VE1 m) c 2 ⟨0, hn⟩)) := rfl
    rw [e, out_A c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1 (Memref.isWhole_whole _) ((hcond1 ⟨0, hn⟩).mpr (Nat.zero_mod _)) (iblk1 (VE1 m) c 0 ⟨0, hn⟩) (iblk1 (VE1 m) c 1 ⟨0, hn⟩) (iblk1 (VE1 m) c 2 ⟨0, hn⟩),
      sout_A c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1 (Memref.isWhole_whole _) ((hcond1 ⟨0, hn⟩).mpr (Nat.zero_mod _)) (iblk1 (VE1 m) c 0 ⟨0, hn⟩) (iblk1 (VE1 m) c 1 ⟨0, hn⟩) (iblk1 (VE1 m) c 2 ⟨0, hn⟩),
      iblk1_0 m c ⟨0, hn⟩, iblk1_1 m c ⟨0, hn⟩, iblk1_2 m c ⟨0, hn⟩]
    rfl
  | n + 1, hn => by
    have hN : n + 1 < 64 := lt_of_lt_of_eq hn (show cfg1.N = 64 from N_1)
    have e : outsAt1 (VE1 m) c (n + 1) hn
        = (out1_B_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1 (Memref.isWhole_whole _) (notCond1_succ n hn) (iblk1 (VE1 m) c 0 ⟨n + 1, hn⟩) (iblk1 (VE1 m) c 1 ⟨n + 1, hn⟩) (iblk1 (VE1 m) c 2 ⟨n + 1, hn⟩) (outsAt1 (VE1 m) c n (Nat.lt_of_succ_lt hn)).2,
           sout1_B c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1 (Memref.isWhole_whole _) (notCond1_succ n hn) (iblk1 (VE1 m) c 0 ⟨n + 1, hn⟩) (iblk1 (VE1 m) c 1 ⟨n + 1, hn⟩) (iblk1 (VE1 m) c 2 ⟨n + 1, hn⟩) (outsAt1 (VE1 m) c n (Nat.lt_of_succ_lt hn)).2) := rfl
    have hF : Fin.cast N_1 (⟨n + 1, hn⟩ : Fin cfg1.N) = Fin.ofNat 64 (n + 1) := Fin.ext (Nat.mod_eq_of_lt hN).symm
    rw [e, outsAt_eq c n (Nat.lt_of_succ_lt hn)]
    dsimp only
    rw [out_B c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1 (Memref.isWhole_whole _) (notCond1_succ n hn) (iblk1 (VE1 m) c 0 ⟨n + 1, hn⟩) (iblk1 (VE1 m) c 1 ⟨n + 1, hn⟩) (iblk1 (VE1 m) c 2 ⟨n + 1, hn⟩) (lossAcc (argX m c) (argY m c) (VE1 m c main_v21) n),
      sout_B c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1 (Memref.isWhole_whole _) (notCond1_succ n hn) (iblk1 (VE1 m) c 0 ⟨n + 1, hn⟩) (iblk1 (VE1 m) c 1 ⟨n + 1, hn⟩) (iblk1 (VE1 m) c 2 ⟨n + 1, hn⟩) (lossAcc (argX m c) (argY m c) (VE1 m c main_v21) n),
      iblk1_0 m c ⟨n + 1, hn⟩, iblk1_1 m c ⟨n + 1, hn⟩, iblk1_2 m c ⟨n + 1, hn⟩, hF]
    rfl

end Loss1

namespace Loss1

/-- The grid's last point, the only one that writes the output array back. -/
abbrev tLast : Fin cfg1.N := ⟨63, by rw [show cfg1.N = 64 from N_1]; decide⟩

/-- The loss cell after the last tile, as contents of the output array (the window's one block is the whole array). -/
abbrev lossCell (c : Dev nD) : Buf (Elt F) ((c : Thread nD τ).loc main_v22) :=
  lossAcc (argX m c) (argY m c) (VE1 m c main_v21) 63

/-- The one write-back writes that cell: the block at zero offsets of the `[1, 1]` array, read through, is the array. -/
theorem flushed_eq (c : Dev nD) (t : Fin cfg1.N) (hf : (cfg1.win 3).flush t = true) :
    (dat1 (VE1 m) c).flushed 3 t = ((cfg1.win 3).blk t).view.read (Elt F) (lossCell m c) := by
  have hN : cfg1.N = 64 := N_1
  have h63 : t.val = 63 := by have := (flush1_3 t).mp hf; have := t.isLt; omega
  obtain rfl : t = tLast := Fin.ext h63
  show (cfg1.win 3).cut (grid1.coords tLast) ((dat1 (VE1 m) c).after 3 tLast) = _
  rw [after1_3, outsAt_eq]
  have hoff : (fun a => win1_3.index tLast a * main_v22.ty.shape.size a) = fun _ => 0 := funext fun a => by fin_cases a <;> decide +kernel
  exact (Memref.read_access_unit_zero (Elt F) main_v22 hoff (fun a => by rw [congrFun hoff a]; simp) (lossCell m c)).symm

/-- So the output array ends holding the loss cell after the last tile. -/
theorem final (c : Dev nD) : (dat1 (VE1 m) c).arrAt 3 cfg1.N = lossCell m c :=
  (dat1 (VE1 m) c).arrAt_eq_of_cover 3 (lossCell m c) (flushed_eq m c) fun i =>
    ⟨tLast, (flush1_3 tLast).mpr rfl, by
      show i ∈ ((View.whole main_v22).slice (win1_3.rect tLast)).set
      rw [View.set_slice_whole, Rect.mem_set_unit]
      intro a
      have h0 : (i 0 : Nat) < 1 := (i 0).isLt
      have h1 : (i 1 : Nat) < 1 := (i 1).isLt
      match a with
      | ⟨0, _⟩ =>
        show win1_3.index tLast 0 * win1_3.size 0 ≤ (i 0 : Nat) ∧ (i 0 : Nat) < win1_3.index tLast 0 * win1_3.size 0 + win1_3.xsize (grid1.coords tLast) 0
        rw [show win1_3.index tLast 0 * win1_3.size 0 = 0 from by decide +kernel, show win1_3.xsize (grid1.coords tLast) 0 = 1 from by decide +kernel]
        omega
      | ⟨1, _⟩ =>
        show win1_3.index tLast 1 * win1_3.size 1 ≤ (i 1 : Nat) ∧ (i 1 : Nat) < win1_3.index tLast 1 * win1_3.size 1 + win1_3.xsize (grid1.coords tLast) 1
        rw [show win1_3.index tLast 1 * win1_3.size 1 = 0 from by decide +kernel, show win1_3.xsize (grid1.coords tLast) 1 = 1 from by decide +kernel]
        omega⟩

end Loss1

theorem outsAt1_eq (c : Dev nD) (n : ℕ) (hn : n < cfg1.N) :
    outsAt1 (VE1 m) c n hn = (lossAcc (argX m c) (argY m c) (VE1 m c main_v21) n, lossAcc (argX m c) (argY m c) (VE1 m c main_v21) n) :=
  Loss1.outsAt_eq m c n hn

/-- The array the loss region leaves: the weighted loss after the last tile. -/
theorem loss_array (c : Dev nD) : Gen.V10 m (outs m) c main_v22 = lossAcc (argX m c) (argY m c) (VE1 m c main_v21) 63 :=
  (V10_main_v22 m c).trans (Loss1.final m c)

end Cert.KernelIdeal.Hand

end
-- ==== Proof.KI.Host.lean ====
/-
  The host operations between and after the regions, read back: the weight table the loss region is entered with is
  the host's table of the counts the histogram region left, and the program's result is the loss cell the loss region
  left, as a scalar.
-/
import proofs.«107730_j46686294508030_1_alg».proof.Proof.KI.Run
import proofs.«107730_j46686294508030_1_alg».proof.Proof.KernSpec

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

open Cert.KernelIdeal.Spec (tile hist wtab lossAcc)

section Table

open Idealize.ShloMosaic.StableHlo

-- the sum stays folded: the equation below never looks inside it
attribute [local irreducible] Host.reduceAdd

/-- The seven host stretches between the regions, run from any contents `W` whose constant row is the smoothing row:
    the table buffer ends at the weight table of the counts buffer's contents.  The thirty-five operations compose, in
    order, to exactly the stages of `wtab`: the counts as a vector, a quarter of them, the divisor, the per-bin
    weight, its square, the count-weighted sum of the squares, the quotient, the cut, and the row again. -/
theorem tab_of (W : Valuation τ sig (Elt F))
    (hc : W (main_cst : DevRef τ sig) = fun i => FloatOps.ofBits .f32 (lit0 (S10.rowMajor i))) :
    after hostOps1_6 (after hostOps1_5 (after hostOps1_4 (after hostOps1_3 (after hostOps1_2 (after hostOps1_1
      (after hostOps1 W)))))) (main_v21 : DevRef τ sig) = wtab (W (main_v0 : DevRef τ sig)) := by
  after_results_simp
  rw [hc]
  rfl

end Table

variable (m : (ℓ : Loc nD τ sig) → Buf (Elt F) ℓ)

/-- The constant row is still the smoothing row when the histogram region has run: the region may change only its
    output array, and the one host operation before it wrote the row. -/
theorem V2_cst (c : Dev nD) :
    Gen.V2 m (outs m) c main_cst = fun i => FloatOps.ofBits .f32 (lit0 (S10.rowMajor i)) :=
  (Gen.V2_of m (outs m) c main_cst (by decide)).trans (by
    show StableHlo.after hostOps0 (Gen.V0 m c) (main_cst : DevRef τ sig) = _
    after_results <;> rfl)

theorem tab_array (c : Dev nD) : VE1 m c main_v21 = wtab (Gen.V2 m (outs m) c main_v0) :=
  tab_of (Gen.V2 m (outs m) c) (V2_cst m c)

theorem result_array (c : Dev nD) :
    Gen.V11 m (outs m) c main_v23 = shapeCast S_ (Gen.V10 m (outs m) c main_v22) shapeCasts_S1x1_S_ := by
  show StableHlo.after hostOps2 (Gen.V10 m (outs m) c) (main_v23 : DevRef τ sig) = _
  after_results <;> rfl

end Cert.KernelIdeal.Hand

end
-- ==== Proof.KI.Value.lean ====
/-
  The kernel program's result buffer at the end of its run is the kernel's result term of the two arguments.
-/
import proofs.«107730_j46686294508030_1_alg».proof.Proof.KI.Value0
import proofs.«107730_j46686294508030_1_alg».proof.Proof.KI.Value1
import proofs.«107730_j46686294508030_1_alg».proof.Proof.KI.Host

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

theorem result_at (c : Dev nD) :
    Gen.V11 m (outs m) c main_v23 = Cert.KernelIdeal.Spec.result (argX m c) (argY m c) := by
  rw [result_array, loss_array, tab_array, hist_array]; rfl

end Cert.KernelIdeal.Hand

end
-- ==== Proof.KI.ValueRun.lean ====
/-
  The kernel program's run with its result named, at any float family: every weakly fair execution terminates with the
  result buffer at the kernel's result term of the two arguments, and the arguments as launched.
-/
import proofs.«107730_j46686294508030_1_alg».proof.Proof.KI.Frame
import proofs.«107730_j46686294508030_1_alg».proof.Proof.KI.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

theorem value_run (ρ : Dev nD → PrngReg) :
    θ_run defs (onTc (τ := τ) (main (F := F))) ⟨m, fun _ => 0, ρ⟩ (fun r => ∀ c : Dev nD,
      r.2.mem ((c.tc : Thread nD τ).loc main_v23) = Cert.KernelIdeal.Spec.result (argX m c) (argY m c)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c =>
    ⟨(h c (Proc.devRef .tc main_v23) (mem_uc main_v23 (by decide))).trans (result_at m c),
     (h c (Proc.devRef .tc main_arg0) (mem_uc main_arg0 (by decide))).trans (Gen.V11_main_arg0 m (outs m) c),
     (h c (Proc.devRef .tc main_arg1) (mem_uc main_arg1 (by decide))).trans (Gen.V11_main_arg1 m (outs m) c)⟩) (run_all m ρ)

end Cert.KernelIdeal.Hand

end
-- ==== Proof.RefSpec.lean ====
/-
  The reference's result as ONE term of its two argument arrays, at any float family, stage by stage as its @main
  composes it: the per-row gap, its bin, the bin counts, the per-bin weight, the per-row weight, the per-row loss and
  the weighted sum.  Nothing is proved here; the run of the reference is stated to end at `result`.
-/
import proofs.«107730_j46686294508030_1_alg».proof.Proof.Gen.ReferenceIdeal

noncomputable section

namespace Cert.ReferenceIdeal.Spec

open Idealize.ShloMosaic Cert.ReferenceIdeal Cert.ReferenceIdeal.Gen

variable {F : FTy → Type} [FloatOps F]

/-- A scalar constant along a length-`1048576` vector, and along a length-`10` one. -/
abbrev rows (w : BitVec 32) : FVec F S1048576 .f32 := broadcastInDim S1048576 ![] bcast_S_S1048576 (constant (F := F) S_ .f32 w)
abbrev bins (w : BitVec 32) : FVec F S10 .f32 := broadcastInDim S10 ![] bcast_S_S10 (constant (F := F) S_ .f32 w)
abbrev rowsI (w : BitVec 32) : IVec S1048576 32 := broadcastInDim S1048576 ![] bcast_S_S1048576 (constantI S_ 32 w)

/-- The mean over the 32 classes of `|x - y|`, per row. -/
def gap (x y : FVec F S1048576x32 .f32) : FVec F S1048576 .f32 :=
  Host.divf (Host.reduceAdd (Host.absf (subf x y)) (constant (F := F) S_ .f32 0x00000000#32) reducesTo_S1048576x32_S1048576_d1 h_S_)
    (rows 0x42000000#32)

/-- The row's bin: `floor (10 · gap)` as an integer, clipped into `0 … 9`. -/
def bin (x y : FVec F S1048576x32 .f32) : IVec S1048576 32 :=
  minsi (rowsI 9#32) (maxsi (rowsI 0#32) (fptosi 32 (Host.floor (mulf (gap x y) (rows 0x41200000#32)))))

/-- The bin as the index column the scatter and the gather take (a negative index counted from the end). -/
def binIx (x y : FVec F S1048576x32 .f32) : IVec S1048576x1 32 :=
  broadcastInDim S1048576x1 ![0] bcast_S1048576_S1048576x1_0
    (select (cmpi .slt (bin x y) (rowsI 0#32)) (addi (bin x y) (rowsI 10#32)) (bin x y))

/-- How many rows fall in each bin: a one added at the row's bin, over all rows. -/
def counts (x y : FVec F S1048576x32 .f32) : FVec F S10 .f32 :=
  Host.scatterAdd scatter_S10_S1048576x1_S1048576_n_0_0_1 (bins 0x00000000#32) (binIx x y) (rows 0x3F800000#32)

/-- The smoothing row `[1, 0.75, 0, …, 0]`. -/
def smooth : FVec F S10 .f32 := fun i => FloatOps.ofBits .f32 (lit0 (S10.rowMajor i))

/-- The per-bin weight: `(smooth · 2^25) / s` where the count is positive and `0` elsewhere, `s` a quarter of the
    count where that is positive and `1` elsewhere. -/
def perBin (x y : FVec F S1048576x32 .f32) : FVec F S10 .f32 :=
  let a : FVec F S10 .f32 := mulf (bins 0x3E800000#32) (counts x y)
  let s : FVec F S10 .f32 := select (cmpf .ogt a (bins 0x00000000#32)) a (bins 0x3F800000#32)
  select (cmpf .ogt (counts x y) (bins 0x00000000#32)) (Host.divf (mulf smooth (bins 0x4C000000#32)) s) (bins 0x00000000#32)

/-- The per-row weight: the row's bin's weight squared, over the sum of those squares over all rows, and `0` where
    that quotient is below `1e-6`. -/
def rowW (x y : FVec F S1048576x32 .f32) : FVec F S1048576 .f32 :=
  let g : FVec F S1048576 .f32 := Host.gather gather_S10_S1048576x1_S1048576_n_0_n_n_0_1_1 (perBin x y) (binIx x y)
  let q : FVec F S1048576 .f32 := mulf g g
  let z : FVec F S_ .f32 := Host.reduceAdd q (constant (F := F) S_ .f32 0x00000000#32) reducesTo_S1048576_S_d0 h_S_
  let u : FVec F S1048576 .f32 := Host.divf q (broadcastInDim S1048576 ![] bcast_S_S1048576 z)
  select (cmpf .olt u (rows 0x358637BD#32)) (rows 0x00000000#32) u

/-- The per-row loss: the mean over the classes of `-(y · log x + (1 - y) · log1p (-x))`. -/
def rowLoss (x y : FVec F S1048576x32 .f32) : FVec F S1048576 .f32 :=
  let e : FVec F S1048576x32 .f32 := Host.negf (addf (mulf y (Host.log x))
    (mulf (subf (broadcastInDim S1048576x32 ![] bcast_S_S1048576x32 (constant (F := F) S_ .f32 0x3F800000#32)) y) (Host.log1p (Host.negf x))))
  Host.divf (Host.reduceAdd e (constant (F := F) S_ .f32 0x00000000#32) reducesTo_S1048576x32_S1048576_d1 h_S_) (rows 0x42000000#32)

/-- The reference's scalar result of its two arguments. -/
def result (x y : FVec F S1048576x32 .f32) : FVec F S_ .f32 :=
  Host.reduceAdd (mulf (rowLoss x y) (rowW x y)) (constant (F := F) S_ .f32 0x00000000#32) reducesTo_S1048576_S_d0 h_S_

end Cert.ReferenceIdeal.Spec

end
-- ==== Proof.RefRun.lean ====
/-
  The reference's run: every weakly fair execution of its @main terminates with the result buffer at the reference's
  term of the two argument arrays, and the arguments unchanged.

  @main is a straight line of 94 host operations once its four calls are read as the callee's operations over the
  call's own buffers.  The line is cut into three stretches at the points where few values are still live: after the
  bin counts (the smoothing row, the row's bin and the counts go on), after the row weight's quotient (only it and
  the two arguments go on), and the end.  Each stretch's fold is read at the buffers the next stretch takes, as the
  matching stage of `Spec`; the three compose to `Spec.result`.
-/
import proofs.«107730_j46686294508030_1_alg».proof.Proof.RefSpec
import Idealize.ShloMosaic.Lib.StableHlo.Run
import Idealize.ShloMosaic.Lib.Pipeline.Frame
import Idealize.ShloMosaic.Lib.Pipeline.Regions

noncomputable section

namespace Cert.ReferenceIdeal.RefRun

open Idealize.ShloMosaic Idealize.ShloMosaic.TcCoe Idealize.SL.Sem Cert.ReferenceIdeal Cert.ReferenceIdeal.Gen
open Idealize.ShloMosaic.StableHlo

variable {F : FTy → Type} [FloatOps F]

/-! ## The operations, in order, in three stretches -/

/-- The first stretch: the per-row gap, its bin, the index column and the bin counts (with the smoothing row). -/
abbrev opsA : List (HloOp τ sig (Elt F)) :=
  [ nullary main_cst (fun i => FloatOps.ofBits .f32 (lit0 (S10.rowMajor i))),
    binary main_arg0 main_arg1 main_v0 (subf : (⟨S1048576x32, .f32⟩ : BufTy).Contents (Elt F) → (⟨S1048576x32, .f32⟩ : BufTy).Contents (Elt F) → (⟨S1048576x32, .f32⟩ : BufTy).Contents (Elt F)),
    unary main_v0 main_v1 (Host.absf : (⟨S1048576x32, .f32⟩ : BufTy).Contents (Elt F) → (⟨S1048576x32, .f32⟩ : BufTy).Contents (Elt F)),
    nullary main_cst_0 (constant S_ .f32 0x00000000#32),
    binary main_v1 main_cst_0 main_v2 ((fun x v => Host.reduceAdd x v reducesTo_S1048576x32_S1048576_d1 h_S_) : (⟨S1048576x32, .f32⟩ : BufTy).Contents (Elt F) → (⟨S_, .f32⟩ : BufTy).Contents (Elt F) → (⟨S1048576, .f32⟩ : BufTy).Contents (Elt F)),
    nullary main_cst_1 (constant S_ .f32 0x42000000#32),
    unary main_cst_1 main_v3 (broadcastInDim S1048576 ![] bcast_S_S1048576 : (⟨S_, .f32⟩ : BufTy).Contents (Elt F) → (⟨S1048576, .f32⟩ : BufTy).Contents (Elt F)),
    binary main_v2 main_v3 main_v4 (Host.divf : (⟨S1048576, .f32⟩ : BufTy).Contents (Elt F) → (⟨S1048576, .f32⟩ : BufTy).Contents (Elt F) → (⟨S1048576, .f32⟩ : BufTy).Contents (Elt F)),
    nullary main_cst_2 (constant S_ .f32 0x41200000#32),
    unary main_cst_2 main_v5 (broadcastInDim S1048576 ![] bcast_S_S1048576 : (⟨S_, .f32⟩ : BufTy).Contents (Elt F) → (⟨S1048576, .f32⟩ : BufTy).Contents (Elt F)),
    binary main_v4 main_v5 main_v6 (mulf : (⟨S1048576, .f32⟩ : BufTy).Contents (Elt F) → (⟨S1048576, .f32⟩ : BufTy).Contents (Elt F) → (⟨S1048576, .f32⟩ : BufTy).Contents (Elt F)),
    unary main_v6 main_v7 (Host.floor : (⟨S1048576, .f32⟩ : BufTy).Contents (Elt F) → (⟨S1048576, .f32⟩ : BufTy).Contents (Elt F)),
    unary main_v7 main_v8 (fptosi 32 : (⟨S1048576, .f32⟩ : BufTy).Contents (Elt F) → (⟨S1048576, .i32⟩ : BufTy).Contents (Elt F)),
    nullary main_c (constantI S_ 32 0#32),
    nullary main_c_3 (constantI S_ 32 9#32),
    TRef.unary (.of main_c) main_call0.v0 id,
    TRef.unary main_call0.v0 main_call0.v1 (broadcastInDim S1048576 ![] bcast_S_S1048576),
    TRef.binary main_call0.v1 (.of main_v8) main_call0.v2 maxsi,
    TRef.unary (.of main_c_3) main_call0.v3 id,
    TRef.unary main_call0.v3 main_call0.v4 (broadcastInDim S1048576 ![] bcast_S_S1048576),
    TRef.binary main_call0.v4 main_call0.v2 main_call0.v5 minsi,
    nullary main_cst_4 (constant S_ .f32 0x00000000#32),
    unary main_cst_4 main_v10 (broadcastInDim S10 ![] bcast_S_S10 : (⟨S_, .f32⟩ : BufTy).Contents (Elt F) → (⟨S10, .f32⟩ : BufTy).Contents (Elt F)),
    nullary main_c_5 (constantI S_ 32 0#32),
    unary main_c_5 main_v11 (broadcastInDim S1048576 ![] bcast_S_S1048576 : (⟨S_, .i32⟩ : BufTy).Contents (Elt F) → (⟨S1048576, .i32⟩ : BufTy).Contents (Elt F)),
    binary main_v9 main_v11 main_v12 (cmpi .slt : (⟨S1048576, .i32⟩ : BufTy).Contents (Elt F) → (⟨S1048576, .i32⟩ : BufTy).Contents (Elt F) → (⟨S1048576, .i1⟩ : BufTy).Contents (Elt F)),
    nullary main_c_6 (constantI S_ 32 10#32),
    unary main_c_6 main_v13 (broadcastInDim S1048576 ![] bcast_S_S1048576 : (⟨S_, .i32⟩ : BufTy).Contents (Elt F) → (⟨S1048576, .i32⟩ : BufTy).Contents (Elt F)),
    binary main_v9 main_v13 main_v14 (addi : (⟨S1048576, .i32⟩ : BufTy).Contents (Elt F) → (⟨S1048576, .i32⟩ : BufTy).Contents (Elt F) → (⟨S1048576, .i32⟩ : BufTy).Contents (Elt F)),
    ternary main_v12 main_v14 main_v9 main_v15 (select : (⟨S1048576, .i1⟩ : BufTy).Contents (Elt F) → (⟨S1048576, .i32⟩ : BufTy).Contents (Elt F) → (⟨S1048576, .i32⟩ : BufTy).Contents (Elt F) → (⟨S1048576, .i32⟩ : BufTy).Contents (Elt F)),
    unary main_v15 main_v16 (broadcastInDim S1048576x1 ![0] bcast_S1048576_S1048576x1_0 : (⟨S1048576, .i32⟩ : BufTy).Contents (Elt F) → (⟨S1048576x1, .i32⟩ : BufTy).Contents (Elt F)),
    nullary main_cst_7 (constant S_ .f32 0x3F800000#32),
    unary main_cst_7 main_v17 (broadcastInDim S1048576 ![] bcast_S_S1048576 : (⟨S_, .f32⟩ : BufTy).Contents (Elt F) → (⟨S1048576, .f32⟩ : BufTy).Contents (Elt F)),
    ternary main_v10 main_v16 main_v17 main_v18 ((fun x i u => Host.scatterAdd scatter_S10_S1048576x1_S1048576_n_0_0_1 x i u) : (⟨S10, .f32⟩ : BufTy).Contents (Elt F) → (⟨S1048576x1, .i32⟩ : BufTy).Contents (Elt F) → (⟨S1048576, .f32⟩ : BufTy).Contents (Elt F) → (⟨S10, .f32⟩ : BufTy).Contents (Elt F)) ]

/-- The second stretch: the per-bin weight table, the row's weight read from it, its square and that square over the
    sum of all rows' squares. -/
abbrev opsB : List (HloOp τ sig (Elt F)) :=
  [ nullary main_cst_8 (constant S_ .f32 0x3E800000#32),
    unary main_cst_8 main_v19 (broadcastInDim S10 ![] bcast_S_S10 : (⟨S_, .f32⟩ : BufTy).Contents (Elt F) → (⟨S10, .f32⟩ : BufTy).Contents (Elt F)),
    binary main_v19 main_v18 main_v20 (mulf : (⟨S10, .f32⟩ : BufTy).Contents (Elt F) → (⟨S10, .f32⟩ : BufTy).Contents (Elt F) → (⟨S10, .f32⟩ : BufTy).Contents (Elt F)),
    nullary main_cst_9 (constant S_ .f32 0x00000000#32),
    unary main_cst_9 main_v21 (broadcastInDim S10 ![] bcast_S_S10 : (⟨S_, .f32⟩ : BufTy).Contents (Elt F) → (⟨S10, .f32⟩ : BufTy).Contents (Elt F)),
    binary main_v20 main_v21 main_v22 (cmpf .ogt : (⟨S10, .f32⟩ : BufTy).Contents (Elt F) → (⟨S10, .f32⟩ : BufTy).Contents (Elt F) → (⟨S10, .i1⟩ : BufTy).Contents (Elt F)),
    nullary main_cst_10 (constant S_ .f32 0x3F800000#32),
    TRef.unary (.of main_cst_10) main_call1.v0 id,
    TRef.unary main_call1.v0 main_call1.v1 (broadcastInDim S10 ![] bcast_S_S10),
    TRef.ternary (.of main_v22) (.of main_v20) main_call1.v1 main_call1.v2 select,
    nullary main_cst_11 (constant S_ .f32 0x00000000#32),
    unary main_cst_11 main_v24 (broadcastInDim S10 ![] bcast_S_S10 : (⟨S_, .f32⟩ : BufTy).Contents (Elt F) → (⟨S10, .f32⟩ : BufTy).Contents (Elt F)),
    binary main_v18 main_v24 main_v25 (cmpf .ogt : (⟨S10, .f32⟩ : BufTy).Contents (Elt F) → (⟨S10, .f32⟩ : BufTy).Contents (Elt F) → (⟨S10, .i1⟩ : BufTy).Contents (Elt F)),
    nullary main_cst_12 (constant S_ .f32 0x4C000000#32),
    unary main_cst_12 main_v26 (broadcastInDim S10 ![] bcast_S_S10 : (⟨S_, .f32⟩ : BufTy).Contents (Elt F) → (⟨S10, .f32⟩ : BufTy).Contents (Elt F)),
    binary main_cst main_v26 main_v27 (mulf : (⟨S10, .f32⟩ : BufTy).Contents (Elt F) → (⟨S10, .f32⟩ : BufTy).Contents (Elt F) → (⟨S10, .f32⟩ : BufTy).Contents (Elt F)),
    binary main_v27 main_v23 main_v28 (Host.divf : (⟨S10, .f32⟩ : BufTy).Contents (Elt F) → (⟨S10, .f32⟩ : BufTy).Contents (Elt F) → (⟨S10, .f32⟩ : BufTy).Contents (Elt F)),
    nullary main_cst_13 (constant S_ .f32 0x00000000#32),
    TRef.unary (.of main_cst_13) main_call2.v0 id,
    TRef.unary main_call2.v0 main_call2.v1 (broadcastInDim S10 ![] bcast_S_S10),
    TRef.ternary (.of main_v25) (.of main_v28) main_call2.v1 main_call2.v2 select,
    nullary main_c_14 (constantI S_ 32 0#32),
    unary main_c_14 main_v30 (broadcastInDim S1048576 ![] bcast_S_S1048576 : (⟨S_, .i32⟩ : BufTy).Contents (Elt F) → (⟨S1048576, .i32⟩ : BufTy).Contents (Elt F)),
    binary main_v9 main_v30 main_v31 (cmpi .slt : (⟨S1048576, .i32⟩ : BufTy).Contents (Elt F) → (⟨S1048576, .i32⟩ : BufTy).Contents (Elt F) → (⟨S1048576, .i1⟩ : BufTy).Contents (Elt F)),
    nullary main_c_15 (constantI S_ 32 10#32),
    unary main_c_15 main_v32 (broadcastInDim S1048576 ![] bcast_S_S1048576 : (⟨S_, .i32⟩ : BufTy).Contents (Elt F) → (⟨S1048576, .i32⟩ : BufTy).Contents (Elt F)),
    binary main_v9 main_v32 main_v33 (addi : (⟨S1048576, .i32⟩ : BufTy).Contents (Elt F) → (⟨S1048576, .i32⟩ : BufTy).Contents (Elt F) → (⟨S1048576, .i32⟩ : BufTy).Contents (Elt F)),
    ternary main_v31 main_v33 main_v9 main_v34 (select : (⟨S1048576, .i1⟩ : BufTy).Contents (Elt F) → (⟨S1048576, .i32⟩ : BufTy).Contents (Elt F) → (⟨S1048576, .i32⟩ : BufTy).Contents (Elt F) → (⟨S1048576, .i32⟩ : BufTy).Contents (Elt F)),
    unary main_v34 main_v35 (broadcastInDim S1048576x1 ![0] bcast_S1048576_S1048576x1_0 : (⟨S1048576, .i32⟩ : BufTy).Contents (Elt F) → (⟨S1048576x1, .i32⟩ : BufTy).Contents (Elt F)),
    binary main_v29 main_v35 main_v36 ((fun x i => Host.gather gather_S10_S1048576x1_S1048576_n_0_n_n_0_1_1 x i) : (⟨S10, .f32⟩ : BufTy).Contents (Elt F) → (⟨S1048576x1, .i32⟩ : BufTy).Contents (Elt F) → (⟨S1048576, .f32⟩ : BufTy).Contents (Elt F)),
    binary main_v36 main_v36 main_v37 (mulf : (⟨S1048576, .f32⟩ : BufTy).Contents (Elt F) → (⟨S1048576, .f32⟩ : BufTy).Contents (Elt F) → (⟨S1048576, .f32⟩ : BufTy).Contents (Elt F)),
    nullary main_cst_16 (constant S_ .f32 0x00000000#32),
    binary main_v37 main_cst_16 main_v38 ((fun x v => Host.reduceAdd x v reducesTo_S1048576_S_d0 h_S_) : (⟨S1048576, .f32⟩ : BufTy).Contents (Elt F) → (⟨S_, .f32⟩ : BufTy).Contents (Elt F) → (⟨S_, .f32⟩ : BufTy).Contents (Elt F)),
    unary main_v38 main_v39 (broadcastInDim S1048576 ![] bcast_S_S1048576 : (⟨S_, .f32⟩ : BufTy).Contents (Elt F) → (⟨S1048576, .f32⟩ : BufTy).Contents (Elt F)),
    binary main_v37 main_v39 main_v40 (Host.divf : (⟨S1048576, .f32⟩ : BufTy).Contents (Elt F) → (⟨S1048576, .f32⟩ : BufTy).Contents (Elt F) → (⟨S1048576, .f32⟩ : BufTy).Contents (Elt F)) ]

/-- The last stretch: the small quotients cut to zero, the per-row loss, and the weighted sum. -/
abbrev opsC : List (HloOp τ sig (Elt F)) :=
  [ nullary main_cst_17 (constant S_ .f32 0x358637BD#32),
    unary main_cst_17 main_v41 (broadcastInDim S1048576 ![] bcast_S_S1048576 : (⟨S_, .f32⟩ : BufTy).Contents (Elt F) → (⟨S1048576, .f32⟩ : BufTy).Contents (Elt F)),
    binary main_v40 main_v41 main_v42 (cmpf .olt : (⟨S1048576, .f32⟩ : BufTy).Contents (Elt F) → (⟨S1048576, .f32⟩ : BufTy).Contents (Elt F) → (⟨S1048576, .i1⟩ : BufTy).Contents (Elt F)),
    nullary main_cst_18 (constant S_ .f32 0x00000000#32),
    TRef.unary (.of main_cst_18) main_call3.v0 id,
    TRef.unary main_call3.v0 main_call3.v1 (broadcastInDim S1048576 ![] bcast_S_S1048576),
    TRef.ternary (.of main_v42) main_call3.v1 (.of main_v40) main_call3.v2 select,
    unary main_arg0 main_v44 (Host.log : (⟨S1048576x32, .f32⟩ : BufTy).Contents (Elt F) → (⟨S1048576x32, .f32⟩ : BufTy).Contents (Elt F)),
    binary main_arg1 main_v44 main_v45 (mulf : (⟨S1048576x32, .f32⟩ : BufTy).Contents (Elt F) → (⟨S1048576x32, .f32⟩ : BufTy).Contents (Elt F) → (⟨S1048576x32, .f32⟩ : BufTy).Contents (Elt F)),
    nullary main_cst_19 (constant S_ .f32 0x3F800000#32),
    unary main_cst_19 main_v46 (broadcastInDim S1048576x32 ![] bcast_S_S1048576x32 : (⟨S_, .f32⟩ : BufTy).Contents (Elt F) → (⟨S1048576x32, .f32⟩ : BufTy).Contents (Elt F)),
    binary main_v46 main_arg1 main_v47 (subf : (⟨S1048576x32, .f32⟩ : BufTy).Contents (Elt F) → (⟨S1048576x32, .f32⟩ : BufTy).Contents (Elt F) → (⟨S1048576x32, .f32⟩ : BufTy).Contents (Elt F)),
    unary main_arg0 main_v48 (Host.negf : (⟨S1048576x32, .f32⟩ : BufTy).Contents (Elt F) → (⟨S1048576x32, .f32⟩ : BufTy).Contents (Elt F)),
    unary main_v48 main_v49 (Host.log1p : (⟨S1048576x32, .f32⟩ : BufTy).Contents (Elt F) → (⟨S1048576x32, .f32⟩ : BufTy).Contents (Elt F)),
    binary main_v47 main_v49 main_v50 (mulf : (⟨S1048576x32, .f32⟩ : BufTy).Contents (Elt F) → (⟨S1048576x32, .f32⟩ : BufTy).Contents (Elt F) → (⟨S1048576x32, .f32⟩ : BufTy).Contents (Elt F)),
    binary main_v45 main_v50 main_v51 (addf : (⟨S1048576x32, .f32⟩ : BufTy).Contents (Elt F) → (⟨S1048576x32, .f32⟩ : BufTy).Contents (Elt F) → (⟨S1048576x32, .f32⟩ : BufTy).Contents (Elt F)),
    unary main_v51 main_v52 (Host.negf : (⟨S1048576x32, .f32⟩ : BufTy).Contents (Elt F) → (⟨S1048576x32, .f32⟩ : BufTy).Contents (Elt F)),
    nullary main_cst_20 (constant S_ .f32 0x00000000#32),
    binary main_v52 main_cst_20 main_v53 ((fun x v => Host.reduceAdd x v reducesTo_S1048576x32_S1048576_d1 h_S_) : (⟨S1048576x32, .f32⟩ : BufTy).Contents (Elt F) → (⟨S_, .f32⟩ : BufTy).Contents (Elt F) → (⟨S1048576, .f32⟩ : BufTy).Contents (Elt F)),
    nullary main_cst_21 (constant S_ .f32 0x42000000#32),
    unary main_cst_21 main_v54 (broadcastInDim S1048576 ![] bcast_S_S1048576 : (⟨S_, .f32⟩ : BufTy).Contents (Elt F) → (⟨S1048576, .f32⟩ : BufTy).Contents (Elt F)),
    binary main_v53 main_v54 main_v55 (Host.divf : (⟨S1048576, .f32⟩ : BufTy).Contents (Elt F) → (⟨S1048576, .f32⟩ : BufTy).Contents (Elt F) → (⟨S1048576, .f32⟩ : BufTy).Contents (Elt F)),
    binary main_v55 main_v43 main_v56 (mulf : (⟨S1048576, .f32⟩ : BufTy).Contents (Elt F) → (⟨S1048576, .f32⟩ : BufTy).Contents (Elt F) → (⟨S1048576, .f32⟩ : BufTy).Contents (Elt F)),
    nullary main_cst_22 (constant S_ .f32 0x00000000#32),
    binary main_v56 main_cst_22 main_v57 ((fun x v => Host.reduceAdd x v reducesTo_S1048576_S_d0 h_S_) : (⟨S1048576, .f32⟩ : BufTy).Contents (Elt F) → (⟨S_, .f32⟩ : BufTy).Contents (Elt F) → (⟨S_, .f32⟩ : BufTy).Contents (Elt F)) ]

/-! ## @main is that line; its buffers; no operation leaves a result undetermined -/

/-- @main, its two windows in a row and the callees' bodies in place of the calls, is the three stretches in a row:
    both sides are the same nest of single steps. -/
theorem main_eq (c : Dev nD) : main (F := F) c = seq (opsA ++ opsB ++ opsC) := by
  chain_rfl

theorem scopedRefs_eq : (Finset.univ.filter fun b : Ref sig .tc => b.isScoped) = ∅ := by decide
theorem scopedSems_eq : (Finset.univ.filter fun sm : SemLoc sig => sm.isScoped .tc) = ∅ := by decide

theorem opsA_sub : (opsA : List (HloOp τ sig (Elt F))).Forall fun op => op.bufs ⊆ tcRefs τ sig :=
  ⟨nullary_bufs_sub .., binary_bufs_sub .., unary_bufs_sub .., nullary_bufs_sub .., binary_bufs_sub .., nullary_bufs_sub ..,
    unary_bufs_sub .., binary_bufs_sub .., nullary_bufs_sub .., unary_bufs_sub .., binary_bufs_sub .., unary_bufs_sub ..,
    unary_bufs_sub .., nullary_bufs_sub .., nullary_bufs_sub .., unary_bufs_sub .., unary_bufs_sub .., binary_bufs_sub ..,
    unary_bufs_sub .., unary_bufs_sub .., binary_bufs_sub .., nullary_bufs_sub .., unary_bufs_sub .., nullary_bufs_sub ..,
    unary_bufs_sub .., binary_bufs_sub .., nullary_bufs_sub .., unary_bufs_sub .., binary_bufs_sub .., ternary_bufs_sub ..,
    unary_bufs_sub .., nullary_bufs_sub .., unary_bufs_sub .., ternary_bufs_sub ..⟩
theorem opsB_sub : (opsB : List (HloOp τ sig (Elt F))).Forall fun op => op.bufs ⊆ tcRefs τ sig :=
  ⟨nullary_bufs_sub .., unary_bufs_sub .., binary_bufs_sub .., nullary_bufs_sub .., unary_bufs_sub .., binary_bufs_sub ..,
    nullary_bufs_sub .., unary_bufs_sub .., unary_bufs_sub .., ternary_bufs_sub .., nullary_bufs_sub .., unary_bufs_sub ..,
    binary_bufs_sub .., nullary_bufs_sub .., unary_bufs_sub .., binary_bufs_sub .., binary_bufs_sub .., nullary_bufs_sub ..,
    unary_bufs_sub .., unary_bufs_sub .., ternary_bufs_sub .., nullary_bufs_sub .., unary_bufs_sub .., binary_bufs_sub ..,
    nullary_bufs_sub .., unary_bufs_sub .., binary_bufs_sub .., ternary_bufs_sub .., unary_bufs_sub .., binary_bufs_sub ..,
    binary_bufs_sub .., nullary_bufs_sub .., binary_bufs_sub .., unary_bufs_sub .., binary_bufs_sub ..⟩
theorem opsC_sub : (opsC : List (HloOp τ sig (Elt F))).Forall fun op => op.bufs ⊆ tcRefs τ sig :=
  ⟨nullary_bufs_sub .., unary_bufs_sub .., binary_bufs_sub .., nullary_bufs_sub .., unary_bufs_sub .., unary_bufs_sub ..,
    ternary_bufs_sub .., unary_bufs_sub .., binary_bufs_sub .., nullary_bufs_sub .., unary_bufs_sub .., binary_bufs_sub ..,
    unary_bufs_sub .., unary_bufs_sub .., binary_bufs_sub .., binary_bufs_sub .., unary_bufs_sub .., nullary_bufs_sub ..,
    binary_bufs_sub .., nullary_bufs_sub .., unary_bufs_sub .., binary_bufs_sub .., binary_bufs_sub .., nullary_bufs_sub ..,
    binary_bufs_sub ..⟩

theorem ops_sub : (opsA ++ opsB ++ opsC : List (HloOp τ sig (Elt F))).Forall fun op => op.bufs ⊆ tcRefs τ sig :=
  List.forall_append.2 ⟨List.forall_append.2 ⟨opsA_sub, opsB_sub⟩, opsC_sub⟩

theorem opsA_fresh : (opsA : List (HloOp τ sig (Elt F))).Forall fun op => op.fresh = ∅ :=
  ⟨rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl⟩
theorem opsB_fresh : (opsB : List (HloOp τ sig (Elt F))).Forall fun op => op.fresh = ∅ :=
  ⟨rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl⟩
theorem opsC_fresh : (opsC : List (HloOp τ sig (Elt F))).Forall fun op => op.fresh = ∅ :=
  ⟨rfl, rfl, rfl, rfl, rfl, rfl, rfl, rfl, rfl, rfl, rfl, rfl, rfl, rfl, rfl, rfl, rfl, rfl, rfl, rfl,
    rfl, rfl, rfl, rfl, rfl⟩

theorem ops_fresh : ∀ op ∈ (opsA ++ opsB ++ opsC : List (HloOp τ sig (Elt F))), op.fresh = ∅ :=
  List.forall_iff_forall_mem.1 (List.forall_append.2 ⟨List.forall_append.2 ⟨opsA_fresh, opsB_fresh⟩, opsC_fresh⟩)

/-! ## What each stretch leaves in the buffers the next one reads -/

/-- The row's weight before the cut: the row's bin's weight squared over the sum of those squares over all rows. -/
def quot (x y : FVec F S1048576x32 .f32) : FVec F S1048576 .f32 :=
  let g : FVec F S1048576 .f32 := Host.gather gather_S10_S1048576x1_S1048576_n_0_n_n_0_1_1 (Spec.perBin x y) (Spec.binIx x y)
  let q : FVec F S1048576 .f32 := mulf g g
  Host.divf q (broadcastInDim S1048576 ![] bcast_S_S1048576
    (Host.reduceAdd q (constant (F := F) S_ .f32 0x00000000#32) reducesTo_S1048576_S_d0 h_S_))

section Results

-- the sums, the scatter and the gather stay folded: no equation below looks inside them
attribute [local irreducible] Host.reduceAdd Host.scatterAdd Host.gather

theorem A_cst (V : Valuation τ sig (Elt F)) :
    after opsA V (main_cst : DevRef τ sig) = Spec.smooth (F := F) := by
  after_results_simp
  rfl

theorem A_v9 (V : Valuation τ sig (Elt F)) :
    after opsA V (main_v9 : DevRef τ sig) = Spec.bin (V (main_arg0 : DevRef τ sig)) (V (main_arg1 : DevRef τ sig)) := by
  after_results_simp
  rfl

theorem A_v18 (V : Valuation τ sig (Elt F)) :
    after opsA V (main_v18 : DevRef τ sig) = Spec.counts (V (main_arg0 : DevRef τ sig)) (V (main_arg1 : DevRef τ sig)) := by
  after_results_simp
  rfl

theorem A_arg0 (V : Valuation τ sig (Elt F)) :
    after opsA V (main_arg0 : DevRef τ sig) = V (main_arg0 : DevRef τ sig) := by
  after_results_simp

theorem A_arg1 (V : Valuation τ sig (Elt F)) :
    after opsA V (main_arg1 : DevRef τ sig) = V (main_arg1 : DevRef τ sig) := by
  after_results_simp

theorem B_v40 (W : Valuation τ sig (Elt F)) (x y : FVec F S1048576x32 .f32)
    (hc : W (main_cst : DevRef τ sig) = Spec.smooth (F := F)) (hb : W (main_v9 : DevRef τ sig) = Spec.bin x y)
    (hn : W (main_v18 : DevRef τ sig) = Spec.counts x y) :
    after opsB W (main_v40 : DevRef τ sig) = quot x y := by
  after_results_simp
  rw [hc, hb, hn]
  rfl

theorem B_arg0 (W : Valuation τ sig (Elt F)) :
    after opsB W (main_arg0 : DevRef τ sig) = W (main_arg0 : DevRef τ sig) := by
  after_results_simp

theorem B_arg1 (W : Valuation τ sig (Elt F)) :
    after opsB W (main_arg1 : DevRef τ sig) = W (main_arg1 : DevRef τ sig) := by
  after_results_simp

theorem C_v57 (X : Valuation τ sig (Elt F)) (x y : FVec F S1048576x32 .f32)
    (hq : X (main_v40 : DevRef τ sig) = quot x y) (hx : X (main_arg0 : DevRef τ sig) = x)
    (hy : X (main_arg1 : DevRef τ sig) = y) :
    after opsC X (main_v57 : DevRef τ sig) = Spec.result x y := by
  after_results_simp
  rw [hq, hx, hy]
  rfl

theorem C_arg0 (X : Valuation τ sig (Elt F)) :
    after opsC X (main_arg0 : DevRef τ sig) = X (main_arg0 : DevRef τ sig) := by
  after_results_simp

theorem C_arg1 (X : Valuation τ sig (Elt F)) :
    after opsC X (main_arg1 : DevRef τ sig) = X (main_arg1 : DevRef τ sig) := by
  after_results_simp

end Results

theorem res_eq (V : Valuation τ sig (Elt F)) :
    after (opsA ++ opsB ++ opsC) V (main_v57 : DevRef τ sig)
      = Spec.result (V (main_arg0 : DevRef τ sig)) (V (main_arg1 : DevRef τ sig)) := by
  rw [StableHlo.after_append, StableHlo.after_append]
  exact C_v57 _ _ _ (B_v40 _ _ _ (A_cst V) (A_v9 V) (A_v18 V)) ((B_arg0 _).trans (A_arg0 V)) ((B_arg1 _).trans (A_arg1 V))

theorem arg0_eq (V : Valuation τ sig (Elt F)) :
    after (opsA ++ opsB ++ opsC) V (main_arg0 : DevRef τ sig) = V (main_arg0 : DevRef τ sig) := by
  rw [StableHlo.after_append, StableHlo.after_append]
  exact (C_arg0 _).trans ((B_arg0 _).trans (A_arg0 V))

theorem arg1_eq (V : Valuation τ sig (Elt F)) :
    after (opsA ++ opsB ++ opsC) V (main_arg1 : DevRef τ sig) = V (main_arg1 : DevRef τ sig) := by
  rw [StableHlo.after_append, StableHlo.after_append]
  exact (C_arg1 _).trans ((B_arg1 _).trans (A_arg1 V))

theorem run (m : (ℓ : Loc nD τ sig) → Buf (Elt F) ℓ) (ρ : Dev nD → PrngReg) :
    θ_run (defs (F := F)) (onTc (τ := τ) (main (F := F))) ⟨m, fun _ => 0, ρ⟩ (fun r => ∀ c : Dev nD,
      r.2.mem ((c.tc : Thread nD τ).loc main_v57)
          = Spec.result (F := F) (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨(h c main_v57).trans (res_eq _), (h c main_arg0).trans (arg0_eq _),
      (h c main_arg1).trans (arg1_eq _)⟩)
    (run_seq scopedRefs_eq scopedSems_eq defs main (fun _ => opsA ++ opsB ++ opsC) main_eq (fun _ => ops_sub) m ρ
      (fun _ => ops_fresh))

end Cert.ReferenceIdeal.RefRun

end
-- ==== Proof.KernParts.lean ====
/-
  The pieces the two kernel bodies share, named: a tile's per-row bin, its one-hot matrix against the ten bins and
  its per-row loss; and each stored payload written over them.  The equations are definitional.
-/
import proofs.«107730_j46686294508030_1_alg».proof.Proof.KernSpec

noncomputable section

namespace Cert.KernelIdeal.Spec

open Idealize.ShloMosaic Idealize.ShloMosaic.ValueIdx Cert.KernelIdeal Cert.KernelIdeal.Gen

variable {F : FTy → Type} [FloatOps F]

/-- A tile's per-row bin: the mean over the classes of `|x - y|`, times ten, floored, as an integer, clipped into `0 … 9`. -/
def tileBin (xb yb : Vec F S16384x32 .f32) : IVec S16384x1 32 :=
  minsi (broadcast S16384x1 9#32) (maxsi (broadcast S16384x1 0#32)
    (fptosi 32 (floor (mulf
      (divf (shapeCast S16384x1 (multiReduction .add [1] S16384 (absf (subf xb yb)) 0x00000000#32 reduces_S16384x32_S16384 (.inl rfl) rfl) shapeCasts_S16384_S16384x1)
        (broadcast S16384x1 (Scalar.ofBits .f32 0x42000000#32)))
      (broadcast S16384x1 (Scalar.ofBits .f32 0x41200000#32))))))

/-- A tile's one-hot matrix: entry `(r, b)` is one where row `r`'s bin is `b` and zero elsewhere. -/
def tileHot (xb yb : Vec F S16384x32 .f32) : FVec F S16384x10 .f32 :=
  sitofp .f32 (extui 32 (cmpi .eq (broadcastTo S16384x10 (tileBin xb yb) broadcasts_S16384x1_S16384x10)
    (iota .tc S16384x10 32 [1] iota_S16384x10_d1_w32)) natLt_1_32)

/-- A tile's per-row loss: the mean over the classes of `0 - (y · log x + (1 - y) · log1p (0 - x))`, as a column. -/
def tileLoss (xb yb : Vec F S16384x32 .f32) : FVec F S16384x1 .f32 :=
  divf (shapeCast S16384x1 (multiReduction .add [1] S16384 (k1_pay4 xb yb) 0x00000000#32 reduces_S16384x32_S16384 (.inl rfl) rfl) shapeCasts_S16384_S16384x1)
    (broadcast S16384x1 (Scalar.ofBits .f32 0x42000000#32))

/-- The histogram payload: the row before it plus the column sums of the tile's one-hot matrix. -/
theorem k0_pay2_eq (xb yb : Vec F S16384x32 .f32) (s : Vec F S1x10 .f32) :
    k0_pay2 xb yb s = shapeCast S1x10 (addf s (shapeCast S1x10
      (multiReduction .add [0] S10 (tileHot xb yb) 0x00000000#32 reduces_S16384x10_S10 (.inl rfl) rfl) shapeCasts_S10_S1x10)) shapeCasts_S1x10_S1x10 := rfl

/-- The row-weight payload: per row the sum over the bins of the one-hot entry times the table's entry. -/
theorem k1_pay3_eq (xb yb : Vec F S16384x32 .f32) (tb : Vec F S1x10 .f32) :
    k1_pay3 xb yb tb = shapeCast S16384x1 (multiReduction .add [1] S16384
      (mulf (tileHot xb yb) (broadcastTo S16384x10 (shapeCast S1x10 tb shapeCasts_S1x10_S1x10) broadcasts_S1x10_S16384x10))
      0x00000000#32 reduces_S16384x10_S16384 (.inl rfl) rfl) shapeCasts_S16384_S16384x1 := rfl

/-- The loss payload: the cell before it plus the sum over the tile's rows of loss times weight. -/
theorem k1_pay1_eq (xb yb : Vec F S16384x32 .f32) (wr : FVec F S16384x1 .f32) (s : Vec F S1x1 .f32) :
    k1_pay1 wr (k1_pay4 xb yb) s = shapeCast S1x1 (addf s (shapeCast S1x1
      (multiReduction .add [0] S1 (mulf (tileLoss xb yb) wr) 0x00000000#32 reduces_S16384x1_S1 (.inl rfl) rfl) shapeCasts_S1_S1x1)) shapeCasts_S1x1_S1x1 := rfl

end Cert.KernelIdeal.Spec

end
-- ==== Proof.KernClosed.lean ====
/-
  The kernel's histogram in closed form, at the extended reals, over the reference's own per-row bin: a tile's bin and
  one-hot entry are the reference's of that row, and after the last tile the histogram row holds, per bin, the number
  of rows whose bin it is.
-/
import proofs.«107730_j46686294508030_1_alg».proof.Proof.KernParts
import proofs.«107730_j46686294508030_1_alg».proof.Proof.RefSpec
import Idealize.ShloMosaic.PureOps.Ideal.Laws
import Idealize.ShloMosaic.Lib.ValueIdx
import Idealize.ShloMosaic.Lib.ValueLayout
import Idealize.ShloMosaic.Lib.Pipeline.Value

noncomputable section

namespace Cert.KernClosed

open Idealize.ShloMosaic Idealize.ShloMosaic.ValueIdx

/-- Row `R`'s one-hot indicator against bin `b`: one where the reference's bin of the row is `b`, zero elsewhere. -/
def hot (x y : FVec Ideal Cert.ReferenceIdeal.S1048576x32 .f32) (R : Fin 1048576) (b : Fin 10) : EReal :=
  if Cert.ReferenceIdeal.Spec.bin (F := Ideal) x y (ix1 R) = BitVec.ofNat 32 b.val then 1 else 0

/-- The row of tile `t` at position `r` inside it. -/
def row (t : Fin 64) (r : Fin 16384) : Fin 1048576 := ⟨t.val * 16384 + r.val, by have := t.isLt; have := r.isLt; omega⟩

/-! ## A tile's bin: both sides are one chain on the row's sum of `|x - y|` over the 32 classes -/

/-- A row sum of a `[16384, 32]` tile, kept as a column: at row `r` the sum over the 32 classes. -/
theorem rowSum32 (v : FVec Ideal Cert.KernelIdeal.S16384x32 .f32) (r : Fin 16384) (u : Fin 1) :
    shapeCast Cert.KernelIdeal.S16384x1 (multiReduction .add [1] Cert.KernelIdeal.S16384 v 0x00000000#32
        Cert.KernelIdeal.Gen.reduces_S16384x32_S16384 (.inl rfl) rfl) Cert.KernelIdeal.Gen.shapeCasts_S16384_S16384x1 (ix2 r u)
      = ∑ k : Fin 32, v (ix2 r k) := by
  refine (shapeCast_apply _ _ (ix2 r u) (ix1 r) ?_).trans ?_
  · rw [Shape.rowMajor_val_two, Shape.rowMajor_val_one]
    show r.val = r.val * 1 + u.val
    omega
  · refine (Ideal.multiReduction_add_single v _ Cert.KernelIdeal.Gen.reduces_S16384x32_S16384 _ _ (ix1 r)).trans ?_
    refine Finset.sum_congr rfl fun k _ => congrArg v ?_
    funext a
    match a with
    | ⟨0, _⟩ => rfl
    | ⟨1, _⟩ => rfl

/-- The reference's per-row sum of `|x - y|` over the classes, read at the row of tile `t` at `r`, is the tile's. -/
theorem refRowSum (x y : FVec Ideal Cert.KernelIdeal.S1048576x32 .f32) (t : Fin 64) (r : Fin 16384) :
    Host.reduceAdd (Host.absf (subf x y)) (constant (F := Ideal) Cert.ReferenceIdeal.S_ .f32 0x00000000#32)
        Cert.ReferenceIdeal.Gen.reducesTo_S1048576x32_S1048576_d1 Cert.ReferenceIdeal.Gen.h_S_ (ix1 (row t r))
      = ∑ k : Fin 32, absf (subf (Cert.KernelIdeal.Spec.tile x t) (Cert.KernelIdeal.Spec.tile y t)) (ix2 r k) := by
  have hred : Cert.ReferenceIdeal.S1048576x32.Reduces [1] Cert.ReferenceIdeal.S1048576 := by decide
  refine (Ideal.hostReduceAdd_single Cert.ReferenceIdeal.Gen.reducesTo_S1048576x32_S1048576_d1 hred _ _ (ix1 (row t r))).trans ?_
  show Ideal.ofBits .f32 0x00000000#32 + _ = _
  rw [Ideal.ofBits_zero_f32, zero_add]
  refine Finset.sum_congr rfl fun k _ => ?_
  have hi : hred.lift (ix1 (row t r)) k = ix2 (row t r) k := by
    funext a
    match a with
    | ⟨0, _⟩ => rfl
    | ⟨1, _⟩ => rfl
  rw [hi]
  rfl

/-- A tile's per-row bin is the reference's bin of that row. -/
theorem tileBin_apply (x y : FVec Ideal Cert.KernelIdeal.S1048576x32 .f32) (t : Fin 64) (r : Fin 16384) :
    Cert.KernelIdeal.Spec.tileBin (F := Ideal) (Cert.KernelIdeal.Spec.tile x t) (Cert.KernelIdeal.Spec.tile y t) (ix2 r (0 : Fin 1))
      = Cert.ReferenceIdeal.Spec.bin (F := Ideal) x y (ix1 (row t r)) := by
  have hK := rowSum32 (absf (subf (Cert.KernelIdeal.Spec.tile x t) (Cert.KernelIdeal.Spec.tile y t))) r 0
  have hR := refRowSum x y t r
  unfold Cert.KernelIdeal.Spec.tileBin Cert.ReferenceIdeal.Spec.bin Cert.ReferenceIdeal.Spec.gap
  simp only [minsi, maxsi, fptosi, floor, mulf, divf, Host.floor, Host.divf]
  rw [hK, hR]
  rfl

/-! ## A tile's one-hot entry: the comparison of the row's bin with the bin's number, as a float -/

/-- The conversion of a widened comparison bit: one where the two words are equal, zero elsewhere. -/
theorem sitofp_extui_cmpi_eq (B C : BitVec 32) :
    FloatOps.sitofp (F := Ideal) .f32 ((IntOp.cmpi .eq B C).setWidth 32) = if B = C then 1 else 0 := by
  show (((((IntOp.cmpi .eq B C).setWidth 32).toInt : ℤ) : ℝ) : EReal) = _
  by_cases h : B = C
  · have hc : IntOp.cmpi .eq B C = 1#1 := by simp [IntOp.cmpi, h]
    rw [hc, if_pos h]
    norm_num
  · have hb : (B == C) = false := beq_eq_false_iff_ne.mpr h
    have hc : IntOp.cmpi .eq B C = 0#1 := by simp [IntOp.cmpi, hb]
    rw [hc, if_neg h]
    norm_num

/-- A tile's one-hot entry is the row's indicator. -/
theorem tileHot_apply (x y : FVec Ideal Cert.KernelIdeal.S1048576x32 .f32) (t : Fin 64) (r : Fin 16384) (b : Fin 10) :
    Cert.KernelIdeal.Spec.tileHot (F := Ideal) (Cert.KernelIdeal.Spec.tile x t) (Cert.KernelIdeal.Spec.tile y t) (ix2 r b)
      = hot x y (row t r) b := by
  have hB : broadcastTo Cert.KernelIdeal.S16384x10
      (Cert.KernelIdeal.Spec.tileBin (F := Ideal) (Cert.KernelIdeal.Spec.tile x t) (Cert.KernelIdeal.Spec.tile y t))
      Cert.KernelIdeal.Gen.broadcasts_S16384x1_S16384x10 (ix2 r b)
        = Cert.ReferenceIdeal.Spec.bin (F := Ideal) x y (ix1 (row t r)) := by
    refine (broadcastTo_apply _ _ (ix2 r b) (ix2 r (0 : Fin 1)) fun a => ?_).trans (tileBin_apply x y t r)
    match a with
    | ⟨0, _⟩ => rfl
    | ⟨1, _⟩ => rfl
  have hI : iota .tc Cert.KernelIdeal.S16384x10 32 [1] Cert.KernelIdeal.Gen.iota_S16384x10_d1_w32 (ix2 r b) = BitVec.ofNat 32 b.val :=
    iota_single_apply _ _ _ _ _ _
  unfold Cert.KernelIdeal.Spec.tileHot hot
  simp only [sitofp, extui, cmpi]
  rw [hB, hI]
  exact sitofp_extui_cmpi_eq _ _

/-! ## The histogram: each tile adds, per bin, the number of its rows in the bin -/

/-- The column sums of a tile's one-hot matrix, as a row. -/
def colSums (xb yb : Vec Ideal Cert.KernelIdeal.S16384x32 .f32) : FVec Ideal Cert.KernelIdeal.S1x10 .f32 :=
  shapeCast Cert.KernelIdeal.S1x10 (multiReduction .add [0] Cert.KernelIdeal.S10 (Cert.KernelIdeal.Spec.tileHot xb yb) 0x00000000#32
    Cert.KernelIdeal.Gen.reduces_S16384x10_S10 (.inl rfl) rfl) Cert.KernelIdeal.Gen.shapeCasts_S10_S1x10

/-- Per bin, a tile's column sum counts the tile's rows in the bin. -/
theorem colSums_apply (x y : FVec Ideal Cert.KernelIdeal.S1048576x32 .f32) (t : Fin 64) (b : Fin 10) :
    colSums (Cert.KernelIdeal.Spec.tile x t) (Cert.KernelIdeal.Spec.tile y t) (ix2 (0 : Fin 1) b)
      = ∑ r : Fin 16384, hot x y (row t r) b := by
  unfold colSums
  refine (shapeCast_a_1a_apply _ _ 0 b).trans ?_
  refine (Ideal.multiReduction_add_single _ _ Cert.KernelIdeal.Gen.reduces_S16384x10_S10 _ _ (ix1 b)).trans ?_
  refine Finset.sum_congr rfl fun r _ => ?_
  have hi : Cert.KernelIdeal.Gen.reduces_S16384x10_S10.lift (ix1 b) r = ix2 r b := by
    funext a
    match a with
    | ⟨0, _⟩ => rfl
    | ⟨1, _⟩ => rfl
  rw [hi]
  exact tileHot_apply x y t r b

/-- A row re-cast to its own shape after an addition reads the sum of the entries. -/
theorem addRow_apply (s : Vec Ideal Cert.KernelIdeal.S1x10 .f32) (w : FVec Ideal Cert.KernelIdeal.S1x10 .f32) (b : Fin 10) :
    shapeCast Cert.KernelIdeal.S1x10 (addf s w) Cert.KernelIdeal.Gen.shapeCasts_S1x10_S1x10 (ix2 (0 : Fin 1) b)
      = s (ix2 (0 : Fin 1) b) + w (ix2 (0 : Fin 1) b) := by
  refine (shapeCast_apply _ _ (ix2 (0 : Fin 1) b) (ix2 (0 : Fin 1) b) rfl).trans rfl

/-- One tile's step of the histogram, per bin: the row before it plus the number of the tile's rows in the bin. -/
theorem k0_pay2_apply (x y : FVec Ideal Cert.KernelIdeal.S1048576x32 .f32) (t : Fin 64)
    (s : Vec Ideal Cert.KernelIdeal.S1x10 .f32) (b : Fin 10) :
    Cert.KernelIdeal.Gen.k0_pay2 (Cert.KernelIdeal.Spec.tile x t) (Cert.KernelIdeal.Spec.tile y t) s (ix2 (0 : Fin 1) b)
      = s (ix2 (0 : Fin 1) b) + ∑ r : Fin 16384, hot x y (row t r) b := by
  have h1 : Cert.KernelIdeal.Gen.k0_pay2 (Cert.KernelIdeal.Spec.tile x t) (Cert.KernelIdeal.Spec.tile y t) s
      = shapeCast Cert.KernelIdeal.S1x10 (addf s (colSums (Cert.KernelIdeal.Spec.tile x t) (Cert.KernelIdeal.Spec.tile y t)))
          Cert.KernelIdeal.Gen.shapeCasts_S1x10_S1x10 :=
    Cert.KernelIdeal.Spec.k0_pay2_eq (F := Ideal) _ _ s
  rw [h1, addRow_apply, colSums_apply]

/-- The zero row the first tile adds to. -/
theorem k0_pay1_apply (j : Cert.KernelIdeal.S1x10.Idx) : Cert.KernelIdeal.Gen.k0_pay1 (F := Ideal) j = 0 := by
  show Ideal.ofBits .f32 0x00000000#32 = 0
  exact Ideal.ofBits_zero_f32

/-- The histogram after tiles `0 … n`, per bin: the number of those tiles' rows in the bin (a tile number past
    63 wraps, as in the recursion). -/
theorem hist_apply (x y : FVec Ideal Cert.KernelIdeal.S1048576x32 .f32) (b : Fin 10) (n : ℕ) :
    Cert.KernelIdeal.Spec.hist (F := Ideal) x y n (ix2 (0 : Fin 1) b)
      = ∑ t ∈ Finset.range (n + 1), ∑ r : Fin 16384, hot x y (row (Fin.ofNat 64 t) r) b := by
  induction n with
  | zero =>
    rw [Finset.sum_range_one, Cert.KernelIdeal.Spec.hist, k0_pay2_apply, k0_pay1_apply, zero_add]
    rfl
  | succ n ih =>
    rw [Finset.sum_range_succ, ← ih, Cert.KernelIdeal.Spec.hist, k0_pay2_apply]

/-- The rows of the array are the rows of its 64 tiles. -/
def rowEquiv : Fin 64 × Fin 16384 ≃ Fin 1048576 where
  toFun p := row p.1 p.2
  invFun R := (⟨R.val / 16384, by have := R.isLt; omega⟩, ⟨R.val % 16384, by omega⟩)
  left_inv := by
    rintro ⟨t, r⟩
    have ht := t.isLt
    have hr := r.isLt
    refine Prod.ext (Fin.ext ?_) (Fin.ext ?_)
    · show (t.val * 16384 + r.val) / 16384 = t.val
      omega
    · show (t.val * 16384 + r.val) % 16384 = r.val
      omega
  right_inv := by
    intro R
    refine Fin.ext ?_
    show R.val / 16384 * 16384 + R.val % 16384 = R.val
    omega

/-- The histogram after the last tile: per bin, the number of rows in it. -/
theorem hist_last (x y : FVec Ideal Cert.KernelIdeal.S1048576x32 .f32) (b : Fin 10) :
    Cert.KernelIdeal.Spec.hist (F := Ideal) x y 63 (ix2 (0 : Fin 1) b) = ∑ R : Fin 1048576, hot x y R b := by
  rw [hist_apply x y b 63, ← Equiv.sum_comp rowEquiv (fun R => hot x y R b), Fintype.sum_prod_type,
    ← Fin.sum_univ_eq_sum_range (fun t => ∑ r : Fin 16384, hot x y (row (Fin.ofNat 64 t) r) b) 64]
  refine Finset.sum_congr rfl fun t _ => ?_
  rw [Fin.ofNat_val_eq_self]
  rfl

end Cert.KernClosed

end
-- ==== Proof.KernLoss.lean ====
/-
  The kernel's loss accumulation in closed form, at the extended reals: after the last tile the loss cell holds the
  sum over all rows of the row's loss times the table's entry at the row's bin (written as a sum over the bins against
  the row's one-hot indicator).

  Each tile adds to the cell before it the sum over its 16384 rows of (per-row loss) · (row weight). The per-row loss
  of row `r` of tile `t` is the reference's loss of row `16384 t + r`: both are the sum over the 32 classes of
  `-(y · log x + (1 - y) · log1p (-x))` over 32, the kernel writing each negation as `0 - ·`. The row weight is the
  sum over the ten bins of the row's indicator times the table's entry. The cells add up, tile after tile, from the
  zero cell; the double sum over tiles and positions is the sum over rows along `(t, r) ↦ 16384 t + r`. Only the
  commutative-monoid laws of addition are used: no product is distributed over a sum.
-/
import proofs.«107730_j46686294508030_1_alg».proof.Proof.KernClosed
import Idealize.ShloMosaic.PureOps.Ideal.Laws
import Idealize.ShloMosaic.Lib.ValueIdx
import Idealize.ShloMosaic.Lib.Pipeline.Value
import Mathlib.Algebra.BigOperators.Fin
import Mathlib.Algebra.BigOperators.Group.Finset.Basic

noncomputable section

namespace Cert.KernClosed

open Idealize.ShloMosaic Idealize.ShloMosaic.ValueIdx

namespace Loss

open Cert.KernelIdeal Cert.KernelIdeal.Gen Cert.KernelIdeal.Spec

/-- The zero cell the first tile adds to. -/
theorem pay2_apply : k1_pay2 (F := Ideal) (ix2 (0 : Fin 1) (0 : Fin 1)) = 0 := by
  unfold k1_pay2
  rw [shapeCast_self]
  show Ideal.ofBits .f32 0x00000000#32 = 0
  exact Ideal.ofBits_zero_f32

/-- A row index of the one-hot matrix with the bin inserted is the pair (row, bin). -/
theorem lift_row (h : S16384x10.Reduces [1] S16384) (r : Fin 16384) (k : Fin 10) :
    h.lift (ix1 r) k = ix2 r k := by
  funext a
  match a with
  | ⟨0, _⟩ => exact Fin.ext rfl
  | ⟨1, _⟩ => exact Fin.ext rfl

/-- A row index of a tile with the class inserted is the pair (row, class). -/
theorem lift_cls (h : S16384x32.Reduces [1] S16384) (r : Fin 16384) (k : Fin 32) :
    h.lift (ix1 r) k = ix2 r k := by
  funext a
  match a with
  | ⟨0, _⟩ => exact Fin.ext rfl
  | ⟨1, _⟩ => exact Fin.ext rfl

/-- The one cell of the column sum with the row inserted is the pair (row, 0). -/
theorem lift_col (h : S16384x1.Reduces [0] S1) (k : Fin 16384) :
    h.lift (ix1 (0 : Fin 1)) k = ix2 k (0 : Fin 1) := by
  funext a
  match a with
  | ⟨0, _⟩ => exact Fin.ext rfl
  | ⟨1, _⟩ => exact Fin.ext rfl

/-- A reference row index with the class inserted is the pair (row, class). -/
theorem lift_ref (h : Cert.ReferenceIdeal.S1048576x32.Reduces [1] Cert.ReferenceIdeal.S1048576) (R : Fin 1048576) (k : Fin 32) :
    h.lift (ix1 R) k = ix2 R k := by
  funext a
  match a with
  | ⟨0, _⟩ => exact Fin.ext rfl
  | ⟨1, _⟩ => exact Fin.ext rfl

/-- The row weight of row `r` of tile `t`: the sum over the bins of the row's indicator times the table's entry. -/
theorem weight_apply (x y : FVec Ideal S1048576x32 .f32) (tb : FVec Ideal S1x10 .f32) (t : Fin 64) (r : Fin 16384) :
    k1_pay3 (F := Ideal) (tile x t) (tile y t) tb (ix2 r (0 : Fin 1))
      = ∑ b : Fin 10, hot x y (row t r) b * tb (ix2 (0 : Fin 1) b) := by
  rw [k1_pay3_eq]
  refine (shapeCast_apply _ _ (ix2 r (0 : Fin 1)) (ix1 r) ?_).trans ?_
  · rw [Shape.rowMajor_val_one, Shape.rowMajor_val_two]
    show r.val = r.val * 1 + 0
    omega
  · have key : ∀ b : Fin 10, mulf (tileHot (F := Ideal) (tile x t) (tile y t))
        (broadcastTo S16384x10 (shapeCast S1x10 tb shapeCasts_S1x10_S1x10) broadcasts_S1x10_S16384x10)
        (reduces_S16384x10_S16384.lift (ix1 r) b) = hot x y (row t r) b * tb (ix2 (0 : Fin 1) b) := by
      intro b
      rw [lift_row, mulf_apply, tileHot_apply]
      congr 1
      refine (broadcastTo_apply _ _ (ix2 r b) (ix2 (0 : Fin 1) b) ?_).trans ?_
      · intro a
        match a with
        | ⟨0, _⟩ => rfl
        | ⟨1, _⟩ => rfl
      · rw [shapeCast_self]
    exact (Ideal.multiReduction_add_single (φ := .f32) _ _ reduces_S16384x10_S16384 (.inl rfl) rfl (ix1 r)).trans
      (Finset.sum_congr rfl fun b _ => key b)

/-- The reference's per-class term of the loss, as an array: `-(y · log x + (1 - y) · log1p (-x))`. -/
def refTerm (x y : FVec Ideal Cert.ReferenceIdeal.S1048576x32 .f32) : FVec Ideal Cert.ReferenceIdeal.S1048576x32 .f32 :=
  Host.negf (addf (mulf y (Host.log x))
    (mulf (subf (broadcastInDim Cert.ReferenceIdeal.S1048576x32 ![] Cert.ReferenceIdeal.Gen.bcast_S_S1048576x32
      (constant (F := Ideal) Cert.ReferenceIdeal.S_ .f32 0x3F800000#32)) y) (Host.log1p (Host.negf x))))

/-- The per-class term of the loss, the kernel's and the reference's: `0 - a = -a` on the extended reals. -/
theorem term_apply (x y : FVec Ideal S1048576x32 .f32) (t : Fin 64) (r : Fin 16384) (k : Fin 32) :
    k1_pay4 (F := Ideal) (tile x t) (tile y t) (ix2 r k) = refTerm x y (ix2 (row t r) k) := by
  show (Ideal.ofBits .f32 0x00000000#32 : EReal)
        - (y (ix2 (row t r) k) * Ideal.log (x (ix2 (row t r) k))
            + (Ideal.ofBits .f32 0x3F800000#32 - y (ix2 (row t r) k)) * Ideal.log1p (Ideal.ofBits .f32 0x00000000#32 - x (ix2 (row t r) k)))
      = -(y (ix2 (row t r) k) * Ideal.log (x (ix2 (row t r) k))
            + (Ideal.ofBits .f32 0x3F800000#32 - y (ix2 (row t r) k)) * Ideal.log1p (-(x (ix2 (row t r) k))))
  rw [Ideal.ofBits_zero_f32, zero_sub, zero_sub]

/-- A tile's per-row loss is the reference's loss of that row. -/
theorem tileLoss_apply (x y : FVec Ideal S1048576x32 .f32) (t : Fin 64) (r : Fin 16384) :
    tileLoss (F := Ideal) (tile x t) (tile y t) (ix2 r (0 : Fin 1))
      = Cert.ReferenceIdeal.Spec.rowLoss (F := Ideal) x y (ix1 (row t r)) := by
  show Ideal.div _ _ = Ideal.div _ _
  refine congrArg₂ Ideal.div ?_ rfl
  refine (shapeCast_apply _ _ (ix2 r (0 : Fin 1)) (ix1 r) ?_).trans ?_
  · rw [Shape.rowMajor_val_one, Shape.rowMajor_val_two]
    show r.val = r.val * 1 + 0
    omega
  · refine (Ideal.multiReduction_add_single (φ := .f32) _ _ reduces_S16384x32_S16384 (.inl rfl) rfl (ix1 r)).trans ?_
    have hred : Cert.ReferenceIdeal.S1048576x32.Reduces [1] Cert.ReferenceIdeal.S1048576 := by decide
    refine Eq.trans ?_ (Ideal.hostReduceAdd_single Cert.ReferenceIdeal.Gen.reducesTo_S1048576x32_S1048576_d1
      hred (refTerm x y) _ (ix1 (row t r))).symm
    have key : ∀ k : Fin 32, k1_pay4 (F := Ideal) (tile x t) (tile y t) (reduces_S16384x32_S16384.lift (ix1 r) k)
        = refTerm x y (hred.lift (ix1 (row t r)) k) := by
      intro k
      rw [lift_cls, lift_ref]
      exact term_apply x y t r k
    show _ = (Ideal.ofBits .f32 0x00000000#32 : EReal) + _
    rw [Ideal.ofBits_zero_f32, zero_add]
    exact Finset.sum_congr rfl fun k _ => key k

/-- Row `R`'s share of the loss under the table `tb`: its loss times the table's entry at its bin. -/
def rowTerm (x y : FVec Ideal S1048576x32 .f32) (tb : FVec Ideal S1x10 .f32) (R : Fin 1048576) : EReal :=
  Cert.ReferenceIdeal.Spec.rowLoss (F := Ideal) x y (ix1 R) * ∑ b : Fin 10, hot x y R b * tb (ix2 (0 : Fin 1) b)

/-- The sum tile `t` adds to the loss cell. -/
def tileSum (x y : FVec Ideal S1048576x32 .f32) (tb : FVec Ideal S1x10 .f32) (t : Fin 64) : EReal :=
  ∑ r : Fin 16384, rowTerm x y tb (row t r)

/-- One tile's step: the cell before it plus the tile's sum. -/
theorem step_apply (x y : FVec Ideal S1048576x32 .f32) (tb : FVec Ideal S1x10 .f32) (t : Fin 64) (s : FVec Ideal S1x1 .f32) :
    k1_pay1 (F := Ideal) (k1_pay3 (tile x t) (tile y t) tb) (k1_pay4 (tile x t) (tile y t)) s (ix2 (0 : Fin 1) (0 : Fin 1))
      = s (ix2 (0 : Fin 1) (0 : Fin 1)) + tileSum x y tb t := by
  rw [k1_pay1_eq, shapeCast_self, addf_apply]
  refine congrArg₂ (· + ·) rfl ?_
  refine (shapeCast_apply _ _ (ix2 (0 : Fin 1) (0 : Fin 1)) (ix1 (0 : Fin 1)) ?_).trans ?_
  · rw [Shape.rowMajor_val_one, Shape.rowMajor_val_two]
    rfl
  · have key : ∀ r : Fin 16384, mulf (tileLoss (F := Ideal) (tile x t) (tile y t)) (k1_pay3 (tile x t) (tile y t) tb)
        (reduces_S16384x1_S1.lift (ix1 (0 : Fin 1)) r)
        = rowTerm x y tb (row t r) := by
      intro r
      rw [lift_col, mulf_apply, tileLoss_apply, weight_apply]
      rfl
    exact (Ideal.multiReduction_add_single (φ := .f32) _ _ reduces_S16384x1_S1 (.inl rfl) rfl (ix1 (0 : Fin 1))).trans
      (Finset.sum_congr rfl fun r _ => key r)

/-- The loss cell after tiles `0 … n` (tile numbers wrapping past 63, as the recursion does). -/
theorem lossAcc_range (x y : FVec Ideal S1048576x32 .f32) (tb : FVec Ideal S1x10 .f32) :
    ∀ n : ℕ, lossAcc (F := Ideal) x y tb n (ix2 (0 : Fin 1) (0 : Fin 1))
      = ∑ i ∈ Finset.range (n + 1), tileSum x y tb (Fin.ofNat 64 i)
  | 0 => by
    rw [Finset.sum_range_one]
    refine (step_apply x y tb (Fin.ofNat 64 0) (k1_pay2 (F := Ideal))).trans ?_
    rw [pay2_apply, zero_add]
  | n + 1 => by
    rw [Finset.sum_range_succ, ← lossAcc_range x y tb n]
    exact step_apply x y tb (Fin.ofNat 64 (n + 1)) (lossAcc x y tb n)

/-- Tile and position inside it against the row: `(t, r) ↦ 16384 t + r` is a bijection onto the rows. -/
def rowEquiv : Fin 64 × Fin 16384 ≃ Fin 1048576 where
  toFun p := row p.1 p.2
  invFun R := (⟨R.val / 16384, by have := R.isLt; omega⟩, ⟨R.val % 16384, by omega⟩)
  left_inv p := by
    obtain ⟨t, r⟩ := p
    have hr := r.isLt
    refine Prod.ext (Fin.ext ?_) (Fin.ext ?_)
    · show (t.val * 16384 + r.val) / 16384 = t.val
      omega
    · show (t.val * 16384 + r.val) % 16384 = r.val
      omega
  right_inv R := Fin.ext (by
    show R.val / 16384 * 16384 + R.val % 16384 = R.val
    omega)

end Loss

/-- The loss cell after the last tile, under any table `tb`. -/
theorem lossAcc_last (x y : FVec Ideal Cert.KernelIdeal.S1048576x32 .f32) (tb : FVec Ideal Cert.KernelIdeal.S1x10 .f32) :
    Cert.KernelIdeal.Spec.lossAcc (F := Ideal) x y tb 63 (ix2 (0 : Fin 1) (0 : Fin 1))
      = ∑ R : Fin 1048576, Cert.ReferenceIdeal.Spec.rowLoss (F := Ideal) x y (ix1 R) * ∑ b : Fin 10, hot x y R b * tb (ix2 (0 : Fin 1) b) := by
  have h1 : Cert.KernelIdeal.Spec.lossAcc (F := Ideal) x y tb 63 (ix2 (0 : Fin 1) (0 : Fin 1))
      = ∑ i ∈ Finset.range 64, Loss.tileSum x y tb (Fin.ofNat 64 i) := Loss.lossAcc_range x y tb 63
  have h2 : ∑ i ∈ Finset.range 64, Loss.tileSum x y tb (Fin.ofNat 64 i) = ∑ t : Fin 64, Loss.tileSum x y tb t := by
    rw [Finset.sum_range]
    exact Finset.sum_congr rfl fun i _ => congrArg (Loss.tileSum x y tb) (Fin.ext (Nat.mod_eq_of_lt i.isLt))
  have h3 : ∑ t : Fin 64, Loss.tileSum x y tb t
      = ∑ t : Fin 64, ∑ r : Fin 16384, (fun p : Fin 64 × Fin 16384 => Loss.rowTerm x y tb (Loss.rowEquiv p)) (t, r) := rfl
  have h4 : ∑ t : Fin 64, ∑ r : Fin 16384, (fun p : Fin 64 × Fin 16384 => Loss.rowTerm x y tb (Loss.rowEquiv p)) (t, r)
      = ∑ p : Fin 64 × Fin 16384, Loss.rowTerm x y tb (Loss.rowEquiv p) :=
    (Fintype.sum_prod_type (fun p : Fin 64 × Fin 16384 => Loss.rowTerm x y tb (Loss.rowEquiv p))).symm
  have h5 : ∑ p : Fin 64 × Fin 16384, Loss.rowTerm x y tb (Loss.rowEquiv p) = ∑ R : Fin 1048576, Loss.rowTerm x y tb R :=
    Equiv.sum_comp Loss.rowEquiv (Loss.rowTerm x y tb)
  exact h1.trans (h2.trans (h3.trans (h4.trans h5)))

end Cert.KernClosed

end
-- ==== Proof.LibVecGatherScatter.lean ====
/-
  A gather and a scatter-add of a vector, read at an entry (a general lemma: nothing here depends on a program).

  For an operand of shape [N], index arrays of shape [E, 1] and updates of shape [E], the scatter-add (no update
  window axis, inserted window axis 0, scatter axis 0, index vector axis 1) at entry n is x[n] plus the sum, over
  the positions e whose index idx[e], read signed, is n, of the update e: a position whose index is not an entry
  of the operand contributes nothing. The gather (no offset axis, collapsed axis 0, start index map [0], index
  vector axis 1, slice sizes [1]) at e is the operand at min(idx[e], N - 1) (the index read signed and clamped).
-/
import Idealize.ShloMosaic.Lib.ValueIdx
import Idealize.ShloMosaic.PureOps.Ideal.Laws

noncomputable section

namespace Cert.Lib.VecPass

open Idealize.ShloMosaic Idealize.ShloMosaic.ValueIdx

section Generic

/-- A rank-1 index set is its one coordinate's range … -/
def idxEquiv1 {n : Nat} : (⟨1, ![n]⟩ : Shape).Idx ≃ Fin n where
  toFun i := i 0
  invFun a := ix1 a
  left_inv i := (eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- The only axis of a rank-1 shape is 0. -/
theorem fin1_eq (a : Fin 1) : a = 0 := Subsingleton.elim _ _

/-- The vector scatter's dimension numbers over an operand [N], indices [E, 1] and updates [E]. -/
abbrev scD1 (N E : Nat) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

variable {N E w : Nat} (wf : ScatterDims.WF ⟨1, ![N]⟩ ⟨2, ![E, 1]⟩ ⟨1, ![E]⟩ [] [0] [0] 1)

/-- The window of update e starts at idx[e], read signed. -/
theorem sc1_start (idx : IVec ⟨2, ![E, 1]⟩ w) (e : Fin E) :
    (scD1 N E wf).start (ix1 e) idx 0 = (idx (ix2 e 0)).toInt := by
  unfold ScatterDims.start
  rw [dif_pos (show (0 : Fin 1) ∈ (scD1 N E wf).scatterDimsToOperandDims from List.mem_singleton.mpr rfl)]
  congr 2
  funext b
  match b with
  | ⟨0, _⟩ => rfl
  | ⟨1, _⟩ => rfl

/-- The operand's one axis is inserted: the window coordinate there is 0. -/
theorem sc1_window (e : Fin E) : (scD1 N E wf).window (ix1 e) 0 = 0 := by
  unfold ScatterDims.window
  have h : (0 : Fin 1) ∉ (scD1 N E wf).sKept :=
    (by decide : (0 : Fin 1) ∉ (List.finRange 1).filter (fun a => a ∉ ([0] : List (Fin 1))))
  rw [dif_neg h]

/-- Update e lands at n exactly when idx[e] = n (an update whose idx[e] is not an entry lands nowhere). -/
theorem sc1_result_iff (idx : IVec ⟨2, ![E, 1]⟩ w) (e : Fin E) (n : Fin N) :
    (scD1 N E wf).resultIdx? (ix1 e) idx = some (ix1 n) ↔ (idx (ix2 e 0)).toInt = (n.val : Int) := by
  have hn := n.isLt
  unfold ScatterDims.resultIdx?
  split
  · rename_i h
    have h0 := h 0
    rw [sc1_start, sc1_window] at h0
    constructor
    · intro hs
      have hs' := Option.some.inj hs
      have e0 := congrArg (fun f => (f 0).val) hs'
      simp only [sc1_start, sc1_window] at e0
      change _ = n.val at e0
      omega
    · intro ht
      congr 1
      funext a
      refine Fin.ext ?_
      obtain rfl := fin1_eq a
      show ((scD1 N E wf).start (ix1 e) idx 0 + ((scD1 N E wf).window (ix1 e) 0 : Int)).toNat = n.val
      rw [sc1_start, sc1_window, ht]; omega
  · rename_i h
    constructor
    · intro hs; exact absurd hs (by simp)
    · intro ht
      exfalso; apply h
      intro a
      obtain rfl := fin1_eq a
      rw [sc1_start, sc1_window, ht]
      show (0 : Int) ≤ (n.val : Int) + ((0 : Nat) : Int) ∧ (n.val : Int) + ((0 : Nat) : Int) < (N : Int)
      omega

/-- The scatter-add at entry n: x[n] plus the sum over the positions e with idx[e] = n of the update e. -/
theorem sc1_apply (x : (⟨1, ![N]⟩ : Shape).Idx → EReal) (idx : IVec ⟨2, ![E, 1]⟩ w)
    (upd : (⟨1, ![E]⟩ : Shape).Idx → EReal) (n : Fin N) :
    Ideal.hostScatterAdd (scD1 N E wf) x idx upd (ix1 n)
      = x (ix1 n) + ∑ e : Fin E, if (idx (ix2 e 0)).toInt = (n.val : Int) then upd (ix1 e) else 0 := by
  show x (ix1 n) + ∑ j ∈ Finset.univ.filter (fun j => (scD1 N E wf).resultIdx? j idx = some (ix1 n)), upd j = _
  congr 1
  rw [Finset.sum_filter, sum_idx1]
  exact Finset.sum_congr rfl fun e _ => if_congr (sc1_result_iff wf idx e n) rfl rfl

/-- The vector gather's dimension numbers over an operand [N], start indices [E, 1] and a result [E]. -/
abbrev gaD1 (N E : Nat) (wfg : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wfg

variable (wfg : GatherDims.WF ⟨1, ![N]⟩ ⟨2, ![E, 1]⟩ ⟨1, ![E]⟩ [] [0] [] [0] [] 1 ![1])

/-- The slice of result e starts at idx[e], read signed and clamped into [0, N - 1]. -/
theorem ga1_start (idx : IVec ⟨2, ![E, 1]⟩ w) (e : Fin E) :
    (gaD1 N E wfg).start (ix1 e) idx 0 = min (idx (ix2 e 0)).toInt.toNat (N - 1) := by
  unfold GatherDims.start
  rw [dif_pos (show (0 : Fin 1) ∈ (gaD1 N E wfg).startIndexMap from List.mem_singleton.mpr rfl)]
  have hsi : (gaD1 N E wfg).siIdx (ix1 e) ⟨List.idxOf (0 : Fin 1) (gaD1 N E wfg).startIndexMap,
      List.idxOf_lt_length_iff.2 (List.mem_singleton.mpr rfl)⟩ = ix2 e 0 := by
    funext b
    match b with
    | ⟨0, _⟩ => rfl
    | ⟨1, _⟩ => rfl
  rw [hsi]
  rfl

/-- The operand's one axis is collapsed: the offset coordinate there is 0. -/
theorem ga1_off (e : Fin E) : (gaD1 N E wfg).offCoord (ix1 e) 0 = 0 := by
  unfold GatherDims.offCoord
  have h : (0 : Fin 1) ∉ (gaD1 N E wfg).sKept :=
    (by decide : (0 : Fin 1) ∉ (List.finRange 1).filter (fun a => a ∉ ([0] ++ [] : List (Fin 1))))
  rw [dif_neg h]

/-- The gather at e: the operand at min(idx[e], N - 1). -/
theorem ga1_apply {α : Type} (hN : 0 < N) (H : (⟨1, ![N]⟩ : Shape).Idx → α) (idx : IVec ⟨2, ![E, 1]⟩ w)
    (e : Fin E) :
    Host.gather (gaD1 N E wfg) H idx (ix1 e)
      = H (ix1 ⟨min (idx (ix2 e 0)).toInt.toNat (N - 1), by omega⟩) := by
  unfold Host.gather
  congr 1
  funext a
  refine Fin.ext ?_
  obtain rfl := fin1_eq a
  show (gaD1 N E wfg).start (ix1 e) idx 0 + (gaD1 N E wfg).batchCoord (ix1 e) 0
    + (gaD1 N E wfg).offCoord (ix1 e) 0 = min (idx (ix2 e 0)).toInt.toNat (N - 1)
  rw [ga1_start, ga1_off, GatherDims.batchCoord_eq_zero _ _ _ List.not_mem_nil, Nat.add_zero]

end Generic

end Cert.Lib.VecPass

end
-- ==== Proof.Algebra.lean ====
/-
  The two programs compute one number: the kernel's result term is the reference's, at the extended reals.

  Every row's bin word is one of 0 … 9, so the reference's index column is the bin itself and a sum over the bins
  against the row's one-hot indicator picks the entry at the row's bin.  The reference's scatter of ones is, per bin,
  the number of rows in it, which is what the kernel's histogram row holds; so the per-bin weight p and its square q
  are the same vectors on both sides.  The kernel normalises by Σ_b (rows in b) · q b and the reference by
  Σ_R q (bin R); these are one number, because a sum of indicators (none negative) times q b is the sum of the
  products, and the double sum may be taken in either order.  The reference's per-row weight is therefore the kernel's
  table at the row's bin, and the two weighted sums of the per-row losses agree term by term.
-/
import proofs.«107730_j46686294508030_1_alg».proof.Proof.KernLoss
import proofs.«107730_j46686294508030_1_alg».proof.Proof.LibVecGatherScatter
import Idealize.ShloMosaic.Lib.ValueLayout
import Idealize.ShloMosaic.Lib.Pipeline.Value
import Idealize.ShloMosaic.Lib.IdealHost
import Mathlib.Data.EReal.Operations

noncomputable section

namespace Cert.Algebra

open Idealize.ShloMosaic Idealize.ShloMosaic.ValueIdx Cert.KernClosed Cert.Lib.VecPass
open Cert.ReferenceIdeal (S10 S_ S1048576 S1048576x1 S1048576x32)
open Cert.ReferenceIdeal.Gen (bcast_S_S10 bcast_S_S1048576 reducesTo_S1048576_S_d0 h_S_
  scatter_S10_S1048576x1_S1048576_n_0_0_1_wf gather_S10_S1048576x1_S1048576_n_0_n_n_0_1_1_wf)
open Cert.ReferenceIdeal.Spec (gap bin binIx counts smooth perBin rowW rowLoss rows bins rowsI)
open Cert.KernelIdeal.Spec (hist wtab lossAcc)

/-! ## Words: a 32-bit word clipped into 0 … 9 -/

/-- The signed maximum with 0 followed by the signed minimum with 9 is one of the words 0 … 9. -/
theorem clip_range (v : BitVec 32) :
    ∃ β : Fin 10, IntOp.minsi 9#32 (IntOp.maxsi 0#32 v) = BitVec.ofNat 32 β.val := by
  unfold IntOp.minsi IntOp.maxsi
  by_cases h0 : v.slt 0#32 = true
  · refine ⟨0, ?_⟩
    rw [if_pos h0]
    rfl
  · rw [if_neg h0]
    by_cases h9 : (9#32).slt v = true
    · exact ⟨9, by rw [if_pos h9]; rfl⟩
    · rw [if_neg h9]
      have e0 : ¬ v.toInt < 0 := by
        intro h; apply h0; rw [BitVec.slt_eq_decide]; exact decide_eq_true (by simpa using h)
      have e9 : ¬ 9 < v.toInt := by
        intro h; apply h9; rw [BitVec.slt_eq_decide]; exact decide_eq_true (by simpa using h)
      have hn : (0 : Int) ≤ v.toInt := by omega
      have hlt : v.toInt.toNat < 10 := by omega
      refine ⟨⟨v.toInt.toNat, hlt⟩, ?_⟩
      show v = BitVec.ofNat 32 v.toInt.toNat
      rw [← BitVec.ofInt_natCast, Int.toNat_of_nonneg hn, BitVec.ofInt_toInt]

/-- Two numbers below ten with the same word are equal. -/
theorem ofNat_inj10 (a b : Fin 10) (h : BitVec.ofNat 32 a.val = BitVec.ofNat 32 b.val) : a = b := by
  have := congrArg BitVec.toNat h
  simp only [BitVec.toNat_ofNat] at this
  have ha := a.isLt; have hb := b.isLt
  apply Fin.ext; omega

/-- The word of a number below ten reads, signed, as that number … -/
theorem toInt_ofNat10 (a : Fin 10) : (BitVec.ofNat 32 a.val).toInt = (a.val : Int) := by
  obtain ⟨a, ha⟩ := a
  interval_cases a <;> rfl

/-- … and is not negative. -/
theorem slt_ofNat10 (a : Fin 10) : (BitVec.ofNat 32 a.val).slt 0#32 = false := by
  obtain ⟨a, ha⟩ := a
  interval_cases a <;> rfl

/-! ## Sums of extended reals -/

/-- A sum of terms none of which is negative, times a factor, is the sum of the products. -/
theorem sum_mul_of_nonneg {ι : Type} (s : Finset ι) (f : ι → EReal) (hf : ∀ i ∈ s, 0 ≤ f i) (c : EReal) :
    (∑ i ∈ s, f i) * c = ∑ i ∈ s, f i * c := by
  classical
  induction s using Finset.induction_on with
  | empty => simp
  | insert a s ha ih =>
    rw [Finset.sum_insert ha, Finset.sum_insert ha,
      EReal.right_distrib_of_nonneg (hf a (Finset.mem_insert_self a s))
        (Finset.sum_nonneg fun i hi => hf i (Finset.mem_insert_of_mem hi)),
      ih (fun i hi => hf i (Finset.mem_insert_of_mem hi))]

/-- The host's sum of a vector into a scalar, from a constant: the constant plus the sum of the entries. -/
theorem hostSum_vec {n : Nat} (h' : (⟨1, ![n]⟩ : Shape).ReducesTo [0] ⟨0, ![]⟩) (hu : 0 < (⟨0, ![]⟩ : Shape).numel)
    (v : FVec Ideal ⟨1, ![n]⟩ .f32) (w : BitVec 32) (j : (⟨0, ![]⟩ : Shape).Idx) :
    Host.reduceAdd (F := Ideal) v (constant (F := Ideal) ⟨0, ![]⟩ .f32 w) h' hu j
      = Ideal.ofBits .f32 w + ∑ k : Fin n, v (ix1 k) := by
  show Ideal.hostReduceAdd h' v (Ideal.ofBits .f32 w) j = _
  rw [Ideal.hostReduceAdd_total h' (fun b => b.elim0), sum_idx1]

/-- The host's scatter-add of a vector at an entry, at any sizes: the operand's entry plus the updates whose index is
    that entry. -/
theorem hostScatter_vec {N E w : Nat} (wf : ScatterDims.WF ⟨1, ![N]⟩ ⟨2, ![E, 1]⟩ ⟨1, ![E]⟩ [] [0] [0] 1)
    (X : FVec Ideal ⟨1, ![N]⟩ .f32) (idx : IVec ⟨2, ![E, 1]⟩ w) (upd : FVec Ideal ⟨1, ![E]⟩ .f32) (n : Fin N) :
    Host.scatterAdd (F := Ideal) (scD1 N E wf) X idx upd (ix1 n)
      = X (ix1 n) + ∑ e : Fin E, if (idx (ix2 e 0)).toInt = (n.val : Int) then upd (ix1 e) else 0 :=
  sc1_apply wf X idx upd n

/-! ## The row's bin as a number below ten -/

section Bins

variable (x y : FVec Ideal S1048576x32 .f32)

theorem bin_range (R : Fin 1048576) : ∃ β : Fin 10, bin (F := Ideal) x y (ix1 R) = BitVec.ofNat 32 β.val :=
  clip_range _

/-- The row's bin, as a number below ten. -/
def binF (R : Fin 1048576) : Fin 10 := Classical.choose (bin_range x y R)

theorem bin_eq (R : Fin 1048576) : bin (F := Ideal) x y (ix1 R) = BitVec.ofNat 32 (binF x y R).val :=
  Classical.choose_spec (bin_range x y R)

/-- The one-hot indicator is one at the row's bin and zero elsewhere. -/
theorem hot_eq (R : Fin 1048576) (b : Fin 10) : hot x y R b = if binF x y R = b then 1 else 0 := by
  unfold hot
  rw [bin_eq]
  by_cases h : binF x y R = b
  · rw [if_pos h, if_pos (by rw [h])]
  · rw [if_neg h, if_neg (fun e => h (ofNat_inj10 _ _ e))]

theorem hot_nonneg (R : Fin 1048576) (b : Fin 10) : 0 ≤ hot x y R b := by
  rw [hot_eq]
  split
  · exact zero_le_one
  · exact le_refl _

/-- A sum over the bins against the row's indicator picks the entry at the row's bin. -/
theorem sum_hot_mul (R : Fin 1048576) (f : Fin 10 → EReal) : ∑ b : Fin 10, hot x y R b * f b = f (binF x y R) := by
  rw [Finset.sum_eq_single (binF x y R)]
  · rw [hot_eq, if_pos rfl, one_mul]
  · intro b _ hb; rw [hot_eq, if_neg (Ne.symm hb), zero_mul]
  · intro h; exact absurd (Finset.mem_univ _) h

/-- The index column holds the bin itself: the correction for a negative index never applies. -/
theorem binIx_eq (R : Fin 1048576) :
    binIx (F := Ideal) x y (ix2 R (0 : Fin 1)) = BitVec.ofNat 32 (binF x y R).val := by
  have e : binIx (F := Ideal) x y (ix2 R (0 : Fin 1))
      = Scalar.select (IntOp.cmpi .slt (bin (F := Ideal) x y (ix1 R)) 0#32)
          (IntOp.addi (bin (F := Ideal) x y (ix1 R)) 10#32) (bin (F := Ideal) x y (ix1 R)) :=
    broadcastInDim_apply _ _ _ _ (ix1 R) (by
      intro a; obtain rfl := fin1_eq a
      rfl)
  rw [e, bin_eq]
  have hc : IntOp.cmpi .slt (BitVec.ofNat 32 (binF x y R).val) 0#32 = 0#1 := by
    show BitVec.ofBool ((BitVec.ofNat 32 (binF x y R).val).slt 0#32) = 0#1
    rw [slt_ofNat10]; rfl
  rw [hc, select_zero]

/-- A constant vector reads its constant at every entry. -/
theorem bins_apply (w : BitVec 32) (i : S10.Idx) : bins (F := Ideal) w i = Ideal.ofBits .f32 w := rfl
theorem rows_apply (w : BitVec 32) (i : S1048576.Idx) : rows (F := Ideal) w i = Ideal.ofBits .f32 w := rfl

/-- The reference's scatter has the vector scatter's dimension numbers. -/
theorem scatter_dims :
    Cert.ReferenceIdeal.scatter_S10_S1048576x1_S1048576_n_0_0_1
      = scD1 10 1048576 scatter_S10_S1048576x1_S1048576_n_0_0_1_wf := rfl

/-- The scatter of ones: per bin, the number of rows in it. -/
theorem counts_apply (b : Fin 10) : counts (F := Ideal) x y (ix1 b) = ∑ R : Fin 1048576, hot x y R b := by
  show Host.scatterAdd (F := Ideal) Cert.ReferenceIdeal.scatter_S10_S1048576x1_S1048576_n_0_0_1
    (bins (F := Ideal) 0x00000000#32) (binIx (F := Ideal) x y) (rows (F := Ideal) 0x3F800000#32) (ix1 b) = _
  rw [scatter_dims, hostScatter_vec, bins_apply, Ideal.ofBits_zero_f32, zero_add]
  refine Finset.sum_congr rfl fun R _ => ?_
  rw [rows_apply, Ideal.ofBits_one_f32, binIx_eq, toInt_ofNat10, hot_eq]
  exact if_congr (by rw [Int.natCast_inj, Fin.val_inj]) rfl rfl

/-- The kernel's last histogram row, as a vector, is the reference's counts. -/
theorem kcount_eq :
    shapeCast Cert.KernelIdeal.S10 (hist (F := Ideal) x y 63) Cert.KernelIdeal.Gen.shapeCasts_S1x10_S10
      = counts (F := Ideal) x y := by
  funext i
  obtain ⟨b, rfl⟩ : ∃ b, i = ix1 b := ⟨i 0, eq_ix1 i⟩
  rw [counts_apply]
  exact (shapeCast_1a_a_apply _ _ b).trans (hist_last x y b)

/-- The sum over the bins of (rows in the bin) · Q is the sum over the rows of Q at the row's bin. -/
theorem norm_eq (Q : Fin 10 → EReal) :
    ∑ b : Fin 10, (∑ R : Fin 1048576, hot x y R b) * Q b = ∑ R : Fin 1048576, Q (binF x y R) := by
  calc ∑ b : Fin 10, (∑ R : Fin 1048576, hot x y R b) * Q b
      = ∑ b : Fin 10, ∑ R : Fin 1048576, hot x y R b * Q b :=
        Finset.sum_congr rfl fun b _ => sum_mul_of_nonneg _ _ (fun R _ => hot_nonneg x y R b) _
    _ = ∑ R : Fin 1048576, ∑ b : Fin 10, hot x y R b * Q b := Finset.sum_comm
    _ = ∑ R : Fin 1048576, Q (binF x y R) := Finset.sum_congr rfl fun R _ => sum_hot_mul x y R Q

end Bins

/-! ## The weights -/

section Weights

/-- A vector over a broadcast host sum, then zeroed below a threshold, read at an entry, at any size: the entry over
    the constant plus the sum, compared with the threshold's entry. -/
theorem quot_thr_apply {n : Nat} (q zs tv zv : FVec Ideal ⟨1, ![n]⟩ .f32)
    (bc : (⟨0, ![]⟩ : Shape).BroadcastsInDim ⟨1, ![n]⟩ ![])
    (h' : (⟨1, ![n]⟩ : Shape).ReducesTo [0] ⟨0, ![]⟩) (hu : 0 < (⟨0, ![]⟩ : Shape).numel) (i : Fin n) :
    select (cmpf .olt (Host.divf q (broadcastInDim ⟨1, ![n]⟩ ![] bc
        (Host.reduceAdd (F := Ideal) zs (constant (F := Ideal) ⟨0, ![]⟩ .f32 0x00000000#32) h' hu))) tv) zv
      (Host.divf q (broadcastInDim ⟨1, ![n]⟩ ![] bc
        (Host.reduceAdd (F := Ideal) zs (constant (F := Ideal) ⟨0, ![]⟩ .f32 0x00000000#32) h' hu))) (ix1 i)
      = Scalar.select (Ideal.cmp .olt (Ideal.div (q (ix1 i)) (Ideal.ofBits .f32 0x00000000#32 + ∑ k : Fin n, zs (ix1 k)))
          (tv (ix1 i))) (zv (ix1 i))
          (Ideal.div (q (ix1 i)) (Ideal.ofBits .f32 0x00000000#32 + ∑ k : Fin n, zs (ix1 k))) := by
  have hz : broadcastInDim ⟨1, ![n]⟩ ![] bc
        (Host.reduceAdd (F := Ideal) zs (constant (F := Ideal) ⟨0, ![]⟩ .f32 0x00000000#32) h' hu) (ix1 i)
      = Ideal.ofBits .f32 0x00000000#32 + ∑ k : Fin n, zs (ix1 k) := by
    rw [broadcastInDim_scalar_apply, hostSum_vec]
  rw [← hz]
  rfl

/-- The per-bin weight of a count vector c under a smoothing row sm: (sm · 2^25) / s where c is positive and 0
    elsewhere, s a quarter of c where that is positive and 1 elsewhere. -/
def pOf (sm c : FVec Ideal S10 .f32) : FVec Ideal S10 .f32 :=
  let a : FVec Ideal S10 .f32 := mulf (bins 0x3E800000#32) c
  let s : FVec Ideal S10 .f32 := select (cmpf .ogt a (bins 0x00000000#32)) a (bins 0x3F800000#32)
  select (cmpf .ogt c (bins 0x00000000#32)) (Host.divf (mulf sm (bins 0x4C000000#32)) s) (bins 0x00000000#32)

/-- The table of a count vector, as a vector: q = p · p over Σ c · q, zeroed below the threshold. -/
def wOf (sm c : FVec Ideal S10 .f32) : FVec Ideal S10 .f32 :=
  let q : FVec Ideal S10 .f32 := mulf (pOf sm c) (pOf sm c)
  let z : FVec Ideal S_ .f32 := Host.reduceAdd (mulf c q) (constant (F := Ideal) S_ .f32 0x00000000#32)
    Cert.KernelIdeal.Gen.reducesTo_S10_S_d0 h_S_
  let u : FVec Ideal S10 .f32 := Host.divf q (broadcastInDim S10 ![] bcast_S_S10 z)
  select (cmpf .olt u (bins 0x358637BD#32)) (bins 0x00000000#32) u

/-- The threshold at one element: zero below 1e-6, the element elsewhere. -/
def thr (u : EReal) : EReal :=
  Scalar.select (Ideal.cmp .olt u (Ideal.ofBits .f32 0x358637BD#32)) (Ideal.ofBits .f32 0x00000000#32) u

theorem thr_def (u : EReal) :
    Scalar.select (Ideal.cmp .olt u (Ideal.ofBits .f32 0x358637BD#32)) (Ideal.ofBits .f32 0x00000000#32) u = thr u := rfl

/-- The kernel's smoothing row … -/
def smoothK : FVec Ideal S10 .f32 := fun i => FloatOps.ofBits .f32 (Cert.KernelIdeal.lit0 (S10.rowMajor i))

/-- … is the reference's: the two literal tables hold the same ten words. -/
theorem smoothK_eq : smoothK = smooth (F := Ideal) :=
  funext fun i => congrArg (FloatOps.ofBits (F := Ideal) .f32)
    ((by decide : ∀ k : Fin 10, Cert.KernelIdeal.lit0 k = Cert.ReferenceIdeal.lit0 k) _)

theorem perBin_eq (x y : FVec Ideal S1048576x32 .f32) :
    perBin (F := Ideal) x y = pOf smooth (counts (F := Ideal) x y) := rfl

theorem wtab_eq (cnt : FVec Ideal Cert.KernelIdeal.S1x10 .f32) :
    wtab (F := Ideal) cnt
      = shapeCast Cert.KernelIdeal.S1x10
          (wOf smoothK (shapeCast Cert.KernelIdeal.S10 cnt Cert.KernelIdeal.Gen.shapeCasts_S1x10_S10))
          Cert.KernelIdeal.Gen.shapeCasts_S10_S1x10 := rfl

/-- The table at a bin: the threshold of q at the bin over the constant plus Σ c · q. -/
theorem wOf_apply (sm c : FVec Ideal S10 .f32) (b : Fin 10) :
    wOf sm c (ix1 b) = thr (Ideal.div (pOf sm c (ix1 b) * pOf sm c (ix1 b))
      (Ideal.ofBits .f32 0x00000000#32 + ∑ k : Fin 10, c (ix1 k) * (pOf sm c (ix1 k) * pOf sm c (ix1 k)))) := by
  show select (cmpf .olt (Host.divf (mulf (pOf sm c) (pOf sm c)) (broadcastInDim S10 ![] bcast_S_S10
        (Host.reduceAdd (F := Ideal) (mulf c (mulf (pOf sm c) (pOf sm c))) (constant (F := Ideal) S_ .f32 0x00000000#32)
          Cert.KernelIdeal.Gen.reducesTo_S10_S_d0 h_S_))) (bins 0x358637BD#32)) (bins 0x00000000#32)
      (Host.divf (mulf (pOf sm c) (pOf sm c)) (broadcastInDim S10 ![] bcast_S_S10
        (Host.reduceAdd (F := Ideal) (mulf c (mulf (pOf sm c) (pOf sm c))) (constant (F := Ideal) S_ .f32 0x00000000#32)
          Cert.KernelIdeal.Gen.reducesTo_S10_S_d0 h_S_))) (ix1 b) = _
  rw [quot_thr_apply, bins_apply, bins_apply, thr_def, mulf_apply]
  refine congrArg (fun t => thr (Ideal.div (pOf sm c (ix1 b) * pOf sm c (ix1 b)) (Ideal.ofBits .f32 0x00000000#32 + t))) ?_
  exact Finset.sum_congr rfl fun k _ => by rw [mulf_apply, mulf_apply]

variable (x y : FVec Ideal S1048576x32 .f32)

/-- The reference's gathered per-bin weight, per row. -/
def gRow : FVec Ideal S1048576 .f32 :=
  Host.gather Cert.ReferenceIdeal.gather_S10_S1048576x1_S1048576_n_0_n_n_0_1_1 (perBin (F := Ideal) x y) (binIx (F := Ideal) x y)

/-- The reference's gather has the vector gather's dimension numbers. -/
theorem gather_dims :
    Cert.ReferenceIdeal.gather_S10_S1048576x1_S1048576_n_0_n_n_0_1_1
      = gaD1 10 1048576 gather_S10_S1048576x1_S1048576_n_0_n_n_0_1_1_wf := rfl

/-- The gathered weight of a row is the per-bin weight at the row's bin. -/
theorem gRow_apply (R : Fin 1048576) :
    gRow x y (ix1 R) = pOf smooth (counts (F := Ideal) x y) (ix1 (binF x y R)) := by
  show Host.gather Cert.ReferenceIdeal.gather_S10_S1048576x1_S1048576_n_0_n_n_0_1_1
    (perBin (F := Ideal) x y) (binIx (F := Ideal) x y) (ix1 R) = _
  rw [gather_dims, ga1_apply (N := 10) _ (by decide), perBin_eq]
  refine congrArg (fun k => pOf smooth (counts (F := Ideal) x y) (ix1 k)) (Fin.ext ?_)
  show min (binIx (F := Ideal) x y (ix2 R (0 : Fin 1))).toInt.toNat (10 - 1) = (binF x y R).val
  rw [binIx_eq, toInt_ofNat10, Int.toNat_natCast]
  have := (binF x y R).isLt
  omega

/-- The reference's per-row weight: the threshold of q at the row's bin over the constant plus Σ_R q (bin R). -/
theorem rowW_apply (R : Fin 1048576) :
    rowW (F := Ideal) x y (ix1 R)
      = thr (Ideal.div (pOf smooth (counts (F := Ideal) x y) (ix1 (binF x y R)) * pOf smooth (counts (F := Ideal) x y) (ix1 (binF x y R)))
          (Ideal.ofBits .f32 0x00000000#32 + ∑ R' : Fin 1048576,
            pOf smooth (counts (F := Ideal) x y) (ix1 (binF x y R')) * pOf smooth (counts (F := Ideal) x y) (ix1 (binF x y R')))) := by
  show select (cmpf .olt (Host.divf (mulf (gRow x y) (gRow x y)) (broadcastInDim S1048576 ![] bcast_S_S1048576
        (Host.reduceAdd (F := Ideal) (mulf (gRow x y) (gRow x y)) (constant (F := Ideal) S_ .f32 0x00000000#32)
          reducesTo_S1048576_S_d0 h_S_))) (rows 0x358637BD#32)) (rows 0x00000000#32)
      (Host.divf (mulf (gRow x y) (gRow x y)) (broadcastInDim S1048576 ![] bcast_S_S1048576
        (Host.reduceAdd (F := Ideal) (mulf (gRow x y) (gRow x y)) (constant (F := Ideal) S_ .f32 0x00000000#32)
          reducesTo_S1048576_S_d0 h_S_))) (ix1 R) = _
  rw [quot_thr_apply, rows_apply, rows_apply, thr_def, mulf_apply, gRow_apply]
  refine congrArg (fun t => thr (Ideal.div (pOf smooth (counts (F := Ideal) x y) (ix1 (binF x y R))
    * pOf smooth (counts (F := Ideal) x y) (ix1 (binF x y R))) (Ideal.ofBits .f32 0x00000000#32 + t))) ?_
  exact Finset.sum_congr rfl fun R' _ => by rw [mulf_apply, gRow_apply]

end Weights

/-! ## The join -/

/-- The kernel's result of two arrays is the reference's result of them. -/
theorem result_eq (x y : FVec Ideal Cert.KernelIdeal.S1048576x32 .f32) :
    Cert.KernelIdeal.Spec.result (F := Ideal) x y = Cert.ReferenceIdeal.Spec.result (F := Ideal) x y := by
  funext j
  -- the kernel: the sum over the rows of the row's loss times the table at the row's bin
  have hK : Cert.KernelIdeal.Spec.result (F := Ideal) x y j
      = ∑ R : Fin 1048576, rowLoss (F := Ideal) x y (ix1 R) * wOf smooth (counts (F := Ideal) x y) (ix1 (binF x y R)) := by
    have h1 : Cert.KernelIdeal.Spec.result (F := Ideal) x y j
        = lossAcc (F := Ideal) x y (wtab (hist (F := Ideal) x y 63)) 63 (ix2 (0 : Fin 1) (0 : Fin 1)) :=
      shapeCast_apply _ _ _ _ (by
        rw [Shape.rowMajor_val_two]
        show 0 * 1 + 0 = (Shape.rowMajorPi _ j).val
        rw [Shape.rowMajorPi_zero])
    rw [h1, lossAcc_last]
    refine Finset.sum_congr rfl fun R _ => ?_
    rw [sum_hot_mul x y R (fun b => wtab (hist (F := Ideal) x y 63) (ix2 (0 : Fin 1) b))]
    refine congrArg (fun t => rowLoss (F := Ideal) x y (ix1 R) * t) ?_
    rw [wtab_eq, shapeCast_a_1a_apply, smoothK_eq, kcount_eq]
  -- the reference: the sum over the rows of the row's loss times the row's weight
  have hR : Cert.ReferenceIdeal.Spec.result (F := Ideal) x y j
      = ∑ R : Fin 1048576, rowLoss (F := Ideal) x y (ix1 R) * rowW (F := Ideal) x y (ix1 R) := by
    show Host.reduceAdd (F := Ideal) (mulf (rowLoss (F := Ideal) x y) (rowW (F := Ideal) x y))
      (constant (F := Ideal) S_ .f32 0x00000000#32) reducesTo_S1048576_S_d0 h_S_ j = _
    rw [hostSum_vec, Ideal.ofBits_zero_f32, zero_add]
    exact Finset.sum_congr rfl fun R _ => mulf_apply _ _ _
  rw [hK, hR]
  refine Finset.sum_congr rfl fun R _ => ?_
  refine congrArg (fun t => rowLoss (F := Ideal) x y (ix1 R) * t) ?_
  rw [rowW_apply, wOf_apply]
  -- the two normalisers are one number
  have hn : ∑ k : Fin 10, counts (F := Ideal) x y (ix1 k)
        * (pOf smooth (counts (F := Ideal) x y) (ix1 k) * pOf smooth (counts (F := Ideal) x y) (ix1 k))
      = ∑ R' : Fin 1048576, pOf smooth (counts (F := Ideal) x y) (ix1 (binF x y R'))
          * pOf smooth (counts (F := Ideal) x y) (ix1 (binF x y R')) := by
    rw [← norm_eq x y (fun k => pOf smooth (counts (F := Ideal) x y) (ix1 k) * pOf smooth (counts (F := Ideal) x y) (ix1 k))]
    exact Finset.sum_congr rfl fun k _ => by rw [counts_apply]
  rw [hn]

end Cert.Algebra

end
-- ==== Proof.lean ====
/-
  The certificate of a two-pass loss kernel against its jnp reference, over the extended reals.

  Both programs take `inputs, targets : f32[1048576, 32]`.  Per row `r` let `g r` be the mean over the 32 classes of
  `|inputs - targets|` and `bin r` the integer `floor (10 · g r)` clipped into `0 … 9`.  With `c b` the number of rows
  in bin `b`, `p b = (smooth b · 2^25) / s b` where `c b > 0` (`s b = c b / 4` where that is positive, else `1`) and `0`
  elsewhere, and `q = p · p`, both compute
      Σ_r  rowLoss r · thr (q (bin r) / Σ_r' q (bin r')),     thr u = 0 where u < 1e-6, else u,
  `rowLoss r` the mean over the classes of `-(t · log x + (1 - t) · log1p (-x))`.

  The kernel does it in two regions of 64 grid points over tiles of 16384 rows: the first accumulates the ten counts
  (a one-hot matrix summed down the rows, carried in a scratch row that the first point resets), the host turns the
  counts into the ten-entry table `thr (q b / Σ_b c b · q b)`, and the second accumulates `Σ_r rowLoss r · table (bin r)`
  (the table selected by the same one-hot matrix), carried in a scratch cell.  The reference counts by a scatter-add,
  selects `p` by a gather and normalises per row.  The two agree because `Σ_b c b · q b = Σ_r q (bin r)`, the table's
  entry at a row's bin is the row's weight, and sums over tiles regroup into sums over rows (addition on the extended
  reals is commutative and associative; the one distribution used is over non-negative terms).

  The frames: each kernel program's run is the launch of its two regions (each region's body obligation by cases on
  the first grid point, the carried scratch named in the region's invariant) over the valuations of the buffers
  between @main's items; the reference's frame is its run with the result dropped.  The ideal pass rewrote nothing.
-/
import proofs.«107730_j46686294508030_1_alg».proof.Defs
import proofs.«107730_j46686294508030_1_alg».proof.Proof.Gen.Kernel
import proofs.«107730_j46686294508030_1_alg».proof.Proof.Gen.KernelIdeal
import proofs.«107730_j46686294508030_1_alg».proof.Proof.Gen.ReferenceIdeal
import proofs.«107730_j46686294508030_1_alg».proof.Proof.Gen.Pre_finite_inputs
import proofs.«107730_j46686294508030_1_alg».proof.Proof.K.Frame
import proofs.«107730_j46686294508030_1_alg».proof.Proof.KI.ValueRun
import proofs.«107730_j46686294508030_1_alg».proof.Proof.RefRun
import proofs.«107730_j46686294508030_1_alg».proof.Proof.Algebra

noncomputable section

namespace Cert.Proof

open Idealize.ShloMosaic Idealize.SL.Sem

theorem frame_k : Cert.frame_Kernel := fun m ρ _ => Cert.Kernel.Hand.frame m ρ

theorem frame_ki : Cert.frame_KernelIdeal := fun m ρ _ => Cert.KernelIdeal.Hand.frame m ρ

theorem frame_ri : Cert.frame_ReferenceIdeal := fun m ρ _ =>
  (θ_run Cert.ReferenceIdeal.defs _ _).mono (fun _ h c => (h c).2) (Cert.ReferenceIdeal.RefRun.run (F := Ideal) m ρ)

/-- From memories agreeing on the arguments the kernel ends at its result term of them and the reference at its own,
    and the two terms are one number. -/
theorem algebraic : Cert.algebraic_KernelIdeal_ReferenceIdeal := by
  intro m ρ m' ρ' _ hagree
  refine ⟨fun c => Cert.KernelIdeal.Spec.result (F := Ideal) (Cert.KernelIdeal.Hand.argX m c) (Cert.KernelIdeal.Hand.argY m c),
    Cert.KernelIdeal.Hand.value_run (F := Ideal) m ρ, ?_⟩
  refine (θ_run Cert.ReferenceIdeal.defs _ _).mono (fun _ h c => ⟨(h c).1.trans ?_, (h c).2⟩)
    (Cert.ReferenceIdeal.RefRun.run (F := Ideal) m' ρ')
  rw [(hagree c).1, (hagree c).2]
  exact (Cert.Algebra.result_eq _ _).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
